-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S4000000x2 : Shape := ⟨2, ![4000000, 2]⟩
abbrev S4000000 : Shape := ⟨1, ![4000000]⟩
abbrev S4000000x3 : Shape := ⟨2, ![4000000, 3]⟩
abbrev S2000000x1 : Shape := ⟨2, ![2000000, 1]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S4000000 : S_.BroadcastsInDim S4000000 (![] : Fin 0 → Fin S4000000.rank)
  reducesTo_S4000000_S_d0 : S4000000.ReducesTo [0] S_
  bcast_S_S4000000x3 : S_.BroadcastsInDim S4000000x3 (![] : Fin 0 → Fin S4000000x3.rank)
  reducesTo_S4000000x3_S_d0_1 : S4000000x3.ReducesTo [0, 1] S_
  bcast_S_S2000000x1 : S_.BroadcastsInDim S2000000x1 (![] : Fin 0 → Fin S2000000x1.rank)
  reducesTo_S2000000x1_S_d0_1 : S2000000x1.ReducesTo [0, 1] S_
  bcast_S_S4000000x2 : S_.BroadcastsInDim S4000000x2 (![] : Fin 0 → Fin S4000000x2.rank)
  reducesTo_S4000000x2_S_d0_1 : S4000000x2.ReducesTo [0, 1] S_

variable [Facts]

def fn_part3 {F : FTy → Type} [FloatOps F] (main_arg2 : IVec S4000000x2 32) (main_v48 : IVec S_ 1) (main_v50 : IVec S4000000x2 1) : IVec S_ 1 :=
  let main_c_19 : IVec S_ 32 := constantI S_ 32 2000000#32
  let main_v51 : IVec S4000000x2 32 := broadcastInDim S4000000x2 ![] bcast_S_S4000000x2 main_c_19
  let main_v52 : IVec S4000000x2 1 := cmpi .slt main_arg2 main_v51
  let main_v53 : IVec S4000000x2 1 := andi main_v50 main_v52
  let main_c_20 : IVec S_ 1 := constantI S_ 1 1#1
  let main_v54 : IVec S_ 1 := (fun x v => Host.reduce IntOp.andi x v reducesTo_S4000000x2_S_d0_1 h_S_) main_v53 main_c_20
  let main_v55 : IVec S_ 1 := andi main_v48 main_v54
  main_v55

def fn_part2 {F : FTy → Type} [FloatOps F] (main_arg2 : IVec S4000000x2 32) (main_arg8 : FVec F S2000000x3 .f32) (main_arg9 : FVec F S2000000x1 .f32) (main_arg10 : FVec F S2000000x1 .f32) (main_v33 : IVec S_ 1) : IVec S_ 1 :=
  let main_v34 : FVec F S2000000x3 .f32 := Host.absf main_arg8
  let main_cst_12 : FVec F S_ .f32 := constant S_ .f32 0x7F800000#32
  let main_v35 : FVec F S2000000x3 .f32 := broadcastInDim S2000000x3 ![] bcast_S_S2000000x3 main_cst_12
  let main_v36 : IVec S2000000x3 1 := cmpf .olt main_v34 main_v35
  let main_c_13 : IVec S_ 1 := constantI S_ 1 1#1
  let main_v37 : IVec S_ 1 := (fun x v => Host.reduce IntOp.andi x v reducesTo_S2000000x3_S_d0_1 h_S_) main_v36 main_c_13
  let main_v38 : IVec S_ 1 := andi main_v33 main_v37
  let main_v39 : FVec F S2000000x1 .f32 := Host.absf main_arg9
  let main_cst_14 : FVec F S_ .f32 := constant S_ .f32 0x7F800000#32
  let main_v40 : FVec F S2000000x1 .f32 := broadcastInDim S2000000x1 ![] bcast_S_S2000000x1 main_cst_14
  let main_v41 : IVec S2000000x1 1 := cmpf .olt main_v39 main_v40
  let main_c_15 : IVec S_ 1 := constantI S_ 1 1#1
  let main_v42 : IVec S_ 1 := (fun x v => Host.reduce IntOp.andi x v reducesTo_S2000000x1_S_d0_1 h_S_) main_v41 main_c_15
  let main_v43 : IVec S_ 1 := andi main_v38 main_v42
  let main_v44 : FVec F S2000000x1 .f32 := Host.absf main_arg10
  let main_cst_16 : FVec F S_ .f32 := constant S_ .f32 0x7F800000#32
  let main_v45 : FVec F S2000000x1 .f32 := broadcastInDim S2000000x1 ![] bcast_S_S2000000x1 main_cst_16
  let main_v46 : IVec S2000000x1 1 := cmpf .olt main_v44 main_v45
  let main_c_17 : IVec S_ 1 := constantI S_ 1 1#1
  let main_v47 : IVec S_ 1 := (fun x v => Host.reduce IntOp.andi x v reducesTo_S2000000x1_S_d0_1 h_S_) main_v46 main_c_17
  let main_v48 : IVec S_ 1 := andi main_v43 main_v47
  let main_c_18 : IVec S_ 32 := constantI S_ 32 4292967296#32
  let main_v49 : IVec S4000000x2 32 := broadcastInDim S4000000x2 ![] bcast_S_S4000000x2 main_c_18
  let main_v50 : IVec S4000000x2 1 := cmpi .sge main_arg2 main_v49
  fn_part3 (F := F) main_arg2 main_v48 main_v50

def fn_part1 {F : FTy → Type} [FloatOps F] (main_arg2 : IVec S4000000x2 32) (main_arg5 : FVec F S4000000 .f32) (main_arg6 : FVec F S4000000 .f32) (main_arg7 : FVec F S4000000x3 .f32) (main_arg8 : FVec F S2000000x3 .f32) (main_arg9 : FVec F S2000000x1 .f32) (main_arg10 : FVec F S2000000x1 .f32) (main_v13 : IVec S_ 1) (main_v16 : IVec S4000000 1) : IVec S_ 1 :=
  let main_c_5 : IVec S_ 1 := constantI S_ 1 1#1
  let main_v17 : IVec S_ 1 := (fun x v => Host.reduce IntOp.andi x v reducesTo_S4000000_S_d0 h_S_) main_v16 main_c_5
  let main_v18 : IVec S_ 1 := andi main_v13 main_v17
  let main_v19 : FVec F S4000000 .f32 := Host.absf main_arg5
  let main_cst_6 : FVec F S_ .f32 := constant S_ .f32 0x7F800000#32
  let main_v20 : FVec F S4000000 .f32 := broadcastInDim S4000000 ![] bcast_S_S4000000 main_cst_6
  let main_v21 : IVec S4000000 1 := cmpf .olt main_v19 main_v20
  let main_c_7 : IVec S_ 1 := constantI S_ 1 1#1
  let main_v22 : IVec S_ 1 := (fun x v => Host.reduce IntOp.andi x v reducesTo_S4000000_S_d0 h_S_) main_v21 main_c_7
  let main_v23 : IVec S_ 1 := andi main_v18 main_v22
  let main_v24 : FVec F S4000000 .f32 := Host.absf main_arg6
  let main_cst_8 : FVec F S_ .f32 := constant S_ .f32 0x7F800000#32
  let main_v25 : FVec F S4000000 .f32 := broadcastInDim S4000000 ![] bcast_S_S4000000 main_cst_8
  let main_v26 : IVec S4000000 1 := cmpf .olt main_v24 main_v25
  let main_c_9 : IVec S_ 1 := constantI S_ 1 1#1
  let main_v27 : IVec S_ 1 := (fun x v => Host.reduce IntOp.andi x v reducesTo_S4000000_S_d0 h_S_) main_v26 main_c_9
  let main_v28 : IVec S_ 1 := andi main_v23 main_v27
  let main_v29 : FVec F S4000000x3 .f32 := Host.absf main_arg7
  let main_cst_10 : FVec F S_ .f32 := constant S_ .f32 0x7F800000#32
  let main_v30 : FVec F S4000000x3 .f32 := broadcastInDim S4000000x3 ![] bcast_S_S4000000x3 main_cst_10
  let main_v31 : IVec S4000000x3 1 := cmpf .olt main_v29 main_v30
  let main_c_11 : IVec S_ 1 := constantI S_ 1 1#1
  let main_v32 : IVec S_ 1 := (fun x v => Host.reduce IntOp.andi x v reducesTo_S4000000x3_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S2000000x3 .f32) (main_arg1 : FVec F S2000000x3 .f32) (main_arg2 : IVec S4000000x2 32) (main_arg3 : FVec F S4000000 .f32) (main_arg4 : FVec F S4000000 .f32) (main_arg5 : FVec F S4000000 .f32) (main_arg6 : FVec F S4000000 .f32) (main_arg7 : FVec F S4000000x3 .f32) (main_arg8 : FVec F S2000000x3 .f32) (main_arg9 : FVec F S2000000x1 .f32) (main_arg10 : FVec F S2000000x1 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S2000000x3 .f32 := Host.absf main_arg1
  let main_cst_0 : FVec F S_ .f32 := constant S_ .f32 0x7F800000#32
  let main_v5 : FVec F S2000000x3 .f32 := broadcastInDim S2000000x3 ![] bcast_S_S2000000x3 main_cst_0
  let main_v6 : IVec S2000000x3 1 := cmpf .olt main_v4 main_v5
  let main_c_1 : IVec S_ 1 := constantI S_ 1 1#1
  let main_v7 : IVec S_ 1 := (fun x v => Host.reduce IntOp.andi x v reducesTo_S2000000x3_S_d0_1 h_S_) main_v6 main_c_1
  let main_v8 : IVec S_ 1 := andi main_v3 main_v7
  let main_v9 : FVec F S4000000 .f32 := Host.absf main_arg3
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_v14 : FVec F S4000000 .f32 := Host.absf main_arg4
  let main_cst_4 : FVec F S_ .f32 := constant S_ .f32 0x7F800000#32
  let main_v15 : FVec F S4000000 .f32 := broadcastInDim S4000000 ![] bcast_S_S4000000 main_cst_4
  let main_v16 : IVec S4000000 1 := cmpf .olt main_v14 main_v15
  fn_part1 (F := F) main_arg2 main_arg5 main_arg6 main_arg7 main_arg8 main_arg9 main_arg10 main_v13 main_v16
-- ==== Kernel.lean ====
abbrev S2000000x3 : Shape := ⟨2, ![2000000, 3]⟩
abbrev S4000000x2 : Shape := ⟨2, ![4000000, 2]⟩
abbrev S4000000 : Shape := ⟨1, ![4000000]⟩
abbrev S4000000x3 : Shape := ⟨2, ![4000000, 3]⟩
abbrev S2000000x1 : Shape := ⟨2, ![2000000, 1]⟩
abbrev S4000000x1 : Shape := ⟨2, ![4000000, 1]⟩
abbrev S_ : Shape := ⟨0, ![]⟩
abbrev S1 : Shape := ⟨1, ![1]⟩
abbrev S1x1 : Shape := ⟨2, ![1, 1]⟩
abbrev S3x4000000 : Shape := ⟨2, ![3, 4000000]⟩
abbrev S1x4000000 : Shape := ⟨2, ![1, 4000000]⟩
abbrev S4x4000000 : Shape := ⟨2, ![4, 4000000]⟩
abbrev S3x80000 : Shape := ⟨2, ![3, 80000]⟩
abbrev S4x80000 : Shape := ⟨2, ![4, 80000]⟩
abbrev S1x80000 : Shape := ⟨2, ![1, 80000]⟩
abbrev S3x2000000 : Shape := ⟨2, ![3, 2000000]⟩
abbrev S1x2000000 : Shape := ⟨2, ![1, 2000000]⟩
abbrev S2x2000000 : Shape := ⟨2, ![2, 2000000]⟩
abbrev S2x80000 : Shape := ⟨2, ![2, 80000]⟩
abbrev S80000 : Shape := ⟨1, ![80000]⟩

abbrev nBuf : Space → Nat
  | .hbm => 107
  | .vmem => 22
  | .smem => 0
  | _ => 0

abbrev bufTy : (tb : Table) → Fin (tcTables nBuf tb) → BufTy
  | .hbm, ⟨0, _⟩ => ⟨S2000000x3, .f32⟩
  | .hbm, ⟨1, _⟩ => ⟨S2000000x3, .f32⟩
  | .hbm, ⟨2, _⟩ => ⟨S4000000x2, .i32⟩
  | .hbm, ⟨3, _⟩ => ⟨S4000000, .f32⟩
  | .hbm, ⟨4, _⟩ => ⟨S4000000, .f32⟩
  | .hbm, ⟨5, _⟩ => ⟨S4000000, .f32⟩
  | .hbm, ⟨6, _⟩ => ⟨S4000000, .f32⟩
  | .hbm, ⟨7, _⟩ => ⟨S4000000x3, .f32⟩
  | .hbm, ⟨8, _⟩ => ⟨S2000000x3, .f32⟩
  | .hbm, ⟨9, _⟩ => ⟨S2000000x1, .f32⟩
  | .hbm, ⟨10, _⟩ => ⟨S2000000x1, .f32⟩
  | .hbm, ⟨11, _⟩ => ⟨S2000000x3, .f32⟩
  | .hbm, ⟨12, _⟩ => ⟨S4000000x1, .i32⟩
  | .hbm, ⟨13, _⟩ => ⟨S4000000, .i32⟩
  | .hbm, ⟨14, _⟩ => ⟨S4000000x1, .i32⟩
  | .hbm, ⟨15, _⟩ => ⟨S4000000, .i32⟩
  | .hbm, ⟨16, _⟩ => ⟨S_, .i32⟩
  | .hbm, ⟨17, _⟩ => ⟨S4000000, .i32⟩
  | .hbm, ⟨18, _⟩ => ⟨S4000000, .i1⟩
  | .hbm, ⟨19, _⟩ => ⟨S_, .i32⟩
  | .hbm, ⟨20, _⟩ => ⟨S4000000, .i32⟩
  | .hbm, ⟨21, _⟩ => ⟨S4000000, .i32⟩
  | .hbm, ⟨22, _⟩ => ⟨S4000000, .i32⟩
  | .hbm, ⟨23, _⟩ => ⟨S4000000x1, .i32⟩
  | .hbm, ⟨24, _⟩ => ⟨S1, .i32⟩
  | .hbm, ⟨25, _⟩ => ⟨S_, .i32⟩
  | .hbm, ⟨26, _⟩ => ⟨S4000000x1, .i32⟩
  | .hbm, ⟨27, _⟩ => ⟨S4000000x1, .i1⟩
  | .hbm, ⟨28, _⟩ => ⟨S1x1, .i32⟩
  | .hbm, ⟨29, _⟩ => ⟨S4000000x1, .i32⟩
  | .hbm, ⟨30, _⟩ => ⟨S4000000x1, .i1⟩
  | .hbm, ⟨31, _⟩ => ⟨S4000000x1, .i1⟩
  | .hbm, ⟨32, _⟩ => ⟨S_, .i1⟩
  | .hbm, ⟨33, _⟩ => ⟨S4000000, .i1⟩
  | .hbm, ⟨34, _⟩ => ⟨S4000000x3, .f32⟩
  | .hbm, ⟨35, _⟩ => ⟨S4000000x3, .i1⟩
  | .hbm, ⟨36, _⟩ => ⟨S_, .f32⟩
  | .hbm, ⟨37, _⟩ => ⟨S4000000x3, .f32⟩
  | .hbm, ⟨38, _⟩ => ⟨S4000000x3, .f32⟩
  | .hbm, ⟨39, _⟩ => ⟨S_, .i32⟩
  | .hbm, ⟨40, _⟩ => ⟨S4000000, .i32⟩
  | .hbm, ⟨41, _⟩ => ⟨S4000000, .i1⟩
  | .hbm, ⟨42, _⟩ => ⟨S_, .i32⟩
  | .hbm, ⟨43, _⟩ => ⟨S4000000, .i32⟩
  | .hbm, ⟨44, _⟩ => ⟨S4000000, .i32⟩
  | .hbm, ⟨45, _⟩ => ⟨S4000000, .i32⟩
  | .hbm, ⟨46, _⟩ => ⟨S4000000x1, .i32⟩
  | .hbm, ⟨47, _⟩ => ⟨S1, .i32⟩
  | .hbm, ⟨48, _⟩ => ⟨S_, .i32⟩
  | .hbm, ⟨49, _⟩ => ⟨S4000000x1, .i32⟩
  | .hbm, ⟨50, _⟩ => ⟨S4000000x1, .i1⟩
  | .hbm, ⟨51, _⟩ => ⟨S1x1, .i32⟩
  | .hbm, ⟨52, _⟩ => ⟨S4000000x1, .i32⟩
  | .hbm, ⟨53, _⟩ => ⟨S4000000x1, .i1⟩
  | .hbm, ⟨54, _⟩ => ⟨S4000000x1, .i1⟩
  | .hbm, ⟨55, _⟩ => ⟨S_, .i1⟩
  | .hbm, ⟨56, _⟩ => ⟨S4000000, .i1⟩
  | .hbm, ⟨57, _⟩ => ⟨S4000000x3, .f32⟩
  | .hbm, ⟨58, _⟩ => ⟨S4000000x3, .i1⟩
  | .hbm, ⟨59, _⟩ => ⟨S_, .f32⟩
  | .hbm, ⟨60, _⟩ => ⟨S4000000x3, .f32⟩
  | .hbm, ⟨61, _⟩ => ⟨S4000000x3, .f32⟩
  | .hbm, ⟨62, _⟩ => ⟨S3x4000000, .f32⟩
  | .hbm, ⟨63, _⟩ => ⟨S3x4000000, .f32⟩
  | .hbm, ⟨64, _⟩ => ⟨S3x4000000, .f32⟩
  | .hbm, ⟨65, _⟩ => ⟨S1x4000000, .f32⟩
  | .hbm, ⟨66, _⟩ => ⟨S1x4000000, .f32⟩
  | .hbm, ⟨67, _⟩ => ⟨S1x4000000, .f32⟩
  | .hbm, ⟨68, _⟩ => ⟨S1x4000000, .f32⟩
  | .hbm, ⟨69, _⟩ => ⟨S4x4000000, .f32⟩
  | .hbm, ⟨70, _⟩ => ⟨S3x4000000, .f32⟩
  | .hbm, ⟨71, _⟩ => ⟨S3x4000000, .f32⟩
  | .hbm, ⟨72, _⟩ => ⟨S4000000x3, .f32⟩
  | .hbm, ⟨73, _⟩ => ⟨S4000000x3, .f32⟩
  | .hbm, ⟨74, _⟩ => ⟨S_, .f32⟩
  | .hbm, ⟨75, _⟩ => ⟨S2000000x3, .f32⟩
  | .hbm, ⟨76, _⟩ => ⟨S_, .i32⟩
  | .hbm, ⟨77, _⟩ => ⟨S4000000, .i32⟩
  | .hbm, ⟨78, _⟩ => ⟨S4000000, .i1⟩
  | .hbm, ⟨79, _⟩ => ⟨S_, .i32⟩
  | .hbm, ⟨80, _⟩ => ⟨S4000000, .i32⟩
  | .hbm, ⟨81, _⟩ => ⟨S4000000, .i32⟩
  | .hbm, ⟨82, _⟩ => ⟨S4000000, .i32⟩
  | .hbm, ⟨83, _⟩ => ⟨S4000000x1, .i32⟩
  | .hbm, ⟨84, _⟩ => ⟨S2000000x3, .f32⟩
  | .hbm, ⟨85, _⟩ => ⟨S_, .i32⟩
  | .hbm, ⟨86, _⟩ => ⟨S4000000, .i32⟩
  | .hbm, ⟨87, _⟩ => ⟨S4000000, .i1⟩
  | .hbm, ⟨88, _⟩ => ⟨S_, .i32⟩
  | .hbm, ⟨89, _⟩ => ⟨S4000000, .i32⟩
  | .hbm, ⟨90, _⟩ => ⟨S4000000, .i32⟩
  | .hbm, ⟨91, _⟩ => ⟨S4000000, .i32⟩
  | .hbm, ⟨92, _⟩ => ⟨S4000000x1, .i32⟩
  | .hbm, ⟨93, _⟩ => ⟨S2000000x3, .f32⟩
  | .hbm, ⟨94, _⟩ => ⟨S3x2000000, .f32⟩
  | .hbm, ⟨95, _⟩ => ⟨S3x2000000, .f32⟩
  | .hbm, ⟨96, _⟩ => ⟨S3x2000000, .f32⟩
  | .hbm, ⟨97, _⟩ => ⟨S1x2000000, .f32⟩
  | .hbm, ⟨98, _⟩ => ⟨S1x2000000, .f32⟩
  | .hbm, ⟨99, _⟩ => ⟨S2x2000000, .f32⟩
  | .hbm, ⟨100, _⟩ => ⟨S1x1, .f32⟩
  | .hbm, ⟨101, _⟩ => ⟨S1x1, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .local _ .vmem, ⟨0, _⟩ => ⟨S3x80000, .f32⟩
  | .local _ .vmem, ⟨1, _⟩ => ⟨S3x80000, .f32⟩
  | .local _ .vmem, ⟨2, _⟩ => ⟨S3x80000, .f32⟩
  | .local _ .vmem, ⟨3, _⟩ => ⟨S3x80000, .f32⟩
  | .local _ .vmem, ⟨4, _⟩ => ⟨S3x80000, .f32⟩
  | .local _ .vmem, ⟨5, _⟩ => ⟨S3x80000, .f32⟩
  | .local _ .vmem, ⟨6, _⟩ => ⟨S4x80000, .f32⟩
  | .local _ .vmem, ⟨7, _⟩ => ⟨S4x80000, .f32⟩
  | .local _ .vmem, ⟨8, _⟩ => ⟨S3x80000, .f32⟩
  | .local _ .vmem, ⟨9, _⟩ => ⟨S3x80000, .f32⟩
  | .local _ .vmem, ⟨10, _⟩ => ⟨S3x80000, .f32⟩
  | .local _ .vmem, ⟨11, _⟩ => ⟨S3x80000, .f32⟩
  | .local _ .vmem, ⟨12, _⟩ => ⟨S3x80000, .f32⟩
  | .local _ .vmem, ⟨13, _⟩ => ⟨S3x80000, .f32⟩
  | .local _ .vmem, ⟨14, _⟩ => ⟨S3x80000, .f32⟩
  | .local _ .vmem, ⟨15, _⟩ => ⟨S3x80000, .f32⟩
  | .local _ .vmem, ⟨16, _⟩ => ⟨S3x80000, .f32⟩
  | .local _ .vmem, ⟨17, _⟩ => ⟨S3x80000, .f32⟩
  | .local _ .vmem, ⟨18, _⟩ => ⟨S2x80000, .f32⟩
  | .local _ .vmem, ⟨19, _⟩ => ⟨S2x80000, .f32⟩
  | .local _ .vmem, ⟨20, _⟩ => ⟨S1x1, .f32⟩
  | .local _ .vmem, ⟨21, _⟩ => ⟨S1x1, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v5 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15_0 : Ref sig .tc := ⟨.hbm, 70, rfl⟩
abbrev main_v15_1 : Ref sig .tc := ⟨.hbm, 71, rfl⟩
abbrev main_v16 : Ref sig .tc := ⟨.hbm, 72, rfl⟩
abbrev main_v17 : Ref sig .tc := ⟨.hbm, 73, rfl⟩
abbrev main_cst : Ref sig .tc := ⟨.hbm, 74, rfl⟩
abbrev main_v18 : Ref sig .tc := ⟨.hbm, 75, rfl⟩
abbrev main_c : Ref sig .tc := ⟨.hbm, 76, rfl⟩
abbrev main_v19 : Ref sig .tc := ⟨.hbm, 77, rfl⟩
abbrev main_v20 : Ref sig .tc := ⟨.hbm, 78, rfl⟩
abbrev main_c_0 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_c_1 : Ref sig .tc := ⟨.hbm, 85, rfl⟩
abbrev main_v26 : Ref sig .tc := ⟨.hbm, 86, rfl⟩
abbrev main_v27 : Ref sig .tc := ⟨.hbm, 87, rfl⟩
abbrev main_c_2 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39_0 : Ref sig .tc := ⟨.hbm, 100, rfl⟩
abbrev main_v39_1 : Ref sig .tc := ⟨.hbm, 101, rfl⟩
abbrev main_v40 : Ref sig .tc := ⟨.hbm, 102, rfl⟩
abbrev main_v41 : Ref sig .tc := ⟨.hbm, 103, rfl⟩
abbrev main_cst_3 : Ref sig .tc := ⟨.hbm, 104, rfl⟩
abbrev main_v42 : Ref sig .tc := ⟨.hbm, 105, rfl⟩
abbrev main_v43 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x80000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x80000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x80000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x80000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S3x80000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x80000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3x80000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x80000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  slices_S4000000x2_S4000000x1_0_0 : S4000000x2.Slices ![0, 0] S4000000x1
  shapeCasts_S4000000x1_S4000000 : S4000000x1.ShapeCasts S4000000
  slices_S4000000x2_S4000000x1_0_1 : S4000000x2.Slices ![0, 1] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  bcast_S1_S1x1_1 : S1.BroadcastsInDim S1x1 (![1] : Fin 1 → Fin S1x1.rank)
  bcast_S1x1_S4000000x1_0_1 : S1x1.BroadcastsInDim S4000000x1 (![0, 1] : Fin 2 → Fin S4000000x1.rank)
  reducesTo_S4000000x1_S4000000_d1 : S4000000x1.ReducesTo [1] S4000000
  h_S_ : 0 < S_.numel
  bcast_S4000000_S4000000x3_0 : S4000000.BroadcastsInDim S4000000x3 (![0] : Fin 1 → Fin S4000000x3.rank)
  bcast_S_S4000000x3 : S_.BroadcastsInDim S4000000x3 (![] : Fin 0 → Fin S4000000x3.rank)
  transposes_S4000000x3_S3x4000000_1_0 : S4000000x3.Transposes [1, 0] S3x4000000
  bcast_S4000000_S1x4000000_1 : S4000000.BroadcastsInDim S1x4000000 (![1] : Fin 1 → Fin S1x4000000.rank)
  concatenates_S1x4000000_S1x4000000_S1x4000000_S1x4000000_S4x4000000_d0 : Shape.Concatenates [S1x4000000, S1x4000000, S1x4000000, S1x4000000] S4x4000000 0
  inb_S3x80000_S3x80000_0_0 : ∀ a, (![0, 0] : Fin 2 → Nat) a + S3x80000.size a ≤ S3x80000.size a
  h_S3x80000 : 0 < S3x80000.numel
  shapeCasts_S3x80000_S3x80000 : S3x80000.ShapeCasts S3x80000
  inb_S4x80000_S4x80000_0_0 : ∀ a, (![0, 0] : Fin 2 → Nat) a + S4x80000.size a ≤ S4x80000.size a
  h_S4x80000 : 0 < S4x80000.numel
  shapeCasts_S4x80000_S4x80000 : S4x80000.ShapeCasts S4x80000
  slices_S3x80000_o0_0_S1x80000 : S3x80000.Slices ![0, 0] S1x80000
  slices_S3x80000_o2_0_S1x80000 : S3x80000.Slices ![2, 0] S1x80000
  slices_S3x80000_o1_0_S1x80000 : S3x80000.Slices ![1, 0] S1x80000
  slices_S4x80000_o0_0_S1x80000 : S4x80000.Slices ![0, 0] S1x80000
  slices_S4x80000_o1_0_S1x80000 : S4x80000.Slices ![1, 0] S1x80000
  slices_S4x80000_o2_0_S1x80000 : S4x80000.Slices ![2, 0] S1x80000
  slices_S4x80000_o3_0_S1x80000 : S4x80000.Slices ![3, 0] S1x80000
  concatenates_S1x80000_S1x80000_S1x80000_S3x80000_d0 : Shape.Concatenates [S1x80000, S1x80000, S1x80000] S3x80000 0
  transposes_S3x4000000_S4000000x3_1_0 : S3x4000000.Transposes [1, 0] S4000000x3
  bcast_S_S2000000x3 : S_.BroadcastsInDim S2000000x3 (![] : Fin 0 → Fin S2000000x3.rank)
  transposes_S2000000x3_S3x2000000_1_0 : S2000000x3.Transposes [1, 0] S3x2000000
  transposes_S2000000x1_S1x2000000_1_0 : S2000000x1.Transposes [1, 0] S1x2000000
  concatenates_S1x2000000_S1x2000000_S2x2000000_d0 : Shape.Concatenates [S1x2000000, S1x2000000] S2x2000000 0
  inb_S1x1_S1x1_0_0 : ∀ a, (![0, 0] : Fin 2 → Nat) a + S1x1.size a ≤ S1x1.size a
  h_S1x1 : 0 < S1x1.numel
  inb_S2x80000_S2x80000_0_0 : ∀ a, (![0, 0] : Fin 2 → Nat) a + S2x80000.size a ≤ S2x80000.size a
  h_S2x80000 : 0 < S2x80000.numel
  shapeCasts_S2x80000_S2x80000 : S2x80000.ShapeCasts S2x80000
  slices_S2x80000_o0_0_S1x80000 : S2x80000.Slices ![0, 0] S1x80000
  slices_S2x80000_o1_0_S1x80000 : S2x80000.Slices ![1, 0] S1x80000
  reduces_S3x80000_S80000 : S3x80000.Reduces [0] S80000
  shapeCasts_S80000_S1x80000 : S80000.ShapeCasts S1x80000
  reduces_S1x80000_S1 : S1x80000.Reduces [1] S1
  shapeCasts_S1_S1x1 : S1.ShapeCasts S1x1
  shapeCasts_S1x1_S1x1 : S1x1.ShapeCasts S1x1
  shapeCasts_S1x1_S_ : S1x1.ShapeCasts S_
  gather_S2000000x3_S4000000x1_S4000000x3_1_0_n_n_0_1_13_wf : GatherDims.WF S2000000x3 S4000000x1 S4000000x3 [1] [0] [] [0] [] 1 ![1, 3]
  scatter_S2000000x3_S4000000x1_S4000000x3_1_0_0_1_wf : ScatterDims.WF S2000000x3 S4000000x1 S4000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x80000.size a ≤ S3x4000000.size a
  hwx0_0 : ∀ i : grid0.Coords, EltTy.bits .f32 = 32 ∨ (Rect.block (s := S3x4000000) S3x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x80000.size a ≤ S3x4000000.size a
  hwx0_1 : ∀ i : grid0.Coords, EltTy.bits .f32 = 32 ∨ (Rect.block (s := S3x4000000) S3x80000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x80000.size a ≤ S3x4000000.size a
  hwx0_2 : ∀ i : grid0.Coords, EltTy.bits .f32 = 32 ∨ (Rect.block (s := S3x4000000) S3x80000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x80000.size a ≤ S4x4000000.size a
  hwx0_3 : ∀ i : grid0.Coords, EltTy.bits .f32 = 32 ∨ (Rect.block (s := S4x4000000) S4x80000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x80000.size a ≤ S3x4000000.size a
  hwx0_4 : ∀ i : grid0.Coords, EltTy.bits .f32 = 32 ∨ (Rect.block (s := S3x4000000) S3x80000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3x80000.size a ≤ S3x4000000.size a
  hwx0_5 : ∀ i : grid0.Coords, EltTy.bits .f32 = 32 ∨ (Rect.block (s := S3x4000000) S3x80000.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x80000.size a ≤ S3x2000000.size a
  hwx1_0 : ∀ i : grid1.Coords, EltTy.bits .f32 = 32 ∨ (Rect.block (s := S3x2000000) S3x80000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x80000.size a ≤ S3x2000000.size a
  hwx1_1 : ∀ i : grid1.Coords, EltTy.bits .f32 = 32 ∨ (Rect.block (s := S3x2000000) S3x80000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3x80000.size a ≤ S3x2000000.size a
  hwx1_2 : ∀ i : grid1.Coords, EltTy.bits .f32 = 32 ∨ (Rect.block (s := S3x2000000) S3x80000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x80000.size a ≤ S2x2000000.size a
  hwx1_3 : ∀ i : grid1.Coords, EltTy.bits .f32 = 32 ∨ (Rect.block (s := S2x2000000) S2x80000.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

def gather_S2000000x3_S4000000x1_S4000000x3_1_0_n_n_0_1_13 : GatherDims S2000000x3 S4000000x1 S4000000x3 where
  offsetDims := [1]
  collapsedSliceDims := [0]
  operandBatchingDims := []
  startIndicesBatchingDims := []
  startIndexMap := [0]
  indexVectorDim := 1
  sliceSizes := ![1, 3]
  wf := gather_S2000000x3_S4000000x1_S4000000x3_1_0_n_n_0_1_13_wf
def scatter_S2000000x3_S4000000x1_S4000000x3_1_0_0_1 : ScatterDims S2000000x3 S4000000x1 S4000000x3 where
  updateWindowDims := [1]
  insertedWindowDims := [0]
  scatterDimsToOperandDims := [0]
  indexVectorDim := 1
  wf := scatter_S2000000x3_S4000000x1_S4000000x3_1_0_0_1_wf

abbrev win0_0 : Pipeline.Window sig grid0 :=
  Pipeline.Window.ofSpec (Memref.whole main_v7) S3x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S3x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S3x80000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4x80000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S3x80000.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S3x80000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S3x80000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S3x80000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S3x80000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S2x80000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v39_0) S1x1.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39_1) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2000000x3 : Shape := ⟨2, ![2000000, 3]⟩
abbrev S4000000x2 : Shape := ⟨2, ![4000000, 2]⟩
abbrev S4000000 : Shape := ⟨1, ![4000000]⟩
abbrev S4000000x3 : Shape := ⟨2, ![4000000, 3]⟩
abbrev S2000000x1 : Shape := ⟨2, ![2000000, 1]⟩
abbrev S4000000x1 : Shape := ⟨2, ![4000000, 1]⟩
abbrev S_ : Shape := ⟨0, ![]⟩

abbrev nBuf : Space → Nat
  | .hbm => 192
  | .vmem => 0
  | .smem => 0
  | _ => 0

abbrev hbmTy0_0 (i : Nat) : BufTy := match i % 128 with
  | 0 => ⟨S2000000x3, .f32⟩
  | 1 => ⟨S2000000x3, .f32⟩
  | 2 => ⟨S4000000x2, .i32⟩
  | 3 => ⟨S4000000, .f32⟩
  | 4 => ⟨S4000000, .f32⟩
  | 5 => ⟨S4000000, .f32⟩
  | 6 => ⟨S4000000, .f32⟩
  | 7 => ⟨S4000000x3, .f32⟩
  | 8 => ⟨S2000000x3, .f32⟩
  | 9 => ⟨S2000000x1, .f32⟩
  | 10 => ⟨S2000000x1, .f32⟩
  | 11 => ⟨S4000000x1, .i32⟩
  | 12 => ⟨S4000000, .i32⟩
  | 13 => ⟨S4000000x1, .i32⟩
  | 14 => ⟨S4000000, .i32⟩
  | 15 => ⟨S2000000x3, .f32⟩
  | 16 => ⟨S4000000x1, .f32⟩
  | 17 => ⟨S4000000, .f32⟩
  | 18 => ⟨S4000000x1, .f32⟩
  | 19 => ⟨S4000000, .f32⟩
  | 20 => ⟨S_, .i32⟩
  | 21 => ⟨S4000000, .i32⟩
  | 22 => ⟨S4000000, .i1⟩
  | 23 => ⟨S_, .i32⟩
  | 24 => ⟨S4000000, .i32⟩
  | 25 => ⟨S4000000, .i32⟩
  | 26 => ⟨S4000000, .i32⟩
  | 27 => ⟨S4000000x1, .i32⟩
  | 28 => ⟨S4000000x3, .f32⟩
  | 29 => ⟨S_, .i32⟩
  | 30 => ⟨S4000000, .i32⟩
  | 31 => ⟨S4000000, .i1⟩
  | 32 => ⟨S_, .i32⟩
  | 33 => ⟨S4000000, .i32⟩
  | 34 => ⟨S4000000, .i32⟩
  | 35 => ⟨S4000000, .i32⟩
  | 36 => ⟨S4000000x1, .i32⟩
  | 37 => ⟨S4000000x3, .f32⟩
  | 38 => ⟨S4000000x1, .f32⟩
  | 39 => ⟨S4000000, .f32⟩
  | 40 => ⟨S4000000, .f32⟩
  | 41 => ⟨S4000000x1, .f32⟩
  | 42 => ⟨S4000000, .f32⟩
  | 43 => ⟨S4000000, .f32⟩
  | 44 => ⟨S4000000, .f32⟩
  | 45 => ⟨S4000000, .f32⟩
  | 46 => ⟨S4000000x1, .f32⟩
  | 47 => ⟨S4000000, .f32⟩
  | 48 => ⟨S4000000, .f32⟩
  | 49 => ⟨S4000000x1, .f32⟩
  | 50 => ⟨S4000000, .f32⟩
  | 51 => ⟨S4000000, .f32⟩
  | 52 => ⟨S4000000, .f32⟩
  | 53 => ⟨S4000000x1, .f32⟩
  | 54 => ⟨S4000000, .f32⟩
  | 55 => ⟨S4000000, .f32⟩
  | 56 => ⟨S4000000x1, .f32⟩
  | 57 => ⟨S4000000, .f32⟩
  | 58 => ⟨S4000000, .f32⟩
  | 59 => ⟨S4000000x1, .f32⟩
  | 60 => ⟨S4000000, .f32⟩
  | 61 => ⟨S4000000, .f32⟩
  | 62 => ⟨S4000000, .f32⟩
  | 63 => ⟨S4000000, .f32⟩
  | 64 => ⟨S4000000x1, .f32⟩
  | 65 => ⟨S4000000, .f32⟩
  | 66 => ⟨S4000000, .f32⟩
  | 67 => ⟨S4000000x1, .f32⟩
  | 68 => ⟨S4000000, .f32⟩
  | 69 => ⟨S4000000, .f32⟩
  | 70 => ⟨S4000000, .f32⟩
  | 71 => ⟨S4000000x1, .f32⟩
  | 72 => ⟨S4000000, .f32⟩
  | 73 => ⟨S4000000, .f32⟩
  | 74 => ⟨S4000000, .f32⟩
  | 75 => ⟨S4000000, .f32⟩
  | 76 => ⟨S4000000, .f32⟩
  | 77 => ⟨S4000000, .f32⟩
  | 78 => ⟨S4000000, .f32⟩
  | 79 => ⟨S4000000, .f32⟩
  | 80 => ⟨S4000000, .f32⟩
  | 81 => ⟨S4000000, .f32⟩
  | 82 => ⟨S4000000, .f32⟩
  | 83 => ⟨S_, .f32⟩
  | 84 => ⟨S4000000, .f32⟩
  | 85 => ⟨S4000000, .f32⟩
  | 86 => ⟨S4000000, .f32⟩
  | 87 => ⟨S4000000, .f32⟩
  | 88 => ⟨S_, .f32⟩
  | 89 => ⟨S4000000, .f32⟩
  | 90 => ⟨S4000000, .f32⟩
  | 91 => ⟨S4000000, .f32⟩
  | 92 => ⟨S4000000, .f32⟩
  | 93 => ⟨S_, .f32⟩
  | 94 => ⟨S4000000, .f32⟩
  | 95 => ⟨S4000000, .f32⟩
  | 96 => ⟨S4000000, .f32⟩
  | 97 => ⟨S4000000, .f32⟩
  | 98 => ⟨S4000000, .f32⟩
  | 99 => ⟨S_, .f32⟩
  | 100 => ⟨S4000000, .f32⟩
  | 101 => ⟨S4000000, .f32⟩
  | 102 => ⟨S4000000, .f32⟩
  | 103 => ⟨S4000000, .f32⟩
  | 104 => ⟨S_, .f32⟩
  | 105 => ⟨S4000000, .f32⟩
  | 106 => ⟨S4000000, .f32⟩
  | 107 => ⟨S4000000, .f32⟩
  | 108 => ⟨S4000000, .f32⟩
  | 109 => ⟨S_, .f32⟩
  | 110 => ⟨S4000000, .f32⟩
  | 111 => ⟨S4000000, .f32⟩
  | 112 => ⟨S4000000, .f32⟩
  | 113 => ⟨S4000000, .f32⟩
  | 114 => ⟨S4000000, .f32⟩
  | 115 => ⟨S4000000, .f32⟩
  | 116 => ⟨S_, .f32⟩
  | 117 => ⟨S4000000, .f32⟩
  | 118 => ⟨S4000000, .f32⟩
  | 119 => ⟨S4000000, .f32⟩
  | 120 => ⟨S4000000, .f32⟩
  | 121 => ⟨S_, .f32⟩
  | 122 => ⟨S4000000, .f32⟩
  | 123 => ⟨S4000000, .f32⟩
  | 124 => ⟨S4000000, .f32⟩
  | 125 => ⟨S4000000, .f32⟩
  | 126 => ⟨S_, .f32⟩
  | 127 => ⟨S4000000, .f32⟩
  | _ => ⟨S2000000x3, .f32⟩

abbrev hbmTy0_1 (i : Nat) : BufTy := match i % 128 with
  | 0 => ⟨S4000000, .f32⟩
  | 1 => ⟨S4000000, .f32⟩
  | 2 => ⟨S4000000, .f32⟩
  | 3 => ⟨S4000000, .f32⟩
  | 4 => ⟨S4000000, .f32⟩
  | 5 => ⟨S4000000, .f32⟩
  | 6 => ⟨S4000000, .f32⟩
  | 7 => ⟨S4000000, .f32⟩
  | 8 => ⟨S4000000, .f32⟩
  | 9 => ⟨S4000000, .f32⟩
  | 10 => ⟨S4000000x1, .f32⟩
  | 11 => ⟨S4000000x1, .f32⟩
  | 12 => ⟨S4000000x1, .f32⟩
  | 13 => ⟨S4000000x3, .f32⟩
  | 14 => ⟨S4000000, .f32⟩
  | 15 => ⟨S4000000, .f32⟩
  | 16 => ⟨S4000000, .f32⟩
  | 17 => ⟨S4000000, .f32⟩
  | 18 => ⟨S4000000, .f32⟩
  | 19 => ⟨S4000000, .f32⟩
  | 20 => ⟨S4000000, .f32⟩
  | 21 => ⟨S4000000x1, .f32⟩
  | 22 => ⟨S4000000x1, .f32⟩
  | 23 => ⟨S4000000x1, .f32⟩
  | 24 => ⟨S4000000x3, .f32⟩
  | 25 => ⟨S_, .f32⟩
  | 26 => ⟨S2000000x3, .f32⟩
  | 27 => ⟨S_, .i32⟩
  | 28 => ⟨S4000000, .i32⟩
  | 29 => ⟨S4000000, .i1⟩
  | 30 => ⟨S_, .i32⟩
  | 31 => ⟨S4000000, .i32⟩
  | 32 => ⟨S4000000, .i32⟩
  | 33 => ⟨S4000000, .i32⟩
  | 34 => ⟨S4000000x1, .i32⟩
  | 35 => ⟨S2000000x3, .f32⟩
  | 36 => ⟨S_, .i32⟩
  | 37 => ⟨S4000000, .i32⟩
  | 38 => ⟨S4000000, .i1⟩
  | 39 => ⟨S_, .i32⟩
  | 40 => ⟨S4000000, .i32⟩
  | 41 => ⟨S4000000, .i32⟩
  | 42 => ⟨S4000000, .i32⟩
  | 43 => ⟨S4000000x1, .i32⟩
  | 44 => ⟨S2000000x3, .f32⟩
  | 45 => ⟨S2000000x3, .f32⟩
  | 46 => ⟨S_, .f32⟩
  | 47 => ⟨S2000000x1, .f32⟩
  | 48 => ⟨S2000000x1, .f32⟩
  | 49 => ⟨S_, .f32⟩
  | 50 => ⟨S2000000x1, .f32⟩
  | 51 => ⟨S2000000x1, .f32⟩
  | 52 => ⟨S2000000x3, .f32⟩
  | 53 => ⟨S2000000x3, .f32⟩
  | 54 => ⟨S2000000x3, .f32⟩
  | 55 => ⟨S2000000x3, .f32⟩
  | 56 => ⟨S_, .f32⟩
  | 57 => ⟨S_, .f32⟩
  | 58 => ⟨S_, .f32⟩
  | 59 => ⟨S_, .f32⟩
  | 60 => ⟨S2000000x3, .f32⟩
  | 61 => ⟨S_, .f32⟩
  | 62 => ⟨S_, .f32⟩
  | 63 => ⟨S_, .f32⟩
  | _ => ⟨S2000000x3, .f32⟩

abbrev hbmTy (i : Nat) : BufTy := match i / 128 with
  | 0 => hbmTy0_0 i
  | 1 => hbmTy0_1 i
  | _ => ⟨S2000000x3, .f32⟩

abbrev bufTy : (tb : Table) → Fin (tcTables nBuf tb) → BufTy
  | .hbm, ⟨i, _⟩ => hbmTy i
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_3 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_4 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_5 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_6 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_7 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_8 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_9 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_10 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_cst_11 : Ref sig .tc := ⟨.hbm, 153, rfl⟩
abbrev main_v129 : Ref sig .tc := ⟨.hbm, 154, rfl⟩
abbrev main_c_12 : Ref sig .tc := ⟨.hbm, 155, rfl⟩
abbrev main_v130 : Ref sig .tc := ⟨.hbm, 156, rfl⟩
abbrev main_v131 : Ref sig .tc := ⟨.hbm, 157, rfl⟩
abbrev main_c_13 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_c_14 : Ref sig .tc := ⟨.hbm, 164, rfl⟩
abbrev main_v137 : Ref sig .tc := ⟨.hbm, 165, rfl⟩
abbrev main_v138 : Ref sig .tc := ⟨.hbm, 166, rfl⟩
abbrev main_c_15 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_cst_16 : Ref sig .tc := ⟨.hbm, 174, rfl⟩
abbrev main_v145 : Ref sig .tc := ⟨.hbm, 175, rfl⟩
abbrev main_v146 : Ref sig .tc := ⟨.hbm, 176, rfl⟩
abbrev main_cst_17 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_cst_18 : Ref sig .tc := ⟨.hbm, 184, rfl⟩
abbrev main_v153 : Ref sig .tc := ⟨.hbm, 185, rfl⟩
abbrev main_cst_19 : Ref sig .tc := ⟨.hbm, 186, rfl⟩
abbrev main_v154 : Ref sig .tc := ⟨.hbm, 187, rfl⟩
abbrev main_v155 : Ref sig .tc := ⟨.hbm, 188, rfl⟩
abbrev main_cst_20 : Ref sig .tc := ⟨.hbm, 189, rfl⟩
abbrev main_v156 : Ref sig .tc := ⟨.hbm, 190, rfl⟩
abbrev main_v157 : Ref sig .tc := ⟨.hbm, 191, rfl⟩

abbrev nD : Nat := 1
abbrev τ : Topo := Topo.v7x

variable {F : FTy → Type} [FloatOps F]

class Facts₀ : Prop where
  slices_S4000000x2_S4000000x1_0_0 : S4000000x2.Slices ![0, 0] S4000000x1
  shapeCasts_S4000000x1_S4000000 : S4000000x1.ShapeCasts S4000000
  slices_S4000000x2_S4000000x1_0_1 : S4000000x2.Slices ![0, 1] S4000000x1
  slices_S4000000x3_S4000000x1_0_0 : S4000000x3.Slices ![0, 0] S4000000x1
  slices_S4000000x3_S4000000x1_0_2 : S4000000x3.Slices ![0, 2] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  slices_S4000000x3_S4000000x1_0_1 : S4000000x3.Slices ![0, 1] S4000000x1
  concatenates_S4000000x1_S4000000x1_S4000000x1_S4000000x3_d1 : Shape.Concatenates [S4000000x1, S4000000x1, S4000000x1] S4000000x3 1
  bcast_S_S2000000x3 : S_.BroadcastsInDim S2000000x3 (![] : Fin 0 → Fin S2000000x3.rank)
  bcast_S_S2000000x1 : S_.BroadcastsInDim S2000000x1 (![] : Fin 0 → Fin S2000000x1.rank)
  concatenates_S2000000x1_S2000000x1_S2000000x1_S2000000x3_d1 : Shape.Concatenates [S2000000x1, S2000000x1, S2000000x1] S2000000x3 1
  reducesTo_S2000000x3_S_d0_1 : S2000000x3.ReducesTo [0, 1] S_
  h_S_ : 0 < S_.numel
  gather_S2000000x3_S4000000x1_S4000000x3_1_0_n_n_0_1_13_wf : GatherDims.WF S2000000x3 S4000000x1 S4000000x3 [1] [0] [] [0] [] 1 ![1, 3]
  scatter_S2000000x3_S4000000x1_S4000000x3_1_0_0_1_wf : ScatterDims.WF S2000000x3 S4000000x1 S4000000x3 [1] [0] [0] 1

variable [Facts₀]

def gather_S2000000x3_S4000000x1_S4000000x3_1_0_n_n_0_1_13 : GatherDims S2000000x3 S4000000x1 S4000000x3 where
  offsetDims := [1]
  collapsedSliceDims := [0]
  operandBatchingDims := []
  startIndicesBatchingDims := []
  startIndexMap := [0]
  indexVectorDim := 1
  sliceSizes := ![1, 3]
  wf := gather_S2000000x3_S4000000x1_S4000000x3_1_0_n_n_0_1_13_wf
def scatter_S2000000x3_S4000000x1_S4000000x3_1_0_0_1 : ScatterDims S2000000x3 S4000000x1 S4000000x3 where
  updateWindowDims := [1]
  insertedWindowDims := [0]
  scatterDimsToOperandDims := [0]
  indexVectorDim := 1
  wf := scatter_S2000000x3_S4000000x1_S4000000x3_1_0_0_1_wf

class Facts : Prop extends Facts₀ where

variable [Facts]
-- ==== Proof.KDefs.lean ====
/-
  The two kernel bodies of the program as pure functions of the blocks they load, and the blocks themselves.

  Region 0 (the per-edge beam forces): at a grid point the body loads the blocks of the two gathered displacement arrays, of the
  direction cosines and of the packed element properties, and stores the two end-force blocks; `edgeA` and `edgeB` are those
  two stored values as functions of the four loaded blocks (the body's operations composed in program order).
  Region 1 (the masked residual sums): the two 1x1 outputs are running sums over the grid points: at point 0 the body first
  resets them to zero, and at every point it adds the point's partial sum to what the output holds; `acc4` and `acc5` are
  what the two outputs hold after point n, by recursion on n.
-/
import proofs.«406654_j12146167513818_3_alg».proof.Proof.Gen.Kernel.Launch
import proofs.«406654_j12146167513818_3_alg».proof.Proof.Gen.Kernel.Skeleton
import proofs.«406654_j12146167513818_3_alg».proof.Proof.Gen.Kernel.Points
import Idealize.ShloMosaic.Lib.Pipeline.FrameBody
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when a region is entered
variable (V : (c : Dev nD) → (b : Ref sig .tc) → Buf (Elt F) ((c : Thread nD τ).loc b))

/-- Window `w`'s block of region 0 at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of region 1 at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The force block at end A that region 0's body stores, from the loaded blocks: `x0`, `x1` the displacements at the two
    ends (3 x 80000), `x2` the direction cosines (3 x 80000), `x3` the packed properties (4 x 80000). -/
def edgeA (x0 x1 x2 : Vec F S3x80000 .f32) (x3 : Vec F S4x80000 .f32) : Vec F S3x80000 .f32 :=
  k0_pay1
    (k0_pay28 (k0_pay14 x0 x2) (k0_pay15 x0) (k0_pay17 x1 x2) (k0_pay18 x1) (k0_pay23 x3) (k0_pay24 x3))
    (k0_pay32 (k0_pay7 x2) (k0_pay8 x2) (k0_pay13 x0 x2) (k0_pay14 x0 x2) (k0_pay15 x0) (k0_pay16 x1 x2) (k0_pay17 x1 x2) (k0_pay18 x1)
      (k0_pay19 x3) (k0_pay21 x3) (k0_pay22 x3) (k0_pay24 x3) (k0_pay25 x3))
    (k0_pay33 (k0_pay7 x2) (k0_pay8 x2) (k0_pay13 x0 x2) (k0_pay14 x0 x2) (k0_pay15 x0) (k0_pay16 x1 x2) (k0_pay17 x1 x2) (k0_pay18 x1)
      (k0_pay19 x3) (k0_pay21 x3) (k0_pay22 x3) (k0_pay24 x3) (k0_pay25 x3))

/-- The force block at end B that region 0's body stores, from the same loaded blocks. -/
def edgeB (x0 x1 x2 : Vec F S3x80000 .f32) (x3 : Vec F S4x80000 .f32) : Vec F S3x80000 .f32 :=
  k0_pay2 (k0_pay7 x2) (k0_pay8 x2)
    (k0_pay29 (k0_pay13 x0 x2) (k0_pay16 x1 x2) (k0_pay22 x3))
    (k0_pay30 (k0_pay14 x0 x2) (k0_pay15 x0) (k0_pay17 x1 x2) (k0_pay18 x1) (k0_pay19 x3) (k0_pay21 x3) (k0_pay24 x3) (k0_pay25 x3))
    (k0_pay31 (k0_pay14 x0 x2) (k0_pay15 x0) (k0_pay17 x1 x2) (k0_pay18 x1) (k0_pay23 x3) (k0_pay24 x3))

/-- The running sum of squares after point `n` of region 1 (output window 4): at point 0 over the zero the body has just
    stored, afterwards over what the point before left. `k1_pay6 x0 x1 x2 x3 prev` is `prev` plus the point's partial sum. -/
def acc4 (c : Dev nD) : (n : ℕ) → n < cfg1.N → Vec F S1x1 .f32
  | 0, hn => k1_pay6 (iblk1 V c 0 ⟨0, hn⟩) (iblk1 V c 1 ⟨0, hn⟩) (iblk1 V c 2 ⟨0, hn⟩) (iblk1 V c 3 ⟨0, hn⟩) k1_pay2
  | n + 1, hn => k1_pay6 (iblk1 V c 0 ⟨n + 1, hn⟩) (iblk1 V c 1 ⟨n + 1, hn⟩) (iblk1 V c 2 ⟨n + 1, hn⟩) (iblk1 V c 3 ⟨n + 1, hn⟩)
      (acc4 c n (Nat.lt_of_succ_lt hn))

/-- The running count of free components after point `n` of region 1 (output window 5). `k1_pay1 p prev` is `prev + p`,
    `k1_pay5 x3` the point's partial sum of the mask. -/
def acc5 (c : Dev nD) : (n : ℕ) → n < cfg1.N → Vec F S1x1 .f32
  | 0, hn => k1_pay1 (k1_pay5 (iblk1 V c 3 ⟨0, hn⟩)) k1_pay3
  | n + 1, hn => k1_pay1 (k1_pay5 (iblk1 V c 3 ⟨n + 1, hn⟩)) (acc5 c n (Nat.lt_of_succ_lt hn))

/-- The proof data of region 0 on core `c`: the arrays as the region finds them; after the body at point `t` each input
    window's buffer still holds its block, and the two output windows' buffers hold the two force blocks computed from the
    input blocks; the body needs nothing beyond the scoped rest and the generator register, owes nothing, holds full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => edgeA (iblk0 V c 0 t) (iblk0 V c 1 t) (iblk0 V c 2 t) (iblk0 V c 3 t)
    | ⟨5, _⟩ => edgeB (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = edgeA (iblk0 V c 0 t) (iblk0 V c 1 t) (iblk0 V c 2 t) (iblk0 V c 3 t) := by dsimp only [dat0]
theorem after0_5 (c : Dev nD) (t : Fin cfg0.N) :
    (dat0 V c).after 5 t = edgeB (iblk0 V c 0 t) (iblk0 V c 1 t) (iblk0 V c 2 t) (iblk0 V c 3 t) := by dsimp only [dat0]

/-- The proof data of region 1 on core `c`: the input windows keep their blocks; the two 1x1 outputs hold the running sums. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc4 V c t.val t.isLt
    | ⟨5, _⟩ => acc5 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc4 V c t.val t.isLt := by dsimp only [dat1]
theorem after1_5 (c : Dev nD) (t : Fin cfg1.N) : (dat1 V c).after 5 t = acc5 V c t.val t.isLt := by dsimp only [dat1]

end Cert.Kernel.Hand

end
-- ==== Proof.KReg0.lean ====
/-
  Region 0 (the per-edge forces): the body, called at any grid point on the windows' current staging buffers, runs to its end
  and leaves the input buffers as they were and the two output buffers at the force blocks `edgeA`, `edgeB` of the input blocks.
-/
import proofs.«406654_j12146167513818_3_alg».proof.Proof.KDefs
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not, for any proof data whose
    array is the region-entry contents and whose body leaves the block in place: an unfetched window's index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data whose
    array is the region-entry contents and whose body leaves the block in place: an unfetched window's index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data whose
    array is the region-entry contents and whose body leaves the block in place: an unfetched window's index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data whose
    array is the region-entry contents and whose body leaves the block in place: an unfetched window's index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The whole-block rectangle -/

/-- The offsets of the whole-block rectangle are zero. -/
theorem off_zero : (![0, 0] : Fin 2 → Nat) = fun _ => 0 := funext fun a => by fin_cases a <;> rfl

/-- The one store of an output buffer covers it: its rectangle is the whole block. -/
theorem cover3 (p0 : Vec F S3x80000 .f32) (y : S3x80000.Idx) :
    ∃ pc ∈ ([⟨Rect.unit (s := S3x80000) ![0, 0] S3x80000.size inb_S3x80000_S3x80000_0_0, p0⟩] : List (View.Piece (Elt F) S3x80000 .f32)), y ∈ pc.1.set :=
  ⟨_, List.mem_singleton_self _, View.mem_set_unit_zero off_zero inb_S3x80000_S3x80000_0_0 y⟩

/-! ## The body's triple -/

set_option maxHeartbeats 1000000 in
/-- The kernel body on whole staging memrefs, the four inputs' at read contents `x0 … x3` and the two outputs' at anything,
    runs to the continuation holding the inputs' as they were and the outputs' at `edgeA` and `edgeB` of the inputs': each
    input is loaded whole once, each output is stored whole once, and the stored values are the compositions of the
    payloads in program order. -/
theorem sound_kernel0 (c : Dev nD) (E : Set ℕ) (i : grid0.Coords)
    (arg1 : Memref sig .tc .vmem S3x80000 .f32) (harg1 : arg1.IsWhole) (arg2 : Memref sig .tc .vmem S3x80000 .f32) (harg2 : arg2.IsWhole)
    (arg3 : Memref sig .tc .vmem S3x80000 .f32) (harg3 : arg3.IsWhole) (arg4 : Memref sig .tc .vmem S4x80000 .f32) (harg4 : arg4.IsWhole)
    (arg5 : Memref sig .tc .vmem S3x80000 .f32) (harg5 : arg5.IsWhole) (arg6 : Memref sig .tc .vmem S3x80000 .f32) (harg6 : arg6.IsWhole)
    (x0 x1 x2 : Vec F S3x80000 .f32) (x3 : Vec F S4x80000 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (edgeA x0 x1 x2 x3) ∗ owns (c : Thread nD τ) arg6 fullShare (edgeB x0 x1 x2 x3)) -∗ K ⟨⟩))
      ⊢ wp frame (wpE (defs₀ (F := F)) Variants.none c none) E (cc0__edge_kernel_T i arg1 harg1 arg2 harg2 arg3 harg3 arg4 harg4 arg5 harg5 arg6 harg6) K := by
  simp only [cc0__edge_kernel_T_eq_skeleton]; unfold cc0__edge_kernel_T_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover3 _)).trans ?_
    rw [View.canon_unit_zero off_zero]
    sl_unfold_run_names
    unfold edgeA
    simp only [View.readAt_eq_ld, View.ld_unit_zero (S := S3x80000) off_zero, View.ld_unit_zero (S := S4x80000) off_zero]
  · iexists _; isplitr
    swap; · iexact H5
    ipureintro
    refine (View.read_writes_eq_canon _ _ _ (cover3 _)).trans ?_
    rw [View.canon_unit_zero off_zero]
    sl_unfold_run_names
    unfold edgeB
    simp only [View.readAt_eq_ld, View.ld_unit_zero (S := S3x80000) off_zero, View.ld_unit_zero (S := S4x80000) off_zero]

/-! ## The body obligation, at a generic point -/

/-- Each input window's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`: the invariant, the core's debt, and every window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation for region 0 at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
/-
  Region 1 (the masked residual sums): the body, called at any grid point on the windows' current staging buffers, runs to its
  end, leaves the input buffers as they were and the two 1x1 output buffers at the running sums `acc4`, `acc5`: at point 0 it
  first stores zero into both, at every later point the buffers still hold what the point before left (they are written back
  only after the last point).
-/
import proofs.«406654_j12146167513818_3_alg».proof.Proof.KDefs
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's conditional, from the grid coordinate (the scalar chain substituted). -/
abbrev cond1 (i : grid1.Coords) : Prop := (Scalar.cmpi .ne (Scalar.extui (Scalar.cmpi .eq (BitVec.ofNat 32 (i 0).val) 0#32)) 0#32) = 1#1

/-- It holds at the first point only: decided over the grid. -/
theorem hcond1 : ∀ t : Fin cfg1.N, cond1 (grid1.coords t) ↔ t.val % 25 = 0 :=
  (by decide +kernel : ∀ t : Fin grid1.N, cond1 (grid1.coords t) ↔ t.val % 25 = 0)

/-- The zero offsets of a rank-2 rectangle, as the constant function. -/
theorem hz2 : (![0, 0] : Fin 2 → Nat) = fun _ => 0 := by
  funext a; fin_cases a <;> rfl

/-- A store through the whole-shape rectangle at zero offsets, made last, is what the buffer then reads, whatever the
    earlier stores and the prior contents were. -/
theorem read_writes_cons_unit_zero {κ : Kind} {sp : Space} {S : Shape} {e : EltTy} (v : View sig κ sp S e)
    (f : v.ty.Contents (Elt F)) {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self .., View.mem_set_unit_zero hz inb y⟩)).trans
    (View.canon_cons_unit_zero hz inb w L)

/-- A load through the whole-shape rectangle at zero offsets of a whole memref's buffer reads its contents. -/
theorem readAt_unread_unit_zero {sp : Space} {S : Shape} {e : EltTy} {m : Memref sig .tc sp S e} (h : m.IsWhole)
    (X : S.Idx → Elt F e) {off : Fin S.rank → Nat} (hz : off = fun _ => 0) (inb : ∀ a, off a + S.size a ≤ S.size a) :
    m.view.readAt (Elt F) (Rect.unit off S.size inb).toLoadRect (h.unread X) = X := by
  rw [View.readAt_eq_ld, h.read_unread, View.ld_unit_zero hz]

set_option maxHeartbeats 1000000 in
/-- The body at a point where the conditional is taken, on whole staging memrefs, the inputs' at contents `x0 … x3`, the two
    outputs' at anything: it runs to the continuation holding the inputs' as they were, the first output at the point's
    partial sum of squares added to the zero just stored, the second at the point's partial mask count added to the zero
    just stored. -/
theorem run1_A (c : Dev nD) (E : Set ℕ) (i : grid1.Coords) (hc : cond1 i)
    (arg1 : Memref sig .tc .vmem S3x80000 .f32) (harg1 : arg1.IsWhole) (arg2 : Memref sig .tc .vmem S3x80000 .f32) (harg2 : arg2.IsWhole)
    (arg3 : Memref sig .tc .vmem S3x80000 .f32) (harg3 : arg3.IsWhole) (arg4 : Memref sig .tc .vmem S2x80000 .f32) (harg4 : arg4.IsWhole)
    (arg5 : Memref sig .tc .vmem S1x1 .f32) (harg5 : arg5.IsWhole) (arg6 : Memref sig .tc .vmem S1x1 .f32) (harg6 : arg6.IsWhole)
    (x0 x1 x2 : Vec F S3x80000 .f32) (x3 : Vec F S2x80000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3
            ∗ owns (c : Thread nD τ) arg5 fullShare (k1_pay6 x0 x1 x2 x3 k1_pay2)
            ∗ owns (c : Thread nD τ) arg6 fullShare (k1_pay1 (k1_pay5 x3) k1_pay3)) -∗ K ⟨⟩))
      ⊢ wp frame (wpE (defs₀ (F := F)) Variants.none c none) E
          (cc1__loss_kernel_T i arg1 harg1 arg2 harg2 arg3 harg3 arg4 harg4 arg5 harg5 arg6 harg6) K := by
  simp only [cc1__loss_kernel_T_eq_skeleton]; unfold cc1__loss_kernel_T_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1; obtain rfl := harg3.eq_unread hf2; obtain rfl := harg4.eq_unread hf3
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    refine (read_writes_cons_unit_zero (S := S1x1) arg5.view f4 hz2 inb_S1x1_S1x1_0_0 _ _).trans ?_
    refine congr (congr (congr (congr (congrArg k1_pay6 ?_) ?_) ?_) ?_) ?_
    · exact readAt_unread_unit_zero (S := S3x80000) harg1 x0 hz2 _
    · exact readAt_unread_unit_zero (S := S3x80000) harg2 x1 hz2 _
    · exact readAt_unread_unit_zero (S := S3x80000) harg3 x2 hz2 _
    · exact readAt_unread_unit_zero (S := S2x80000) harg4 x3 hz2 _
    · exact View.readCov_unit_zero (S := S1x1) arg5.view hz2 inb_S1x1_S1x1_0_0 _
  iexists _; isplitr
  swap; · iexact H5
  ipureintro
  sl_unfold_words
  refine (read_writes_cons_unit_zero (S := S1x1) arg6.view f5 hz2 inb_S1x1_S1x1_0_0 _ _).trans ?_
  refine congrArg₂ k1_pay1 (congrArg k1_pay5 ?_) ?_
  · exact readAt_unread_unit_zero (S := S2x80000) harg4 x3 hz2 _
  · exact View.readCov_unit_zero (S := S1x1) arg6.view hz2 inb_S1x1_S1x1_0_0 _

set_option maxHeartbeats 1000000 in
/-- The body at a point where the conditional is not taken, the two outputs' memrefs at contents `xo4`, `xo5`: it runs
    to the continuation holding the inputs' as they were, the first output at the point's partial sum of squares added to
    `xo4`, the second at the point's partial mask count added to `xo5`. -/
theorem run1_B (c : Dev nD) (E : Set ℕ) (i : grid1.Coords) (hc : ¬cond1 i)
    (arg1 : Memref sig .tc .vmem S3x80000 .f32) (harg1 : arg1.IsWhole) (arg2 : Memref sig .tc .vmem S3x80000 .f32) (harg2 : arg2.IsWhole)
    (arg3 : Memref sig .tc .vmem S3x80000 .f32) (harg3 : arg3.IsWhole) (arg4 : Memref sig .tc .vmem S2x80000 .f32) (harg4 : arg4.IsWhole)
    (arg5 : Memref sig .tc .vmem S1x1 .f32) (harg5 : arg5.IsWhole) (arg6 : Memref sig .tc .vmem S1x1 .f32) (harg6 : arg6.IsWhole)
    (x0 x1 x2 : Vec F S3x80000 .f32) (x3 : Vec F S2x80000 .f32) (xo4 xo5 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo4 ∗ owns (c : Thread nD τ) arg6 fullShare xo5
        ∗ (iprop(owns (c : Thread nD τ) arg1 fullShare x0 ∗ owns (c : Thread nD τ) arg2 fullShare x1 ∗ owns (c : Thread nD τ) arg3 fullShare x2
        ∗ owns (c : Thread nD τ) arg4 fullShare x3
            ∗ owns (c : Thread nD τ) arg5 fullShare (k1_pay6 x0 x1 x2 x3 xo4)
            ∗ owns (c : Thread nD τ) arg6 fullShare (k1_pay1 (k1_pay5 x3) xo5)) -∗ K ⟨⟩))
      ⊢ wp frame (wpE (defs₀ (F := F)) Variants.none c none) E
          (cc1__loss_kernel_T i arg1 harg1 arg2 harg2 arg3 harg3 arg4 harg4 arg5 harg5 arg6 harg6) K := by
  simp only [cc1__loss_kernel_T_eq_skeleton]; unfold cc1__loss_kernel_T_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    refine (read_writes_cons_unit_zero (S := S1x1) arg5.view _ hz2 inb_S1x1_S1x1_0_0 _ _).trans ?_
    refine congr (congr (congr (congr (congrArg k1_pay6 ?_) ?_) ?_) ?_) ?_
    · exact readAt_unread_unit_zero (S := S3x80000) harg1 x0 hz2 _
    · exact readAt_unread_unit_zero (S := S3x80000) harg2 x1 hz2 _
    · exact readAt_unread_unit_zero (S := S3x80000) harg3 x2 hz2 _
    · exact readAt_unread_unit_zero (S := S2x80000) harg4 x3 hz2 _
    · exact readAt_unread_unit_zero (S := S1x1) harg5 xo4 hz2 _
  iexists _; isplitr
  swap; · iexact H5
  ipureintro
  sl_unfold_words
  refine (read_writes_cons_unit_zero (S := S1x1) arg6.view _ hz2 inb_S1x1_S1x1_0_0 _ _).trans ?_
  refine congrArg₂ k1_pay1 (congrArg k1_pay5 ?_) ?_
  · exact readAt_unread_unit_zero (S := S2x80000) harg4 x3 hz2 _
  · exact readAt_unread_unit_zero (S := S1x1) harg6 xo5 hz2 _

-- the TensorCore's buffer contents when the region is entered
variable (V : (c : Dev nD) → (b : Ref sig .tc) → Buf (Elt F) ((c : Thread nD τ).loc b))

/-! ## What the windows' current buffers hold when the body is called -/

/-- Each input window's current staging buffer holds its block at every point, fetched there or not: the window is an
    input, uncut and never idle, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- At a later point the first output's buffer holds the running sum the point before left: the point is not the first,
    the buffer is written back only after the last point, the window is live and uncut. -/
theorem before1_4_B (c : Dev nD) (t : Fin cfg1.N) (h0 : ¬t.val % 25 = 0) (d) :
    (dat1 V c).before 4 t d = acc4 V c (t.val - 1) (Nat.lt_of_le_of_lt (Nat.sub_le _ _) t.isLt) := by
  have hN : t.val < 25 := lt_of_lt_of_eq t.isLt (show cfg1.N = 25 from N_1)
  rw [Dat.before_out_kept _ 4 rfl t (by omega) (Bool.eq_false_iff.mpr fun h => by have := (flush1_4 _).mp h; dsimp only at this; omega)
    (fun _ => rfl) (fun _ _ => rfl)]
  dsimp only [dat1]

/-- The same for the second output. -/
theorem before1_5_B (c : Dev nD) (t : Fin cfg1.N) (h0 : ¬t.val % 25 = 0) (d) :
    (dat1 V c).before 5 t d = acc5 V c (t.val - 1) (Nat.lt_of_le_of_lt (Nat.sub_le _ _) t.isLt) := by
  have hN : t.val < 25 := lt_of_lt_of_eq t.isLt (show cfg1.N = 25 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The running sums at a point -/

/-- At the first point the running sum of squares is the point's partial sum over the zero just stored. -/
theorem acc4_first (c : Dev nD) (t : Fin cfg1.N) (h0 : t.val % 25 = 0) :
    acc4 V c t.val t.isLt = k1_pay6 (iblk1 V c 0 t) (iblk1 V c 1 t) (iblk1 V c 2 t) (iblk1 V c 3 t) k1_pay2 := by
  obtain ⟨n, hn⟩ := t
  have hN : n < 25 := lt_of_lt_of_eq hn (show cfg1.N = 25 from N_1)
  cases n with
  | zero => exact rfl
  | succ n => exact (by exfalso; (try dsimp only at h0); omega)

/-- At a later point it is the point's partial sum over the running sum the point before left. -/
theorem acc4_later (c : Dev nD) (t : Fin cfg1.N) (h0 : ¬t.val % 25 = 0) :
    acc4 V c t.val t.isLt = k1_pay6 (iblk1 V c 0 t) (iblk1 V c 1 t) (iblk1 V c 2 t) (iblk1 V c 3 t)
      (acc4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-- At the first point the running count is the point's partial count over the zero just stored. -/
theorem acc5_first (c : Dev nD) (t : Fin cfg1.N) (h0 : t.val % 25 = 0) :
    acc5 V c t.val t.isLt = k1_pay1 (k1_pay5 (iblk1 V c 3 t)) k1_pay3 := by
  obtain ⟨n, hn⟩ := t
  have hN : n < 25 := lt_of_lt_of_eq hn (show cfg1.N = 25 from N_1)
  cases n with
  | zero => exact rfl
  | succ n => exact (by exfalso; (try dsimp only at h0); omega)

/-- At a later point it is the point's partial count over the running count the point before left. -/
theorem acc5_later (c : Dev nD) (t : Fin cfg1.N) (h0 : ¬t.val % 25 = 0) :
    acc5 V c t.val t.isLt = k1_pay1 (k1_pay5 (iblk1 V c 3 t))
      (acc5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The body obligation, at a generic point -/

/-- Each window's current staging memref at point `t`, spelled as the pipeline passes it, and its wholeness. -/
abbrev ms1_0 (t : Fin cfg1.N) : Memref sig .tc .vmem S3x80000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x80000 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3x80000 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x80000 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)

/-- What the body is called with at point `t` (the pipeline's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 800000 in
/-- The body at any point: the inputs' memrefs hold their blocks; the closed form of the condition says which case the
    point is in; at the first point the outputs' buffers hold anything and the body resets them, at a later point they
    hold the running sums the point before left; so the case's run applies and leaves the running sums at this point. The
    invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val % 25 = 0
  · rw [acc4_first V c t h0, acc5_first V c t h0]
    iintro ⟨HΦ, Ho, ⟨%d0, H0⟩, ⟨%d1, H1⟩, ⟨%d2, H2⟩, ⟨%d3, H3⟩, ⟨%d4, H4⟩, ⟨%d5, H5⟩⟩
    iapply (run1_A c Set.univ (grid1.coords t) ((hcond1 t).mpr h0) _ _ _ _ _ _ _ _ _ _ _ _
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc4_later V c t h0, acc5_later V c t h0]
    simp only [before1_4_B V c t h0, before1_5_B V c t h0]
    iintro ⟨HΦ, Ho, ⟨%d0, H0⟩, ⟨%d1, H1⟩, ⟨%d2, H2⟩, ⟨%d3, H3⟩, ⟨%d4, H4⟩, ⟨%d5, H5⟩⟩
    iapply (run1_B c Set.univ (grid1.coords t) (fun h => h0 ((hcond1 t).mp h)) _ _ _ _ _ _ _ _ _ _ _ _
      (iblk1 V c 0 t) (iblk1 V c 1 t) (iblk1 V c 2 t) (iblk1 V c 3 t)
      (acc4 V c (t.val - 1) (Nat.lt_of_le_of_lt (Nat.sub_le _ _) t.isLt))
      (acc5 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The pipeline's body obligation for region 1 at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole program's run over its segments. Between two items of @main a core holds every unscoped buffer whole at a known
  contents: the launch memory, then what each stretch of host operations computes from the contents before it, and after a
  kernel region the region's arrays at what its pipeline leaves (the inputs as entered, each output's write-backs folded) with
  every other buffer as entered. Each stretch is a segment over those contents, each region a segment entered from the contents
  before it and left at the contents after it; the launch theorem composes them: every weakly fair execution terminates,
  nothing faults, and the final memory holds every unscoped buffer at the last contents. The arguments are written by no
  stretch and are no output of a region, so the fold at an argument walks back to the launch memory: the frame.
-/
import proofs.«406654_j12146167513818_3_alg».proof.Proof.KDefs
import proofs.«406654_j12146167513818_3_alg».proof.Proof.KReg0
import proofs.«406654_j12146167513818_3_alg».proof.Proof.KReg1
import proofs.«406654_j12146167513818_3_alg».proof.Proof.Gen.Kernel.Launch
import proofs.«406654_j12146167513818_3_alg».proof.Proof.Gen.Kernel.Regions
import proofs.«406654_j12146167513818_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of @main -/

/-- core c's buffers at launch, and after each item of @main -/
abbrev W0 (c : Dev nD) : Valuation τ sig (Elt F) := fun b => m (c, b)
/-- after the first stretch (the scaled displacements and the two index columns) -/
abbrev W1 (c : Dev nD) : Valuation τ sig (Elt F) := StableHlo.after hostOps0 (W0 m c)
/-- after the gather of the displacements at the first ends -/
abbrev W2 (c : Dev nD) : Valuation τ sig (Elt F) := StableHlo.after hostOps0_1 (W1 m c)
/-- after the gather of the displacements at the second ends -/
abbrev W3 (c : Dev nD) : Valuation τ sig (Elt F) := StableHlo.after hostOps0_2 (W2 m c)
/-- after the transposes and the packing of the element properties: region 0's entry -/
abbrev W4 (c : Dev nD) : Valuation τ sig (Elt F) := StableHlo.after hostOps0_3 (W3 m c)
/-- the same read at the TensorCore's references (what region 0's proof data take) -/
abbrev V4 : (c : Dev nD) → (b : Ref sig .tc) → Buf (Elt F) ((c : Thread nD τ).loc b) := fun c b => W4 m c b
/-- at region 0's exit: its arrays at what the pipeline leaves, every other buffer as entered -/
def W5 (c : Dev nD) : Valuation τ sig (Elt F) := Pipeline.withArrays spec0 c (W4 m c) fun w => (dat0 (V4 m) c).arrAt w cfg0.N
/-- after the scatter-adds of the end forces and the transposes: region 1's entry -/
abbrev W6 (c : Dev nD) : Valuation τ sig (Elt F) := StableHlo.after hostOps1 (W5 m c)
/-- the same read at the TensorCore's references (what region 1's proof data take) -/
abbrev V6 : (c : Dev nD) → (b : Ref sig .tc) → Buf (Elt F) ((c : Thread nD τ).loc b) := fun c b => W6 m c b
/-- at region 1's exit: its arrays at what the pipeline leaves, every other buffer as entered -/
def W7 (c : Dev nD) : Valuation τ sig (Elt F) := Pipeline.withArrays spec1 c (W6 m c) fun w => (dat1 (V6 m) c).arrAt w cfg1.N
/-- after the last stretch (the quotient of the two sums): the end -/
abbrev W8 (c : Dev nD) : Valuation τ sig (Elt F) := StableHlo.after hostOps2 (W7 m c)

theorem W5_arr (c : Dev nD) (w : Fin cfg0.W) :
    W5 m c (Proc.devRef .tc (Pipeline.arrRef spec0 w)) = (dat0 (V4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb

/-- the same reads at the TensorCore's references (the regions' exit contents) -/
abbrev V5 : (c : Dev nD) → (b : Ref sig .tc) → Buf (Elt F) ((c : Thread nD τ).loc b) := fun c b => W5 m c b
abbrev V7 : (c : Dev nD) → (b : Ref sig .tc) → Buf (Elt F) ((c : Thread nD τ).loc b) := fun c b => W7 m c b

/-- At a region's exit each of its arrays holds what the pipeline leaves and every other buffer what it held at entry. -/
theorem hF0 (c : Dev nD) (w : Fin cfg0.W) : (dat0 (V4 m) c).arrAt w cfg0.N = V5 m c (Pipeline.arrRef spec0 w) :=
  (W5_arr m c w).symm
theorem hrest0 (c : Dev nD) : ∀ b, b ∉ Finset.univ.image (Pipeline.arrRef spec0) → V5 m c b = V4 m c b :=
  fun b hb => W5_of_ne m c b fun w e => hb (Finset.mem_image.mpr ⟨w, Finset.mem_univ _, e⟩)
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V4 m) c
  | ⟨1, _⟩ => fun c => dat1 (V6 m) c
/-- The kernels' labels have no variant. -/
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's class
    invariant takes it in and gives it back) and the core owing nothing. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding along; it
    leaves those references at what the operations compute from `W`, which is the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

-- the region's configuration, window table and launch facts are the program's own for call 0:
-- equal to the library's by unfolding definitions
set_option backward.isDefEq.respectTransparency.types false in
/-- REGION 0 over the thread state: entered from every unscoped buffer at `W4`, left at `W5`. Its arrays are split
    out of the unscoped buffers at entry and put back at the exit contents; the generator register goes into the class
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (V4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V4 m c) (V5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the region's configuration, window table and launch facts are the program's own for call 1:
-- equal to the library's by unfolding definitions
set_option backward.isDefEq.respectTransparency.types false in
/-- REGION 1 over the thread state: entered from every unscoped buffer at `W6`, left at `W7`. Its arrays are split
    out of the unscoped buffers at entry and put back at the exit contents; the generator register goes into the class
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 8 items in order (the same list on every core): a host segment per stretch from its boundary's contents, a
    region per kernel call. -/
abbrev runSegs (c : Dev nD) : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .host (hseg hostOps1 hostOps1_sub hostOps1_fresh (W5 m)),
    .region (reg1 m),
    .host (hseg hostOps2 hostOps2_sub hostOps2_fresh (W7 m)) ]

/-- The last segment's thread state is the last boundary's buffers and the generator register, beside the core owing nothing
    (the separating conjunction regrouped). -/
theorem last_state (c : Dev nD) :
    iprop(StableHlo.held (c : Thread nD τ) (Pipeline.ucRefs τ sig) (W8 m c) ∗ R c)
      ⊢ (iprop((StableHlo.held (c : Thread nD τ) (Pipeline.ucRefs τ sig) (W8 m c) ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

-- the launch theorem is taken at this program's segments, thread states and labels:
-- its conclusion is this one by unfolding definitions
set_option backward.isDefEq.respectTransparency.types false in
/-- The launch over the segments, at any post that follows from "every unscoped buffer of every core ends at `W8`": the
    thread states chain by name, the first is made from what the launch deals, the last is read against the final state. -/
theorem run_post {Q : PUnit × MemSt nD τ sig (Elt F) → Prop}
    (hQ : ∀ s : MemSt nD τ sig (Elt F), (∀ c : Dev nD, ∀ b ∈ Pipeline.ucRefs τ sig, s.mem ((c : Thread nD τ).1, b) = W8 m c b) → Q (⟨⟩, s)) :
    θ_run defs (onTc (τ := τ) (main (F := F))) ⟨m, fun _ => 0, ρ⟩ Q :=
  Pipeline.θ_run_regions_kit_dev (pcfgs (F := F)) adm (pdats m) () cellOf_inj emb₁ defs₀ 𝒱₀ L lv m ρ main (runSegs m)
    (fun c Q => by
      rewrite [main_chain c, Pipeline.Seg.run_eq_chain,
        show (runSegs m c).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2 ] from rfl]
      exact .rfl)
    (fun c => by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W8 m c) ∗ ∃ r, prngReg c r))
    (hch := fun c => ⟨.rfl, .rfl, .rfl, .rfl, .rfl, .rfl, .rfl, .rfl, last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := hQ)

/-- THE RUN: every weakly fair execution terminates, nothing faults, and every unscoped buffer ends at W8 -/
theorem run_all : θ_run defs (onTc (τ := τ) (main (F := F))) ⟨m, fun _ => 0, ρ⟩
    (fun r => ∀ c : Dev nD, ∀ b ∈ Pipeline.ucRefs τ sig, r.2.mem ((c : Thread nD τ).1, b) = W8 m c b) :=
  run_post m ρ fun _ h => h

/-! ## The arguments end as launched: no stretch writes one and none is a region's output -/

theorem W8_main_arg0 (c : Dev nD) : W8 m c (Proc.devRef .tc main_arg0) = m ((c : Thread nD τ).loc main_arg0) :=
  (StableHlo.after_of_writes_sub hostOps2 _ hostOps2_writes (by decide)).trans <|
  (W7_of_ne m c main_arg0 (by decide)).trans <|
  (StableHlo.after_of_writes_sub hostOps1 _ hostOps1_writes (by decide)).trans <|
  (W5_of_ne m c main_arg0 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W8_main_arg1 (c : Dev nD) : W8 m c (Proc.devRef .tc main_arg1) = m ((c : Thread nD τ).loc main_arg1) :=
  (StableHlo.after_of_writes_sub hostOps2 _ hostOps2_writes (by decide)).trans <|
  (W7_of_ne m c main_arg1 (by decide)).trans <|
  (StableHlo.after_of_writes_sub hostOps1 _ hostOps1_writes (by decide)).trans <|
  (W5_of_ne m c main_arg1 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W8_main_arg2 (c : Dev nD) : W8 m c (Proc.devRef .tc main_arg2) = m ((c : Thread nD τ).loc main_arg2) :=
  (StableHlo.after_of_writes_sub hostOps2 _ hostOps2_writes (by decide)).trans <|
  (W7_of_ne m c main_arg2 (by decide)).trans <|
  (StableHlo.after_of_writes_sub hostOps1 _ hostOps1_writes (by decide)).trans <|
  (W5_of_ne m c main_arg2 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W8_main_arg3 (c : Dev nD) : W8 m c (Proc.devRef .tc main_arg3) = m ((c : Thread nD τ).loc main_arg3) :=
  (StableHlo.after_of_writes_sub hostOps2 _ hostOps2_writes (by decide)).trans <|
  (W7_of_ne m c main_arg3 (by decide)).trans <|
  (StableHlo.after_of_writes_sub hostOps1 _ hostOps1_writes (by decide)).trans <|
  (W5_of_ne m c main_arg3 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W8_main_arg4 (c : Dev nD) : W8 m c (Proc.devRef .tc main_arg4) = m ((c : Thread nD τ).loc main_arg4) :=
  (StableHlo.after_of_writes_sub hostOps2 _ hostOps2_writes (by decide)).trans <|
  (W7_of_ne m c main_arg4 (by decide)).trans <|
  (StableHlo.after_of_writes_sub hostOps1 _ hostOps1_writes (by decide)).trans <|
  (W5_of_ne m c main_arg4 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W8_main_arg5 (c : Dev nD) : W8 m c (Proc.devRef .tc main_arg5) = m ((c : Thread nD τ).loc main_arg5) :=
  (StableHlo.after_of_writes_sub hostOps2 _ hostOps2_writes (by decide)).trans <|
  (W7_of_ne m c main_arg5 (by decide)).trans <|
  (StableHlo.after_of_writes_sub hostOps1 _ hostOps1_writes (by decide)).trans <|
  (W5_of_ne m c main_arg5 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W8_main_arg6 (c : Dev nD) : W8 m c (Proc.devRef .tc main_arg6) = m ((c : Thread nD τ).loc main_arg6) :=
  (StableHlo.after_of_writes_sub hostOps2 _ hostOps2_writes (by decide)).trans <|
  (W7_of_ne m c main_arg6 (by decide)).trans <|
  (StableHlo.after_of_writes_sub hostOps1 _ hostOps1_writes (by decide)).trans <|
  (W5_of_ne m c main_arg6 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W8_main_arg7 (c : Dev nD) : W8 m c (Proc.devRef .tc main_arg7) = m ((c : Thread nD τ).loc main_arg7) :=
  (StableHlo.after_of_writes_sub hostOps2 _ hostOps2_writes (by decide)).trans <|
  (W7_of_ne m c main_arg7 (by decide)).trans <|
  (StableHlo.after_of_writes_sub hostOps1 _ hostOps1_writes (by decide)).trans <|
  (W5_of_ne m c main_arg7 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W8_main_arg8 (c : Dev nD) : W8 m c (Proc.devRef .tc main_arg8) = m ((c : Thread nD τ).loc main_arg8) :=
  (StableHlo.after_of_writes_sub hostOps2 _ hostOps2_writes (by decide)).trans <|
  (W7_of_ne m c main_arg8 (by decide)).trans <|
  (StableHlo.after_of_writes_sub hostOps1 _ hostOps1_writes (by decide)).trans <|
  (W5_of_ne m c main_arg8 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W8_main_arg9 (c : Dev nD) : W8 m c (Proc.devRef .tc main_arg9) = m ((c : Thread nD τ).loc main_arg9) :=
  (StableHlo.after_of_writes_sub hostOps2 _ hostOps2_writes (by decide)).trans <|
  (W7_of_ne m c main_arg9 (by decide)).trans <|
  (StableHlo.after_of_writes_sub hostOps1 _ hostOps1_writes (by decide)).trans <|
  (W5_of_ne m c main_arg9 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W8_main_arg10 (c : Dev nD) : W8 m c (Proc.devRef .tc main_arg10) = m ((c : Thread nD τ).loc main_arg10) :=
  (StableHlo.after_of_writes_sub hostOps2 _ hostOps2_writes (by decide)).trans <|
  (W7_of_ne m c main_arg10 (by decide)).trans <|
  (StableHlo.after_of_writes_sub hostOps1 _ hostOps1_writes (by decide)).trans <|
  (W5_of_ne m c main_arg10 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl

/-- the frame: every argument array ends holding its launch contents, at any F -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_post m ρ fun s h c =>
   ⟨(h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c),
    (h c _ (mem_uc main_arg10 (by decide))).trans (W8_main_arg10 m c)⟩

end Cert.Kernel.Hand

end
-- ==== Proof.KIDefs.lean ====
/-
  The two kernel bodies of the idealized program as pure functions of the blocks they load, and the blocks themselves.

  Region 0 (the per-edge beam forces): at a grid point the body loads the blocks of the two gathered displacement arrays, of the
  direction cosines and of the packed element properties, and stores the two end-force blocks; `edgeA` and `edgeB` are those
  two stored values as functions of the four loaded blocks (the body's operations composed in program order).
  Region 1 (the masked residual sums): the two 1x1 outputs are running sums over the grid points: at point 0 the body first
  resets them to zero, and at every point it adds the point's partial sum to what the output holds; `acc4` and `acc5` are
  what the two outputs hold after point n, by recursion on n.
-/
import proofs.«406654_j12146167513818_3_alg».proof.Proof.Gen.KernelIdeal.Launch
import proofs.«406654_j12146167513818_3_alg».proof.Proof.Gen.KernelIdeal.Skeleton
import proofs.«406654_j12146167513818_3_alg».proof.Proof.Gen.KernelIdeal.Points
import Idealize.ShloMosaic.Lib.Pipeline.FrameBody
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when a region is entered
variable (V : (c : Dev nD) → (b : Ref sig .tc) → Buf (Elt F) ((c : Thread nD τ).loc b))

/-- Window `w`'s block of region 0 at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of region 1 at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The force block at end A that region 0's body stores, from the loaded blocks: `x0`, `x1` the displacements at the two
    ends (3 x 80000), `x2` the direction cosines (3 x 80000), `x3` the packed properties (4 x 80000). -/
def edgeA (x0 x1 x2 : Vec F S3x80000 .f32) (x3 : Vec F S4x80000 .f32) : Vec F S3x80000 .f32 :=
  k0_pay1
    (k0_pay28 (k0_pay14 x0 x2) (k0_pay15 x0) (k0_pay17 x1 x2) (k0_pay18 x1) (k0_pay23 x3) (k0_pay24 x3))
    (k0_pay32 (k0_pay7 x2) (k0_pay8 x2) (k0_pay13 x0 x2) (k0_pay14 x0 x2) (k0_pay15 x0) (k0_pay16 x1 x2) (k0_pay17 x1 x2) (k0_pay18 x1)
      (k0_pay19 x3) (k0_pay21 x3) (k0_pay22 x3) (k0_pay24 x3) (k0_pay25 x3))
    (k0_pay33 (k0_pay7 x2) (k0_pay8 x2) (k0_pay13 x0 x2) (k0_pay14 x0 x2) (k0_pay15 x0) (k0_pay16 x1 x2) (k0_pay17 x1 x2) (k0_pay18 x1)
      (k0_pay19 x3) (k0_pay21 x3) (k0_pay22 x3) (k0_pay24 x3) (k0_pay25 x3))

/-- The force block at end B that region 0's body stores, from the same loaded blocks. -/
def edgeB (x0 x1 x2 : Vec F S3x80000 .f32) (x3 : Vec F S4x80000 .f32) : Vec F S3x80000 .f32 :=
  k0_pay2 (k0_pay7 x2) (k0_pay8 x2)
    (k0_pay29 (k0_pay13 x0 x2) (k0_pay16 x1 x2) (k0_pay22 x3))
    (k0_pay30 (k0_pay14 x0 x2) (k0_pay15 x0) (k0_pay17 x1 x2) (k0_pay18 x1) (k0_pay19 x3) (k0_pay21 x3) (k0_pay24 x3) (k0_pay25 x3))
    (k0_pay31 (k0_pay14 x0 x2) (k0_pay15 x0) (k0_pay17 x1 x2) (k0_pay18 x1) (k0_pay23 x3) (k0_pay24 x3))

/-- The running sum of squares after point `n` of region 1 (output window 4): at point 0 over the zero the body has just
    stored, afterwards over what the point before left. `k1_pay6 x0 x1 x2 x3 prev` is `prev` plus the point's partial sum. -/
def acc4 (c : Dev nD) : (n : ℕ) → n < cfg1.N → Vec F S1x1 .f32
  | 0, hn => k1_pay6 (iblk1 V c 0 ⟨0, hn⟩) (iblk1 V c 1 ⟨0, hn⟩) (iblk1 V c 2 ⟨0, hn⟩) (iblk1 V c 3 ⟨0, hn⟩) k1_pay2
  | n + 1, hn => k1_pay6 (iblk1 V c 0 ⟨n + 1, hn⟩) (iblk1 V c 1 ⟨n + 1, hn⟩) (iblk1 V c 2 ⟨n + 1, hn⟩) (iblk1 V c 3 ⟨n + 1, hn⟩)
      (acc4 c n (Nat.lt_of_succ_lt hn))

/-- The running count of free components after point `n` of region 1 (output window 5). `k1_pay1 p prev` is `prev + p`,
    `k1_pay5 x3` the point's partial sum of the mask. -/
def acc5 (c : Dev nD) : (n : ℕ) → n < cfg1.N → Vec F S1x1 .f32
  | 0, hn => k1_pay1 (k1_pay5 (iblk1 V c 3 ⟨0, hn⟩)) k1_pay3
  | n + 1, hn => k1_pay1 (k1_pay5 (iblk1 V c 3 ⟨n + 1, hn⟩)) (acc5 c n (Nat.lt_of_succ_lt hn))

/-- The proof data of region 0 on core `c`: the arrays as the region finds them; after the body at point `t` each input
    window's buffer still holds its block, and the two output windows' buffers hold the two force blocks computed from the
    input blocks; the body needs nothing beyond the scoped rest and the generator register, owes nothing, holds full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => edgeA (iblk0 V c 0 t) (iblk0 V c 1 t) (iblk0 V c 2 t) (iblk0 V c 3 t)
    | ⟨5, _⟩ => edgeB (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = edgeA (iblk0 V c 0 t) (iblk0 V c 1 t) (iblk0 V c 2 t) (iblk0 V c 3 t) := by dsimp only [dat0]
theorem after0_5 (c : Dev nD) (t : Fin cfg0.N) :
    (dat0 V c).after 5 t = edgeB (iblk0 V c 0 t) (iblk0 V c 1 t) (iblk0 V c 2 t) (iblk0 V c 3 t) := by dsimp only [dat0]

/-- The proof data of region 1 on core `c`: the input windows keep their blocks; the two 1x1 outputs hold the running sums. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc4 V c t.val t.isLt
    | ⟨5, _⟩ => acc5 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc4 V c t.val t.isLt := by dsimp only [dat1]
theorem after1_5 (c : Dev nD) (t : Fin cfg1.N) : (dat1 V c).after 5 t = acc5 V c t.val t.isLt := by dsimp only [dat1]

end Cert.KernelIdeal.Hand

end
-- ==== Proof.KIReg0.lean ====
/-
  Region 0 (the per-edge forces): the body, called at any grid point on the windows' current staging buffers, runs to its end
  and leaves the input buffers as they were and the two output buffers at the force blocks `edgeA`, `edgeB` of the input blocks.
-/
import proofs.«406654_j12146167513818_3_alg».proof.Proof.KIDefs
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not, for any proof data whose
    array is the region-entry contents and whose body leaves the block in place: an unfetched window's index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data whose
    array is the region-entry contents and whose body leaves the block in place: an unfetched window's index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data whose
    array is the region-entry contents and whose body leaves the block in place: an unfetched window's index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data whose
    array is the region-entry contents and whose body leaves the block in place: an unfetched window's index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The whole-block rectangle -/

/-- The offsets of the whole-block rectangle are zero. -/
theorem off_zero : (![0, 0] : Fin 2 → Nat) = fun _ => 0 := funext fun a => by fin_cases a <;> rfl

/-- The one store of an output buffer covers it: its rectangle is the whole block. -/
theorem cover3 (p0 : Vec F S3x80000 .f32) (y : S3x80000.Idx) :
    ∃ pc ∈ ([⟨Rect.unit (s := S3x80000) ![0, 0] S3x80000.size inb_S3x80000_S3x80000_0_0, p0⟩] : List (View.Piece (Elt F) S3x80000 .f32)), y ∈ pc.1.set :=
  ⟨_, List.mem_singleton_self _, View.mem_set_unit_zero off_zero inb_S3x80000_S3x80000_0_0 y⟩

/-! ## The body's triple -/

set_option maxHeartbeats 1000000 in
/-- The kernel body on whole staging memrefs, the four inputs' at read contents `x0 … x3` and the two outputs' at anything,
    runs to the continuation holding the inputs' as they were and the outputs' at `edgeA` and `edgeB` of the inputs': each
    input is loaded whole once, each output is stored whole once, and the stored values are the compositions of the
    payloads in program order. -/
theorem sound_kernel0 (c : Dev nD) (E : Set ℕ) (i : grid0.Coords)
    (arg1 : Memref sig .tc .vmem S3x80000 .f32) (harg1 : arg1.IsWhole) (arg2 : Memref sig .tc .vmem S3x80000 .f32) (harg2 : arg2.IsWhole)
    (arg3 : Memref sig .tc .vmem S3x80000 .f32) (harg3 : arg3.IsWhole) (arg4 : Memref sig .tc .vmem S4x80000 .f32) (harg4 : arg4.IsWhole)
    (arg5 : Memref sig .tc .vmem S3x80000 .f32) (harg5 : arg5.IsWhole) (arg6 : Memref sig .tc .vmem S3x80000 .f32) (harg6 : arg6.IsWhole)
    (x0 x1 x2 : Vec F S3x80000 .f32) (x3 : Vec F S4x80000 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (edgeA x0 x1 x2 x3) ∗ owns (c : Thread nD τ) arg6 fullShare (edgeB x0 x1 x2 x3)) -∗ K ⟨⟩))
      ⊢ wp frame (wpE (defs₀ (F := F)) Variants.none c none) E (cc0__edge_kernel_T i arg1 harg1 arg2 harg2 arg3 harg3 arg4 harg4 arg5 harg5 arg6 harg6) K := by
  simp only [cc0__edge_kernel_T_eq_skeleton]; unfold cc0__edge_kernel_T_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover3 _)).trans ?_
    rw [View.canon_unit_zero off_zero]
    sl_unfold_run_names
    unfold edgeA
    simp only [View.readAt_eq_ld, View.ld_unit_zero (S := S3x80000) off_zero, View.ld_unit_zero (S := S4x80000) off_zero]
  · iexists _; isplitr
    swap; · iexact H5
    ipureintro
    refine (View.read_writes_eq_canon _ _ _ (cover3 _)).trans ?_
    rw [View.canon_unit_zero off_zero]
    sl_unfold_run_names
    unfold edgeB
    simp only [View.readAt_eq_ld, View.ld_unit_zero (S := S3x80000) off_zero, View.ld_unit_zero (S := S4x80000) off_zero]

/-! ## The body obligation, at a generic point -/

/-- Each input window's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`: the invariant, the core's debt, and every window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation for region 0 at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1.lean ====
/-
  Region 1 (the masked residual sums): the body, called at any grid point on the windows' current staging buffers, runs to its
  end, leaves the input buffers as they were and the two 1x1 output buffers at the running sums `acc4`, `acc5`: at point 0 it
  first stores zero into both, at every later point the buffers still hold what the point before left (they are written back
  only after the last point).
-/
import proofs.«406654_j12146167513818_3_alg».proof.Proof.KIDefs
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's conditional, from the grid coordinate (the scalar chain substituted). -/
abbrev cond1 (i : grid1.Coords) : Prop := (Scalar.cmpi .ne (Scalar.extui (Scalar.cmpi .eq (BitVec.ofNat 32 (i 0).val) 0#32)) 0#32) = 1#1

/-- It holds at the first point only: decided over the grid. -/
theorem hcond1 : ∀ t : Fin cfg1.N, cond1 (grid1.coords t) ↔ t.val % 25 = 0 :=
  (by decide +kernel : ∀ t : Fin grid1.N, cond1 (grid1.coords t) ↔ t.val % 25 = 0)

/-- The zero offsets of a rank-2 rectangle, as the constant function. -/
theorem hz2 : (![0, 0] : Fin 2 → Nat) = fun _ => 0 := by
  funext a; fin_cases a <;> rfl

/-- A store through the whole-shape rectangle at zero offsets, made last, is what the buffer then reads, whatever the
    earlier stores and the prior contents were. -/
theorem read_writes_cons_unit_zero {κ : Kind} {sp : Space} {S : Shape} {e : EltTy} (v : View sig κ sp S e)
    (f : v.ty.Contents (Elt F)) {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self .., View.mem_set_unit_zero hz inb y⟩)).trans
    (View.canon_cons_unit_zero hz inb w L)

/-- A load through the whole-shape rectangle at zero offsets of a whole memref's buffer reads its contents. -/
theorem readAt_unread_unit_zero {sp : Space} {S : Shape} {e : EltTy} {m : Memref sig .tc sp S e} (h : m.IsWhole)
    (X : S.Idx → Elt F e) {off : Fin S.rank → Nat} (hz : off = fun _ => 0) (inb : ∀ a, off a + S.size a ≤ S.size a) :
    m.view.readAt (Elt F) (Rect.unit off S.size inb).toLoadRect (h.unread X) = X := by
  rw [View.readAt_eq_ld, h.read_unread, View.ld_unit_zero hz]

set_option maxHeartbeats 1000000 in
/-- The body at a point where the conditional is taken, on whole staging memrefs, the inputs' at contents `x0 … x3`, the two
    outputs' at anything: it runs to the continuation holding the inputs' as they were, the first output at the point's
    partial sum of squares added to the zero just stored, the second at the point's partial mask count added to the zero
    just stored. -/
theorem run1_A (c : Dev nD) (E : Set ℕ) (i : grid1.Coords) (hc : cond1 i)
    (arg1 : Memref sig .tc .vmem S3x80000 .f32) (harg1 : arg1.IsWhole) (arg2 : Memref sig .tc .vmem S3x80000 .f32) (harg2 : arg2.IsWhole)
    (arg3 : Memref sig .tc .vmem S3x80000 .f32) (harg3 : arg3.IsWhole) (arg4 : Memref sig .tc .vmem S2x80000 .f32) (harg4 : arg4.IsWhole)
    (arg5 : Memref sig .tc .vmem S1x1 .f32) (harg5 : arg5.IsWhole) (arg6 : Memref sig .tc .vmem S1x1 .f32) (harg6 : arg6.IsWhole)
    (x0 x1 x2 : Vec F S3x80000 .f32) (x3 : Vec F S2x80000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3
            ∗ owns (c : Thread nD τ) arg5 fullShare (k1_pay6 x0 x1 x2 x3 k1_pay2)
            ∗ owns (c : Thread nD τ) arg6 fullShare (k1_pay1 (k1_pay5 x3) k1_pay3)) -∗ K ⟨⟩))
      ⊢ wp frame (wpE (defs₀ (F := F)) Variants.none c none) E
          (cc1__loss_kernel_T i arg1 harg1 arg2 harg2 arg3 harg3 arg4 harg4 arg5 harg5 arg6 harg6) K := by
  simp only [cc1__loss_kernel_T_eq_skeleton]; unfold cc1__loss_kernel_T_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1; obtain rfl := harg3.eq_unread hf2; obtain rfl := harg4.eq_unread hf3
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    refine (read_writes_cons_unit_zero (S := S1x1) arg5.view f4 hz2 inb_S1x1_S1x1_0_0 _ _).trans ?_
    refine congr (congr (congr (congr (congrArg k1_pay6 ?_) ?_) ?_) ?_) ?_
    · exact readAt_unread_unit_zero (S := S3x80000) harg1 x0 hz2 _
    · exact readAt_unread_unit_zero (S := S3x80000) harg2 x1 hz2 _
    · exact readAt_unread_unit_zero (S := S3x80000) harg3 x2 hz2 _
    · exact readAt_unread_unit_zero (S := S2x80000) harg4 x3 hz2 _
    · exact View.readCov_unit_zero (S := S1x1) arg5.view hz2 inb_S1x1_S1x1_0_0 _
  iexists _; isplitr
  swap; · iexact H5
  ipureintro
  sl_unfold_words
  refine (read_writes_cons_unit_zero (S := S1x1) arg6.view f5 hz2 inb_S1x1_S1x1_0_0 _ _).trans ?_
  refine congrArg₂ k1_pay1 (congrArg k1_pay5 ?_) ?_
  · exact readAt_unread_unit_zero (S := S2x80000) harg4 x3 hz2 _
  · exact View.readCov_unit_zero (S := S1x1) arg6.view hz2 inb_S1x1_S1x1_0_0 _

set_option maxHeartbeats 1000000 in
/-- The body at a point where the conditional is not taken, the two outputs' memrefs at contents `xo4`, `xo5`: it runs
    to the continuation holding the inputs' as they were, the first output at the point's partial sum of squares added to
    `xo4`, the second at the point's partial mask count added to `xo5`. -/
theorem run1_B (c : Dev nD) (E : Set ℕ) (i : grid1.Coords) (hc : ¬cond1 i)
    (arg1 : Memref sig .tc .vmem S3x80000 .f32) (harg1 : arg1.IsWhole) (arg2 : Memref sig .tc .vmem S3x80000 .f32) (harg2 : arg2.IsWhole)
    (arg3 : Memref sig .tc .vmem S3x80000 .f32) (harg3 : arg3.IsWhole) (arg4 : Memref sig .tc .vmem S2x80000 .f32) (harg4 : arg4.IsWhole)
    (arg5 : Memref sig .tc .vmem S1x1 .f32) (harg5 : arg5.IsWhole) (arg6 : Memref sig .tc .vmem S1x1 .f32) (harg6 : arg6.IsWhole)
    (x0 x1 x2 : Vec F S3x80000 .f32) (x3 : Vec F S2x80000 .f32) (xo4 xo5 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo4 ∗ owns (c : Thread nD τ) arg6 fullShare xo5
        ∗ (iprop(owns (c : Thread nD τ) arg1 fullShare x0 ∗ owns (c : Thread nD τ) arg2 fullShare x1 ∗ owns (c : Thread nD τ) arg3 fullShare x2
        ∗ owns (c : Thread nD τ) arg4 fullShare x3
            ∗ owns (c : Thread nD τ) arg5 fullShare (k1_pay6 x0 x1 x2 x3 xo4)
            ∗ owns (c : Thread nD τ) arg6 fullShare (k1_pay1 (k1_pay5 x3) xo5)) -∗ K ⟨⟩))
      ⊢ wp frame (wpE (defs₀ (F := F)) Variants.none c none) E
          (cc1__loss_kernel_T i arg1 harg1 arg2 harg2 arg3 harg3 arg4 harg4 arg5 harg5 arg6 harg6) K := by
  simp only [cc1__loss_kernel_T_eq_skeleton]; unfold cc1__loss_kernel_T_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    refine (read_writes_cons_unit_zero (S := S1x1) arg5.view _ hz2 inb_S1x1_S1x1_0_0 _ _).trans ?_
    refine congr (congr (congr (congr (congrArg k1_pay6 ?_) ?_) ?_) ?_) ?_
    · exact readAt_unread_unit_zero (S := S3x80000) harg1 x0 hz2 _
    · exact readAt_unread_unit_zero (S := S3x80000) harg2 x1 hz2 _
    · exact readAt_unread_unit_zero (S := S3x80000) harg3 x2 hz2 _
    · exact readAt_unread_unit_zero (S := S2x80000) harg4 x3 hz2 _
    · exact readAt_unread_unit_zero (S := S1x1) harg5 xo4 hz2 _
  iexists _; isplitr
  swap; · iexact H5
  ipureintro
  sl_unfold_words
  refine (read_writes_cons_unit_zero (S := S1x1) arg6.view _ hz2 inb_S1x1_S1x1_0_0 _ _).trans ?_
  refine congrArg₂ k1_pay1 (congrArg k1_pay5 ?_) ?_
  · exact readAt_unread_unit_zero (S := S2x80000) harg4 x3 hz2 _
  · exact readAt_unread_unit_zero (S := S1x1) harg6 xo5 hz2 _

-- the TensorCore's buffer contents when the region is entered
variable (V : (c : Dev nD) → (b : Ref sig .tc) → Buf (Elt F) ((c : Thread nD τ).loc b))

/-! ## What the windows' current buffers hold when the body is called -/

/-- Each input window's current staging buffer holds its block at every point, fetched there or not: the window is an
    input, uncut and never idle, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- At a later point the first output's buffer holds the running sum the point before left: the point is not the first,
    the buffer is written back only after the last point, the window is live and uncut. -/
theorem before1_4_B (c : Dev nD) (t : Fin cfg1.N) (h0 : ¬t.val % 25 = 0) (d) :
    (dat1 V c).before 4 t d = acc4 V c (t.val - 1) (Nat.lt_of_le_of_lt (Nat.sub_le _ _) t.isLt) := by
  have hN : t.val < 25 := lt_of_lt_of_eq t.isLt (show cfg1.N = 25 from N_1)
  rw [Dat.before_out_kept _ 4 rfl t (by omega) (Bool.eq_false_iff.mpr fun h => by have := (flush1_4 _).mp h; dsimp only at this; omega)
    (fun _ => rfl) (fun _ _ => rfl)]
  dsimp only [dat1]

/-- The same for the second output. -/
theorem before1_5_B (c : Dev nD) (t : Fin cfg1.N) (h0 : ¬t.val % 25 = 0) (d) :
    (dat1 V c).before 5 t d = acc5 V c (t.val - 1) (Nat.lt_of_le_of_lt (Nat.sub_le _ _) t.isLt) := by
  have hN : t.val < 25 := lt_of_lt_of_eq t.isLt (show cfg1.N = 25 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The running sums at a point -/

/-- At the first point the running sum of squares is the point's partial sum over the zero just stored. -/
theorem acc4_first (c : Dev nD) (t : Fin cfg1.N) (h0 : t.val % 25 = 0) :
    acc4 V c t.val t.isLt = k1_pay6 (iblk1 V c 0 t) (iblk1 V c 1 t) (iblk1 V c 2 t) (iblk1 V c 3 t) k1_pay2 := by
  obtain ⟨n, hn⟩ := t
  have hN : n < 25 := lt_of_lt_of_eq hn (show cfg1.N = 25 from N_1)
  cases n with
  | zero => exact rfl
  | succ n => exact (by exfalso; (try dsimp only at h0); omega)

/-- At a later point it is the point's partial sum over the running sum the point before left. -/
theorem acc4_later (c : Dev nD) (t : Fin cfg1.N) (h0 : ¬t.val % 25 = 0) :
    acc4 V c t.val t.isLt = k1_pay6 (iblk1 V c 0 t) (iblk1 V c 1 t) (iblk1 V c 2 t) (iblk1 V c 3 t)
      (acc4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-- At the first point the running count is the point's partial count over the zero just stored. -/
theorem acc5_first (c : Dev nD) (t : Fin cfg1.N) (h0 : t.val % 25 = 0) :
    acc5 V c t.val t.isLt = k1_pay1 (k1_pay5 (iblk1 V c 3 t)) k1_pay3 := by
  obtain ⟨n, hn⟩ := t
  have hN : n < 25 := lt_of_lt_of_eq hn (show cfg1.N = 25 from N_1)
  cases n with
  | zero => exact rfl
  | succ n => exact (by exfalso; (try dsimp only at h0); omega)

/-- At a later point it is the point's partial count over the running count the point before left. -/
theorem acc5_later (c : Dev nD) (t : Fin cfg1.N) (h0 : ¬t.val % 25 = 0) :
    acc5 V c t.val t.isLt = k1_pay1 (k1_pay5 (iblk1 V c 3 t))
      (acc5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The body obligation, at a generic point -/

/-- Each window's current staging memref at point `t`, spelled as the pipeline passes it, and its wholeness. -/
abbrev ms1_0 (t : Fin cfg1.N) : Memref sig .tc .vmem S3x80000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x80000 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3x80000 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x80000 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)

/-- What the body is called with at point `t` (the pipeline's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 800000 in
/-- The body at any point: the inputs' memrefs hold their blocks; the closed form of the condition says which case the
    point is in; at the first point the outputs' buffers hold anything and the body resets them, at a later point they
    hold the running sums the point before left; so the case's run applies and leaves the running sums at this point. The
    invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val % 25 = 0
  · rw [acc4_first V c t h0, acc5_first V c t h0]
    iintro ⟨HΦ, Ho, ⟨%d0, H0⟩, ⟨%d1, H1⟩, ⟨%d2, H2⟩, ⟨%d3, H3⟩, ⟨%d4, H4⟩, ⟨%d5, H5⟩⟩
    iapply (run1_A c Set.univ (grid1.coords t) ((hcond1 t).mpr h0) _ _ _ _ _ _ _ _ _ _ _ _
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc4_later V c t h0, acc5_later V c t h0]
    simp only [before1_4_B V c t h0, before1_5_B V c t h0]
    iintro ⟨HΦ, Ho, ⟨%d0, H0⟩, ⟨%d1, H1⟩, ⟨%d2, H2⟩, ⟨%d3, H3⟩, ⟨%d4, H4⟩, ⟨%d5, H5⟩⟩
    iapply (run1_B c Set.univ (grid1.coords t) (fun h => h0 ((hcond1 t).mp h)) _ _ _ _ _ _ _ _ _ _ _ _
      (iblk1 V c 0 t) (iblk1 V c 1 t) (iblk1 V c 2 t) (iblk1 V c 3 t)
      (acc4 V c (t.val - 1) (Nat.lt_of_le_of_lt (Nat.sub_le _ _) t.isLt))
      (acc5 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The pipeline's body obligation for region 1 at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The whole program's run over its segments. Between two items of @main a core holds every unscoped buffer whole at a known
  contents: the launch memory, then what each stretch of host operations computes from the contents before it, and after a
  kernel region the region's arrays at what its pipeline leaves (the inputs as entered, each output's write-backs folded) with
  every other buffer as entered. Each stretch is a segment over those contents, each region a segment entered from the contents
  before it and left at the contents after it; the launch theorem composes them: every weakly fair execution terminates,
  nothing faults, and the final memory holds every unscoped buffer at the last contents. The arguments are written by no
  stretch and are no output of a region, so the fold at an argument walks back to the launch memory: the frame.
-/
import proofs.«406654_j12146167513818_3_alg».proof.Proof.KIDefs
import proofs.«406654_j12146167513818_3_alg».proof.Proof.KIReg0
import proofs.«406654_j12146167513818_3_alg».proof.Proof.KIReg1
import proofs.«406654_j12146167513818_3_alg».proof.Proof.Gen.KernelIdeal.Launch
import proofs.«406654_j12146167513818_3_alg».proof.Proof.Gen.KernelIdeal.Regions
import proofs.«406654_j12146167513818_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of @main -/

/-- core c's buffers at launch, and after each item of @main -/
abbrev W0 (c : Dev nD) : Valuation τ sig (Elt F) := fun b => m (c, b)
/-- after the first stretch (the scaled displacements and the two index columns) -/
abbrev W1 (c : Dev nD) : Valuation τ sig (Elt F) := StableHlo.after hostOps0 (W0 m c)
/-- after the gather of the displacements at the first ends -/
abbrev W2 (c : Dev nD) : Valuation τ sig (Elt F) := StableHlo.after hostOps0_1 (W1 m c)
/-- after the gather of the displacements at the second ends -/
abbrev W3 (c : Dev nD) : Valuation τ sig (Elt F) := StableHlo.after hostOps0_2 (W2 m c)
/-- after the transposes and the packing of the element properties: region 0's entry -/
abbrev W4 (c : Dev nD) : Valuation τ sig (Elt F) := StableHlo.after hostOps0_3 (W3 m c)
/-- the same read at the TensorCore's references (what region 0's proof data take) -/
abbrev V4 : (c : Dev nD) → (b : Ref sig .tc) → Buf (Elt F) ((c : Thread nD τ).loc b) := fun c b => W4 m c b
/-- at region 0's exit: its arrays at what the pipeline leaves, every other buffer as entered -/
def W5 (c : Dev nD) : Valuation τ sig (Elt F) := Pipeline.withArrays spec0 c (W4 m c) fun w => (dat0 (V4 m) c).arrAt w cfg0.N
/-- after the scatter-adds of the end forces and the transposes: region 1's entry -/
abbrev W6 (c : Dev nD) : Valuation τ sig (Elt F) := StableHlo.after hostOps1 (W5 m c)
/-- the same read at the TensorCore's references (what region 1's proof data take) -/
abbrev V6 : (c : Dev nD) → (b : Ref sig .tc) → Buf (Elt F) ((c : Thread nD τ).loc b) := fun c b => W6 m c b
/-- at region 1's exit: its arrays at what the pipeline leaves, every other buffer as entered -/
def W7 (c : Dev nD) : Valuation τ sig (Elt F) := Pipeline.withArrays spec1 c (W6 m c) fun w => (dat1 (V6 m) c).arrAt w cfg1.N
/-- after the last stretch (the quotient of the two sums): the end -/
abbrev W8 (c : Dev nD) : Valuation τ sig (Elt F) := StableHlo.after hostOps2 (W7 m c)

theorem W5_arr (c : Dev nD) (w : Fin cfg0.W) :
    W5 m c (Proc.devRef .tc (Pipeline.arrRef spec0 w)) = (dat0 (V4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb

/-- the same reads at the TensorCore's references (the regions' exit contents) -/
abbrev V5 : (c : Dev nD) → (b : Ref sig .tc) → Buf (Elt F) ((c : Thread nD τ).loc b) := fun c b => W5 m c b
abbrev V7 : (c : Dev nD) → (b : Ref sig .tc) → Buf (Elt F) ((c : Thread nD τ).loc b) := fun c b => W7 m c b

/-- At a region's exit each of its arrays holds what the pipeline leaves and every other buffer what it held at entry. -/
theorem hF0 (c : Dev nD) (w : Fin cfg0.W) : (dat0 (V4 m) c).arrAt w cfg0.N = V5 m c (Pipeline.arrRef spec0 w) :=
  (W5_arr m c w).symm
theorem hrest0 (c : Dev nD) : ∀ b, b ∉ Finset.univ.image (Pipeline.arrRef spec0) → V5 m c b = V4 m c b :=
  fun b hb => W5_of_ne m c b fun w e => hb (Finset.mem_image.mpr ⟨w, Finset.mem_univ _, e⟩)
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V4 m) c
  | ⟨1, _⟩ => fun c => dat1 (V6 m) c
/-- The kernels' labels have no variant. -/
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's class
    invariant takes it in and gives it back) and the core owing nothing. -/
abbrev R (c : Dev nD) : sProp 𝕄 := iprop((∃ r, prngReg c r) ∗ ∃ W, owes (c : Thread nD τ) (0 : CellTallies nD τ sig Unit) W)
/-- A stretch of host operations as a segment: over the unscoped references from the contents `W`, `R` riding along; it
    leaves those references at what the operations compute from `W`, which is the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

-- the region's configuration, window table and launch facts are the program's own for call 0:
-- equal to the library's by unfolding definitions
set_option backward.isDefEq.respectTransparency.types false in
/-- REGION 0 over the thread state: entered from every unscoped buffer at `W4`, left at `W5`. Its arrays are split
    out of the unscoped buffers at entry and put back at the exit contents; the generator register goes into the class
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (V4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V4 m c) (V5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the region's configuration, window table and launch facts are the program's own for call 1:
-- equal to the library's by unfolding definitions
set_option backward.isDefEq.respectTransparency.types false in
/-- REGION 1 over the thread state: entered from every unscoped buffer at `W6`, left at `W7`. Its arrays are split
    out of the unscoped buffers at entry and put back at the exit contents; the generator register goes into the class
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 8 items in order (the same list on every core): a host segment per stretch from its boundary's contents, a
    region per kernel call. -/
abbrev runSegs (c : Dev nD) : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .host (hseg hostOps1 hostOps1_sub hostOps1_fresh (W5 m)),
    .region (reg1 m),
    .host (hseg hostOps2 hostOps2_sub hostOps2_fresh (W7 m)) ]

/-- The last segment's thread state is the last boundary's buffers and the generator register, beside the core owing nothing
    (the separating conjunction regrouped). -/
theorem last_state (c : Dev nD) :
    iprop(StableHlo.held (c : Thread nD τ) (Pipeline.ucRefs τ sig) (W8 m c) ∗ R c)
      ⊢ (iprop((StableHlo.held (c : Thread nD τ) (Pipeline.ucRefs τ sig) (W8 m c) ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

-- the launch theorem is taken at this program's segments, thread states and labels:
-- its conclusion is this one by unfolding definitions
set_option backward.isDefEq.respectTransparency.types false in
/-- The launch over the segments, at any post that follows from "every unscoped buffer of every core ends at `W8`": the
    thread states chain by name, the first is made from what the launch deals, the last is read against the final state. -/
theorem run_post {Q : PUnit × MemSt nD τ sig (Elt F) → Prop}
    (hQ : ∀ s : MemSt nD τ sig (Elt F), (∀ c : Dev nD, ∀ b ∈ Pipeline.ucRefs τ sig, s.mem ((c : Thread nD τ).1, b) = W8 m c b) → Q (⟨⟩, s)) :
    θ_run defs (onTc (τ := τ) (main (F := F))) ⟨m, fun _ => 0, ρ⟩ Q :=
  Pipeline.θ_run_regions_kit_dev (pcfgs (F := F)) adm (pdats m) () cellOf_inj emb₁ defs₀ 𝒱₀ L lv m ρ main (runSegs m)
    (fun c Q => by
      rewrite [main_chain c, Pipeline.Seg.run_eq_chain,
        show (runSegs m c).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2 ] from rfl]
      exact .rfl)
    (fun c => by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W8 m c) ∗ ∃ r, prngReg c r))
    (hch := fun c => ⟨.rfl, .rfl, .rfl, .rfl, .rfl, .rfl, .rfl, .rfl, last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := hQ)

/-- THE RUN: every weakly fair execution terminates, nothing faults, and every unscoped buffer ends at W8 -/
theorem run_all : θ_run defs (onTc (τ := τ) (main (F := F))) ⟨m, fun _ => 0, ρ⟩
    (fun r => ∀ c : Dev nD, ∀ b ∈ Pipeline.ucRefs τ sig, r.2.mem ((c : Thread nD τ).1, b) = W8 m c b) :=
  run_post m ρ fun _ h => h

/-! ## The arguments end as launched: no stretch writes one and none is a region's output -/

theorem W8_main_arg0 (c : Dev nD) : W8 m c (Proc.devRef .tc main_arg0) = m ((c : Thread nD τ).loc main_arg0) :=
  (StableHlo.after_of_writes_sub hostOps2 _ hostOps2_writes (by decide)).trans <|
  (W7_of_ne m c main_arg0 (by decide)).trans <|
  (StableHlo.after_of_writes_sub hostOps1 _ hostOps1_writes (by decide)).trans <|
  (W5_of_ne m c main_arg0 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W8_main_arg1 (c : Dev nD) : W8 m c (Proc.devRef .tc main_arg1) = m ((c : Thread nD τ).loc main_arg1) :=
  (StableHlo.after_of_writes_sub hostOps2 _ hostOps2_writes (by decide)).trans <|
  (W7_of_ne m c main_arg1 (by decide)).trans <|
  (StableHlo.after_of_writes_sub hostOps1 _ hostOps1_writes (by decide)).trans <|
  (W5_of_ne m c main_arg1 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W8_main_arg2 (c : Dev nD) : W8 m c (Proc.devRef .tc main_arg2) = m ((c : Thread nD τ).loc main_arg2) :=
  (StableHlo.after_of_writes_sub hostOps2 _ hostOps2_writes (by decide)).trans <|
  (W7_of_ne m c main_arg2 (by decide)).trans <|
  (StableHlo.after_of_writes_sub hostOps1 _ hostOps1_writes (by decide)).trans <|
  (W5_of_ne m c main_arg2 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W8_main_arg3 (c : Dev nD) : W8 m c (Proc.devRef .tc main_arg3) = m ((c : Thread nD τ).loc main_arg3) :=
  (StableHlo.after_of_writes_sub hostOps2 _ hostOps2_writes (by decide)).trans <|
  (W7_of_ne m c main_arg3 (by decide)).trans <|
  (StableHlo.after_of_writes_sub hostOps1 _ hostOps1_writes (by decide)).trans <|
  (W5_of_ne m c main_arg3 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W8_main_arg4 (c : Dev nD) : W8 m c (Proc.devRef .tc main_arg4) = m ((c : Thread nD τ).loc main_arg4) :=
  (StableHlo.after_of_writes_sub hostOps2 _ hostOps2_writes (by decide)).trans <|
  (W7_of_ne m c main_arg4 (by decide)).trans <|
  (StableHlo.after_of_writes_sub hostOps1 _ hostOps1_writes (by decide)).trans <|
  (W5_of_ne m c main_arg4 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W8_main_arg5 (c : Dev nD) : W8 m c (Proc.devRef .tc main_arg5) = m ((c : Thread nD τ).loc main_arg5) :=
  (StableHlo.after_of_writes_sub hostOps2 _ hostOps2_writes (by decide)).trans <|
  (W7_of_ne m c main_arg5 (by decide)).trans <|
  (StableHlo.after_of_writes_sub hostOps1 _ hostOps1_writes (by decide)).trans <|
  (W5_of_ne m c main_arg5 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W8_main_arg6 (c : Dev nD) : W8 m c (Proc.devRef .tc main_arg6) = m ((c : Thread nD τ).loc main_arg6) :=
  (StableHlo.after_of_writes_sub hostOps2 _ hostOps2_writes (by decide)).trans <|
  (W7_of_ne m c main_arg6 (by decide)).trans <|
  (StableHlo.after_of_writes_sub hostOps1 _ hostOps1_writes (by decide)).trans <|
  (W5_of_ne m c main_arg6 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W8_main_arg7 (c : Dev nD) : W8 m c (Proc.devRef .tc main_arg7) = m ((c : Thread nD τ).loc main_arg7) :=
  (StableHlo.after_of_writes_sub hostOps2 _ hostOps2_writes (by decide)).trans <|
  (W7_of_ne m c main_arg7 (by decide)).trans <|
  (StableHlo.after_of_writes_sub hostOps1 _ hostOps1_writes (by decide)).trans <|
  (W5_of_ne m c main_arg7 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W8_main_arg8 (c : Dev nD) : W8 m c (Proc.devRef .tc main_arg8) = m ((c : Thread nD τ).loc main_arg8) :=
  (StableHlo.after_of_writes_sub hostOps2 _ hostOps2_writes (by decide)).trans <|
  (W7_of_ne m c main_arg8 (by decide)).trans <|
  (StableHlo.after_of_writes_sub hostOps1 _ hostOps1_writes (by decide)).trans <|
  (W5_of_ne m c main_arg8 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W8_main_arg9 (c : Dev nD) : W8 m c (Proc.devRef .tc main_arg9) = m ((c : Thread nD τ).loc main_arg9) :=
  (StableHlo.after_of_writes_sub hostOps2 _ hostOps2_writes (by decide)).trans <|
  (W7_of_ne m c main_arg9 (by decide)).trans <|
  (StableHlo.after_of_writes_sub hostOps1 _ hostOps1_writes (by decide)).trans <|
  (W5_of_ne m c main_arg9 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W8_main_arg10 (c : Dev nD) : W8 m c (Proc.devRef .tc main_arg10) = m ((c : Thread nD τ).loc main_arg10) :=
  (StableHlo.after_of_writes_sub hostOps2 _ hostOps2_writes (by decide)).trans <|
  (W7_of_ne m c main_arg10 (by decide)).trans <|
  (StableHlo.after_of_writes_sub hostOps1 _ hostOps1_writes (by decide)).trans <|
  (W5_of_ne m c main_arg10 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl

/-- the frame: every argument array ends holding its launch contents, at any F -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_post m ρ fun s h c =>
   ⟨(h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c),
    (h c _ (mem_uc main_arg10 (by decide))).trans (W8_main_arg10 m c)⟩

end Cert.KernelIdeal.Hand

end
-- ==== Proof.LibWrapTake.lean ====
/-
  Two facts about words, for reading an index range out of a printed predicate and into a printed range mask.

  numpy's wrap of a negative index: for a table of N rows an index x with −N ≤ x < N is sent to x + N when x < 0 and left
  alone otherwise, and the result lies in [0, N − 1]. On 32-bit words read as signed integers, for N up to 2³⁰, the sum
  does not wrap around, so the word computed by "select (x < 0) (x + N) x" has that signed value.
  An and-reduction of one-bit words that are all 1, from an initial value 1, is 1 at every result index.
-/
import Idealize.ShloMosaic.Lib.Affine
import Idealize.ShloMosaic.Lib.ValueIdx
import Idealize.ShloMosaic.Lib.ReduceAll
import Idealize.ShloMosaic.Lib.StableHlo.Predicate

namespace Cert.LibWrapTake

open Idealize.ShloMosaic

/-- The wrapped index lies in the table: from −N ≤ x < N (signed), the word "x + N if x < 0, else x" is in [0, N − 1]. -/
theorem wrap_range (N : Nat) (hN : N ≤ 2 ^ 30) (x : BitVec 32) (hlo : -(N : Int) ≤ x.toInt) (hhi : x.toInt < N) :
    0 ≤ (Scalar.select (IntOp.cmpi .slt x 0#32) (IntOp.addi x (BitVec.ofNat 32 N)) x).toInt
    ∧ (Scalar.select (IntOp.cmpi .slt x 0#32) (IntOp.addi x (BitVec.ofNat 32 N)) x).toInt ≤ (N : Int) - 1 := by
  have h0 : (0#32 : BitVec 32).toInt = 0 := by decide
  have hNi : (BitVec.ofNat 32 N).toInt = N := StableHlo.Predicate.toInt_ofNat_small N (by omega)
  have hN' : (N : Int) ≤ 2 ^ 30 := by exact_mod_cast hN
  by_cases hx : x.toInt < 0
  · have hc : IntOp.cmpi .slt x 0#32 = 1#1 := IntOp.cmpi_slt.2 (by rw [h0]; exact hx)
    rw [hc, ValueIdx.select_one]
    show 0 ≤ (x + BitVec.ofNat 32 N).toInt ∧ (x + BitVec.ofNat 32 N).toInt ≤ (N : Int) - 1
    rw [BitVec.toInt_add, hNi, Int.bmod_eq_of_le (by omega) (by omega)]
    omega
  · have hc : IntOp.cmpi .slt x 0#32 = 0#1 :=
      ValueIdx.eq_zero_of_ne_one (fun h => hx (by have := IntOp.cmpi_slt.1 h; rwa [h0] at this))
    rw [hc, ValueIdx.select_zero]
    omega

/-- A left fold by `and` over one-bit words that starts at 1 and meets only 1s ends at 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_one f l _ (IntOp.andi_eq_one.2 ⟨h, hl a List.mem_cons_self⟩) (fun n hn => hl n (List.mem_cons_of_mem _ hn))

/-- An and-reduction of an array of 1s from the initial value 1 is 1 everywhere. -/
theorem reduce_andi_one_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_one x _ _ (hinit _) (fun i _ => hx i)

end Cert.LibWrapTake
-- ==== Proof.KIPre.lean ====
/-
  What the precondition says about the index input, and the row take's in-range mask.

  The precondition's last conjunct is an and-reduction over the [4000000 x 2] index input of "−2000000 ≤ x and x < 2000000"
  (signed compares of 32-bit words): read back, every entry lies in [−2000000, 2000000). The program takes rows of a
  2000000-row table at each column of that input: it adds 2000000 to a negative index (numpy's wrap), gathers, and keeps
  the gathered row where the wrapped index lies in [0, 1999999], a fill constant elsewhere. A wrapped index of an entry
  in [−2000000, 2000000) lies in [0, 1999999], so the mask is 1 everywhere and the select is the gathered array.
-/
import proofs.«406654_j12146167513818_3_alg».proof.Pre_finite_inputs
import proofs.«406654_j12146167513818_3_alg».proof.KernelIdeal
import proofs.«406654_j12146167513818_3_alg».proof.Proof.LibWrapTake
import Idealize.ShloMosaic.Lib.Affine
import Idealize.ShloMosaic.Lib.ValueIdx
import Idealize.ShloMosaic.Lib.ReduceAll
import Idealize.ShloMosaic.Lib.StableHlo.Predicate

noncomputable section

namespace Cert.PreFacts

open Idealize.ShloMosaic

/-- The word of −2000000 and the word of 2000000, read signed. -/
theorem toInt_neg2000000 : (4292967296#32 : BitVec 32).toInt = -2000000 := by decide
theorem toInt_2000000 : (2000000#32 : BitVec 32).toInt = 2000000 := by decide

/-- every entry of the index input lies in [−2000000, 2000000) -/
theorem conn_range {F : FTy → Type} [FloatOps F] [Cert.Pre_finite_inputs.Facts]
    (a0 a1 : FVec F Cert.Pre_finite_inputs.S2000000x3 .f32) (a2 : IVec Cert.Pre_finite_inputs.S4000000x2 32)
    (a3 a4 a5 a6 : FVec F Cert.Pre_finite_inputs.S4000000 .f32) (a7 : FVec F Cert.Pre_finite_inputs.S4000000x3 .f32)
    (a8 : FVec F Cert.Pre_finite_inputs.S2000000x3 .f32) (a9 a10 : FVec F Cert.Pre_finite_inputs.S2000000x1 .f32)
    (h : Cert.Pre_finite_inputs.fn (F := F) a0 a1 a2 a3 a4 a5 a6 a7 a8 a9 a10 = fun _ => 1#1)
    (i : Cert.Pre_finite_inputs.S4000000x2.Idx) :
    -(2000000 : Int) ≤ (a2 i).toInt ∧ (a2 i).toInt < 2000000 := by
  haveI : Subsingleton Cert.Pre_finite_inputs.S_.Idx := ⟨fun a b => funext fun d => d.elim0⟩
  -- the predicate at its one index: a chain of conjunctions, the last one the index input's
  have e := congrFun h ValueIdx.ix0
  dsimp only [Cert.Pre_finite_inputs.fn, Cert.Pre_finite_inputs.fn_part1, Cert.Pre_finite_inputs.fn_part2,
    Cert.Pre_finite_inputs.fn_part3] at e
  have e2 := (IntOp.andi_eq_one.1 e).2
  -- the and-reduction is 1, so its operand is 1 at the entry
  have e3 := Host.reduce_andi_all _ _ _ _ _ e2 i
  obtain ⟨hge, hlt⟩ := IntOp.andi_eq_one.1 e3
  have hge' := IntOp.cmpi_sge.1 hge
  have hlt' := IntOp.cmpi_slt.1 hlt
  constructor
  · rw [← toInt_neg2000000]; exact hge'
  · rw [← toInt_2000000]; exact hlt'

end Cert.PreFacts

namespace Cert.KernelIdeal.Hand

open Cert.KernelIdeal Idealize.ShloMosaic

variable [Facts₀]
open Facts₀

/-- a column of the index input, as the program computes it (slice, then reshape to rank 1) -/
def conCol0 (a2 : IVec S4000000x2 32) : IVec S4000000 32 :=
  shapeCast _ (extractStridedSlice S4000000x1 ![0, 0] a2 slices_S4000000x2_S4000000x1_0_0) shapeCasts_S4000000x1_S4000000
def conCol1 (a2 : IVec S4000000x2 32) : IVec S4000000 32 :=
  shapeCast _ (extractStridedSlice S4000000x1 ![0, 1] a2 slices_S4000000x2_S4000000x1_0_1) shapeCasts_S4000000x1_S4000000

/-- An entry of a column is an entry of the input: the reshape and the slice only re-index. -/
theorem conCol0_range (a2 : IVec S4000000x2 32) (h : ∀ i, -(2000000 : Int) ≤ (a2 i).toInt ∧ (a2 i).toInt < 2000000) (e : S4000000.Idx) :
    -(2000000 : Int) ≤ (conCol0 a2 e).toInt ∧ (conCol0 a2 e).toInt < 2000000 := by
  unfold conCol0 shapeCast extractStridedSlice
  exact h _
theorem conCol1_range (a2 : IVec S4000000x2 32) (h : ∀ i, -(2000000 : Int) ≤ (a2 i).toInt ∧ (a2 i).toInt < 2000000) (e : S4000000.Idx) :
    -(2000000 : Int) ≤ (conCol1 a2 e).toInt ∧ (conCol1 a2 e).toInt < 2000000 := by
  unfold conCol1 shapeCast extractStridedSlice
  exact h _

/-- numpy's wrap of a negative index, as the program computes it (compare with 0, add 2000000, select), made a column -/
def wrapCol (idx : IVec S4000000 32) : IVec S4000000x1 32 :=
  broadcastInDim S4000000x1 ![0] bcast_S4000000_S4000000x1_0
    (select (cmpi .slt idx (broadcastInDim S4000000 ![] bcast_S_S4000000 (constantI S_ 32 0#32)))
      (addi idx (broadcastInDim S4000000 ![] bcast_S_S4000000 (constantI S_ 32 2000000#32))) idx)

/-- The wrap on one word: from −2000000 ≤ x < 2000000 the wrapped word lies in [0, 1999999]. -/
theorem wrap_word_range (x : BitVec 32) (hlo : -(2000000 : Int) ≤ x.toInt) (hhi : x.toInt < 2000000) :
    0 ≤ (Scalar.select (IntOp.cmpi .slt x 0#32) (IntOp.addi x 2000000#32) x).toInt
    ∧ (Scalar.select (IntOp.cmpi .slt x 0#32) (IntOp.addi x 2000000#32) x).toInt ≤ 1999999 := by
  have hw := Cert.LibWrapTake.wrap_range 2000000 (by norm_num) x (by simpa using hlo) (by simpa using hhi)
  refine ⟨hw.1, ?_⟩
  have h2 := hw.2
  simp only [Nat.cast_ofNat] at h2
  omega

/-- Every entry of the wrapped column lies in [0, 1999999]. -/
theorem wrapCol_range (idx : IVec S4000000 32) (h : ∀ e, -(2000000 : Int) ≤ (idx e).toInt ∧ (idx e).toInt < 2000000) (i : S4000000x1.Idx) :
    0 ≤ (wrapCol idx i).toInt ∧ (wrapCol idx i).toInt ≤ 1999999 := by
  unfold wrapCol broadcastInDim select cmpi addi constantI
  exact wrap_word_range _ (h _).1 (h _).2

/-- the row take's in-range mask, as the program computes it: "0 ≤ wrapped index ≤ 1999999", and-reduced along the column, broadcast along the rows -/
def takeMask (idx : IVec S4000000 32) : IVec S4000000x3 1 :=
  broadcastInDim S4000000x3 ![0] bcast_S4000000_S4000000x3_0
    (Host.reduce IntOp.andi
      (andi (cmpi .sge (wrapCol idx) (broadcastInDim S4000000x1 ![] bcast_S_S4000000x1 (constantI S_ 32 0#32)))
            (cmpi .sle (wrapCol idx) (broadcastInDim S4000000x1 ![0, 1] bcast_S1x1_S4000000x1_0_1 (broadcastInDim S1x1 ![1] bcast_S1_S1x1_1 (constantI S1 32 1999999#32)))))
      (constantI S_ 1 1#1) reducesTo_S4000000x1_S4000000_d1 h_S_)

theorem toInt_zero32 : (0#32 : BitVec 32).toInt = 0 := by decide
theorem toInt_1999999 : (1999999#32 : BitVec 32).toInt = 1999999 := by decide

/-- Under the range every wrapped index passes both compares, so the and-reduction of the mask is 1 everywhere. -/
theorem takeMask_one (idx : IVec S4000000 32) (h : ∀ e, -(2000000 : Int) ≤ (idx e).toInt ∧ (idx e).toInt < 2000000) :
    takeMask idx = fun _ => 1#1 := by
  funext j
  unfold takeMask
  unfold broadcastInDim
  refine Cert.LibWrapTake.reduce_andi_one_of_all _ _ _ _ (fun _ => rfl) (fun i => ?_) _
  have hw := wrapCol_range idx h i
  refine IntOp.andi_eq_one.2 ⟨IntOp.cmpi_sge.2 ?_, IntOp.cmpi_sle.2 ?_⟩
  · exact toInt_zero32 ▸ hw.1
  · exact toInt_1999999 ▸ hw.2

/-- under the range the take's select is the gathered array -/
theorem take_select {F : FTy → Type} [FloatOps F] (idx : IVec S4000000 32)
    (h : ∀ e, -(2000000 : Int) ≤ (idx e).toInt ∧ (idx e).toInt < 2000000) (g : FVec F S4000000x3 .f32) :
    select (takeMask idx) g (broadcastInDim S4000000x3 ![] bcast_S_S4000000x3 (constant (F := F) S_ .f32 0x7FC00000#32)) = g := by
  rw [takeMask_one idx h]
  funext j
  exact ValueIdx.select_one _ _

end Cert.KernelIdeal.Hand

end
-- ==== Proof.Spec.lean ====
/-
  The mathematics both programs compute, on the extended reals.

  Per element e (a beam between nodes A and B): with c, s the direction cosines, (a0, a1, a2) and (b0, b1, b2) the two end
  displacements (two translations and a rotation each), L the length and E, A, I the material and section properties, the local
  displacements are u = c·x0 + s·x1, w = −s·x0 + c·x1, θ = −x2 at each end; the local end forces are the analytic product of
  the 6×6 beam stiffness with them (axial stiffness EA/L; bending stiffnesses 12EI/L³, 6EI/L², 4EI/L, 2EI/L); `eA`, `eB` are
  these rotated back to the global frame, one component j at a time, with the operations grouped exactly as the programs group
  them (the literals 1, 2, 4, 6, 12 are kept as the f32 words the programs carry: the same word on both sides is never evaluated).
  Per node component (j, n): the residual (internal force − external force) is masked by 1 − (boundary flag) — the displacement
  flag for the two translations, the rotation flag for the rotation —, scaled by the square of the Jacobi scale, and squared.
-/
import Idealize.ShloMosaic.PureOps.Ideal
import Idealize.ShloMosaic.Lib.ValueIdx

noncomputable section

namespace Cert.Spec

open Idealize.ShloMosaic

/-- The f32 words of 1, 2, 4, 6, 12 read at the ideal instance. -/
abbrev k1 : EReal := Ideal.ofBits .f32 0x3F800000#32
abbrev k2 : EReal := Ideal.ofBits .f32 0x40000000#32
abbrev k4 : EReal := Ideal.ofBits .f32 0x40800000#32
abbrev k6 : EReal := Ideal.ofBits .f32 0x40C00000#32
abbrev k12 : EReal := Ideal.ofBits .f32 0x41400000#32

/-- One element's data. -/
structure EdgeIn where
  c : EReal
  s : EReal
  a0 : EReal
  a1 : EReal
  a2 : EReal
  b0 : EReal
  b1 : EReal
  b2 : EReal
  L : EReal
  E : EReal
  A : EReal
  I : EReal

namespace EdgeIn
variable (x : EdgeIn)
def uA : EReal := x.c * x.a0 + x.s * x.a1
def wA : EReal := (-x.s) * x.a0 + x.c * x.a1
def tA : EReal := -x.a2
def uB : EReal := x.c * x.b0 + x.s * x.b1
def wB : EReal := (-x.s) * x.b0 + x.c * x.b1
def tB : EReal := -x.b2
def eal : EReal := Ideal.div (x.E * x.A) x.L
def eil : EReal := Ideal.div (x.E * x.I) x.L
def eil2 : EReal := Ideal.div (x.E * x.I) (x.L * x.L)
def eil3 : EReal := Ideal.div (x.E * x.I) ((x.L * x.L) * x.L)
def f0 : EReal := (x.eal * k1) * (x.uA - x.uB)
def f1 : EReal := (k12 * x.eil3) * (x.wA - x.wB) + (k6 * x.eil2) * (x.tA + x.tB)
def f2 : EReal := ((k6 * x.eil2) * (x.wA - x.wB) + (k4 * x.eil) * x.tA) + (k2 * x.eil) * x.tB
def f3 : EReal := -x.f0
def f4 : EReal := -x.f1
def f5 : EReal := ((k6 * x.eil2) * (x.wA - x.wB) + (k2 * x.eil) * x.tA) + (k4 * x.eil) * x.tB
end EdgeIn

/-- The global force at end A, component j. -/
def eA (x : EdgeIn) (j : Fin 3) : EReal :=
  match j with
  | ⟨0, _⟩ => x.c * x.f0 - x.s * x.f1
  | ⟨1, _⟩ => x.s * x.f0 + x.c * x.f1
  | ⟨2, _⟩ => -x.f2

/-- The global force at end B, component j. -/
def eB (x : EdgeIn) (j : Fin 3) : EReal :=
  match j with
  | ⟨0, _⟩ => x.c * x.f3 - x.s * x.f4
  | ⟨1, _⟩ => x.s * x.f3 + x.c * x.f4
  | ⟨2, _⟩ => -x.f5

/-- The free-component mask at (j, n): 1 − the displacement flag for j = 0, 1 and 1 − the rotation flag for j = 2;
    `bc 0` is the row of displacement flags, `bc 1` the row of rotation flags. -/
def maskT (bc : Fin 2 → Fin 2000000 → EReal) (j : Fin 3) (n : Fin 2000000) : EReal :=
  match j with
  | ⟨0, _⟩ => k1 - bc 0 n
  | ⟨1, _⟩ => k1 - bc 0 n
  | ⟨2, _⟩ => k1 - bc 1 n

/-- The squared, masked, scaled residual at (j, n). -/
def sqT (Fi Fe J : Fin 3 → Fin 2000000 → EReal) (bc : Fin 2 → Fin 2000000 → EReal) (j : Fin 3) (n : Fin 2000000) : EReal :=
  (((Fi j n - Fe j n) * maskT bc j n) * (J j n * J j n)) * (((Fi j n - Fe j n) * maskT bc j n) * (J j n * J j n))

/-- The loss: the sum of the squared residuals over the count of free components (at least 1). -/
def loss (Fi Fe J : Fin 3 → Fin 2000000 → EReal) (bc : Fin 2 → Fin 2000000 → EReal) : EReal :=
  Ideal.div (∑ n : Fin 2000000, ∑ j : Fin 3, sqT Fi Fe J bc j n) (max (∑ n : Fin 2000000, ∑ j : Fin 3, maskT bc j n) k1)

end Cert.Spec

end
-- ==== Proof.KIEdge.lean ====
/-
  Region 0's two stored blocks at an index: the end-force blocks `edgeA`, `edgeB` of the loaded blocks, read at component j of
  column l, are the analytic end forces `Cert.Spec.eA`, `Cert.Spec.eB` of that column's element data.
-/
import proofs.«406654_j12146167513818_3_alg».proof.Proof.KIDefs
import proofs.«406654_j12146167513818_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe
open Idealize.ShloMosaic.ValueIdx

/-! ## Layout operations of the body, read at an index -/

/-- Row `k` cut out of a 3-row block (after a cast to its own shape), at column `l`: the block at `(k, l)`. -/
theorem row3_apply (x : Vec Ideal S3x80000 .f32) (o : Nat) (hc : S3x80000.ShapeCasts S3x80000) (h : S3x80000.Slices ![o, 0] S1x80000)
    (k : Fin 3) (hk : k.val = o) (l : Fin 80000) :
    extractStridedSlice S1x80000 ![o, 0] (shapeCast S3x80000 x hc) h (ix2 0 l) = x (ix2 k l) :=
  (slice2_axis0_apply o (shapeCast S3x80000 x hc) h 0 l k (hk.trans (Nat.add_zero o).symm)).trans (congrFun (shapeCast_self x hc) _)

/-- The same for a 4-row block. -/
theorem row4_apply (x : Vec Ideal S4x80000 .f32) (o : Nat) (hc : S4x80000.ShapeCasts S4x80000) (h : S4x80000.Slices ![o, 0] S1x80000)
    (k : Fin 4) (hk : k.val = o) (l : Fin 80000) :
    extractStridedSlice S1x80000 ![o, 0] (shapeCast S4x80000 x hc) h (ix2 0 l) = x (ix2 k l) :=
  (slice2_axis0_apply o (shapeCast S4x80000 x hc) h 0 l k (hk.trans (Nat.add_zero o).symm)).trans (congrFun (shapeCast_self x hc) _)

/-- Three rows stacked along axis 0, read at `(k, l)`: row `k` at column `l`. -/
theorem stack3_apply (r0 r1 r2 : FVec Ideal S1x80000 .f32) (h : Shape.Concatenates [S1x80000, S1x80000, S1x80000] S3x80000 0) (l : Fin 80000) :
    concatenate S3x80000 0 [⟨S1x80000, r0⟩, ⟨S1x80000, r1⟩, ⟨S1x80000, r2⟩] h (ix2 0 l) = r0 (ix2 0 l)
    ∧ concatenate S3x80000 0 [⟨S1x80000, r0⟩, ⟨S1x80000, r1⟩, ⟨S1x80000, r2⟩] h (ix2 1 l) = r1 (ix2 0 l)
    ∧ concatenate S3x80000 0 [⟨S1x80000, r0⟩, ⟨S1x80000, r1⟩, ⟨S1x80000, r2⟩] h (ix2 2 l) = r2 (ix2 0 l) := by
  refine ⟨?_, ?_, ?_⟩
  · exact concatenate_apply_piece 0 [⟨S1x80000, r0⟩, ⟨S1x80000, r1⟩, ⟨S1x80000, r2⟩] h (ix2 0 l) 0 (by show 0 < 3; omega) S1x80000 r0 rfl rfl 0 rfl (ix2 0 l)
      (fun b hb => by match b with | ⟨0, _⟩ => exact absurd rfl hb | ⟨1, _⟩ => rfl) rfl
  · exact concatenate_apply_piece 0 [⟨S1x80000, r0⟩, ⟨S1x80000, r1⟩, ⟨S1x80000, r2⟩] h (ix2 1 l) 1 (by show 1 < 3; omega) S1x80000 r1 rfl rfl 1 rfl (ix2 0 l)
      (fun b hb => by match b with | ⟨0, _⟩ => exact absurd rfl hb | ⟨1, _⟩ => rfl) rfl
  · exact concatenate_apply_piece 0 [⟨S1x80000, r0⟩, ⟨S1x80000, r1⟩, ⟨S1x80000, r2⟩] h (ix2 2 l) 2 (by show 2 < 3; omega) S1x80000 r2 rfl rfl 2 rfl (ix2 0 l)
      (fun b hb => by match b with | ⟨0, _⟩ => exact absurd rfl hb | ⟨1, _⟩ => rfl) rfl

/-- A word read at the ideal instance. -/
theorem ofBits_ideal (b : BitVec 32) : Scalar.ofBits (F := Ideal) .f32 b = Ideal.ofBits .f32 b := rfl

/-! ## The body's values at column `l` -/

section Point
variable (x0 x1 x2 : Vec Ideal S3x80000 .f32) (x3 : Vec Ideal S4x80000 .f32) (l : Fin 80000)

/-- The element data of column `l`: direction cosines, the two ends' displacements, length and properties. -/
abbrev edgeAt : Cert.Spec.EdgeIn :=
  ⟨x2 (ix2 0 l), x2 (ix2 2 l), x0 (ix2 0 l), x0 (ix2 1 l), x0 (ix2 2 l), x1 (ix2 0 l), x1 (ix2 1 l), x1 (ix2 2 l),
    x3 (ix2 0 l), x3 (ix2 1 l), x3 (ix2 2 l), x3 (ix2 3 l)⟩

-- the rows cut out of the loaded blocks
theorem pay7_apply : k0_pay7 x2 (ix2 0 l) = x2 (ix2 0 l) := row3_apply x2 0 shapeCasts_S3x80000_S3x80000 slices_S3x80000_o0_0_S1x80000 0 rfl l
theorem pay8_apply : k0_pay8 x2 (ix2 0 l) = x2 (ix2 2 l) := row3_apply x2 2 shapeCasts_S3x80000_S3x80000 slices_S3x80000_o2_0_S1x80000 2 rfl l
theorem pay9_apply : k0_pay9 x0 (ix2 0 l) = x0 (ix2 0 l) := row3_apply x0 0 shapeCasts_S3x80000_S3x80000 slices_S3x80000_o0_0_S1x80000 0 rfl l
theorem pay10_apply : k0_pay10 x0 (ix2 0 l) = x0 (ix2 1 l) := row3_apply x0 1 shapeCasts_S3x80000_S3x80000 slices_S3x80000_o1_0_S1x80000 1 rfl l
theorem pay11_apply : k0_pay11 x1 (ix2 0 l) = x1 (ix2 0 l) := row3_apply x1 0 shapeCasts_S3x80000_S3x80000 slices_S3x80000_o0_0_S1x80000 0 rfl l
theorem pay12_apply : k0_pay12 x1 (ix2 0 l) = x1 (ix2 1 l) := row3_apply x1 1 shapeCasts_S3x80000_S3x80000 slices_S3x80000_o1_0_S1x80000 1 rfl l
theorem pay19_apply : k0_pay19 x3 (ix2 0 l) = x3 (ix2 0 l) := row4_apply x3 0 shapeCasts_S4x80000_S4x80000 slices_S4x80000_o0_0_S1x80000 0 rfl l
theorem pay20_apply : k0_pay20 x3 (ix2 0 l) = x3 (ix2 1 l) := row4_apply x3 1 shapeCasts_S4x80000_S4x80000 slices_S4x80000_o1_0_S1x80000 1 rfl l

-- the local displacements
theorem pay13_apply : k0_pay13 x0 x2 (ix2 0 l) = (edgeAt x0 x1 x2 x3 l).uA := by
  show k0_pay7 x2 (ix2 0 l) * k0_pay9 x0 (ix2 0 l) + k0_pay8 x2 (ix2 0 l) * k0_pay10 x0 (ix2 0 l) = _
  rw [pay7_apply, pay8_apply, pay9_apply, pay10_apply]; rfl
theorem pay14_apply : k0_pay14 x0 x2 (ix2 0 l) = (edgeAt x0 x1 x2 x3 l).wA := by
  show (Ideal.ofBits .f32 0x00000000#32 - k0_pay8 x2 (ix2 0 l)) * k0_pay9 x0 (ix2 0 l) + k0_pay7 x2 (ix2 0 l) * k0_pay10 x0 (ix2 0 l) = _
  rw [Ideal.ofBits_zero_f32, zero_sub, pay7_apply, pay8_apply, pay9_apply, pay10_apply]; rfl
theorem pay15_apply : k0_pay15 x0 (ix2 0 l) = (edgeAt x0 x1 x2 x3 l).tA := by
  show Ideal.ofBits .f32 0x00000000#32 - extractStridedSlice S1x80000 ![2, 0] (shapeCast S3x80000 x0 _) _ (ix2 0 l) = _
  rw [Ideal.ofBits_zero_f32, zero_sub, row3_apply x0 2 _ _ 2 rfl l]; rfl
theorem pay16_apply : k0_pay16 x1 x2 (ix2 0 l) = (edgeAt x0 x1 x2 x3 l).uB := by
  show k0_pay7 x2 (ix2 0 l) * k0_pay11 x1 (ix2 0 l) + k0_pay8 x2 (ix2 0 l) * k0_pay12 x1 (ix2 0 l) = _
  rw [pay7_apply, pay8_apply, pay11_apply, pay12_apply]; rfl
theorem pay17_apply : k0_pay17 x1 x2 (ix2 0 l) = (edgeAt x0 x1 x2 x3 l).wB := by
  show (Ideal.ofBits .f32 0x00000000#32 - k0_pay8 x2 (ix2 0 l)) * k0_pay11 x1 (ix2 0 l) + k0_pay7 x2 (ix2 0 l) * k0_pay12 x1 (ix2 0 l) = _
  rw [Ideal.ofBits_zero_f32, zero_sub, pay7_apply, pay8_apply, pay11_apply, pay12_apply]; rfl
theorem pay18_apply : k0_pay18 x1 (ix2 0 l) = (edgeAt x0 x1 x2 x3 l).tB := by
  show Ideal.ofBits .f32 0x00000000#32 - extractStridedSlice S1x80000 ![2, 0] (shapeCast S3x80000 x1 _) _ (ix2 0 l) = _
  rw [Ideal.ofBits_zero_f32, zero_sub, row3_apply x1 2 _ _ 2 rfl l]; rfl

-- the stiffness coefficients
theorem pay21_apply : k0_pay21 x3 (ix2 0 l) = x3 (ix2 1 l) * x3 (ix2 3 l) := by
  show k0_pay20 x3 (ix2 0 l) * extractStridedSlice S1x80000 ![3, 0] (shapeCast S4x80000 x3 _) _ (ix2 0 l) = _
  rw [pay20_apply, row4_apply x3 3 _ _ 3 rfl l]
theorem pay22_apply : k0_pay22 x3 (ix2 0 l) = (edgeAt x0 x1 x2 x3 l).eal := by
  show Ideal.div (k0_pay20 x3 (ix2 0 l) * extractStridedSlice S1x80000 ![2, 0] (shapeCast S4x80000 x3 _) _ (ix2 0 l)) (k0_pay19 x3 (ix2 0 l)) = _
  rw [pay20_apply, pay19_apply, row4_apply x3 2 _ _ 2 rfl l]; rfl
theorem pay23_apply : k0_pay23 x3 (ix2 0 l) = (edgeAt x0 x1 x2 x3 l).eil := by
  show Ideal.div (k0_pay21 x3 (ix2 0 l)) (k0_pay19 x3 (ix2 0 l)) = _
  rw [pay21_apply, pay19_apply]; rfl
theorem pay24_apply : k0_pay24 x3 (ix2 0 l) = (edgeAt x0 x1 x2 x3 l).eil2 := by
  show Ideal.div (k0_pay21 x3 (ix2 0 l)) (k0_pay19 x3 (ix2 0 l) * k0_pay19 x3 (ix2 0 l)) = _
  rw [pay21_apply, pay19_apply]; rfl
theorem pay25_apply : k0_pay25 x3 (ix2 0 l) = x3 (ix2 0 l) * x3 (ix2 0 l) := by
  show k0_pay19 x3 (ix2 0 l) * k0_pay19 x3 (ix2 0 l) = _
  rw [pay19_apply]

end Point

/-! ## The end forces -/

section Forces
variable (v8 v9 v18 v23 v25 v28 v33 v35 v36 v41 v42 v43 v45 v46 v73 v75 v77 v89 v92 v95 : FVec Ideal S1x80000 .f32) (i : S1x80000.Idx)

-- the local end forces as functions of the rows, entry by entry
theorem pay26_apply : k0_pay26 v18 v28 v42 i = (v42 i * Cert.Spec.k1) * (v18 i - v28 i) := rfl
theorem pay27_apply : k0_pay27 v23 v25 v33 v35 v36 v41 v45 v46 i
    = (Cert.Spec.k12 * Ideal.div (v41 i) (v46 i * v36 i)) * (v23 i - v33 i) + (Cert.Spec.k6 * v45 i) * (v25 i + v35 i) := rfl
theorem pay28_apply : k0_pay28 v23 v25 v33 v35 v43 v45 i
    = ((Cert.Spec.k6 * v45 i) * (v23 i - v33 i) + (Cert.Spec.k4 * v43 i) * v25 i) + (Cert.Spec.k2 * v43 i) * v35 i := rfl
theorem pay29_apply : k0_pay29 v18 v28 v42 i = -(k0_pay26 v18 v28 v42 i) := by
  show Ideal.ofBits .f32 0x00000000#32 - k0_pay26 v18 v28 v42 i = _
  rw [Ideal.ofBits_zero_f32, zero_sub]
theorem pay30_apply : k0_pay30 v23 v25 v33 v35 v36 v41 v45 v46 i = -(k0_pay27 v23 v25 v33 v35 v36 v41 v45 v46 i) := by
  show Ideal.ofBits .f32 0x00000000#32 - k0_pay27 v23 v25 v33 v35 v36 v41 v45 v46 i = _
  rw [Ideal.ofBits_zero_f32, zero_sub]
theorem pay31_apply : k0_pay31 v23 v25 v33 v35 v43 v45 i
    = ((Cert.Spec.k6 * v45 i) * (v23 i - v33 i) + (Cert.Spec.k2 * v43 i) * v25 i) + (Cert.Spec.k4 * v43 i) * v35 i := rfl
theorem pay32_apply : k0_pay32 v8 v9 v18 v23 v25 v28 v33 v35 v36 v41 v42 v45 v46 i
    = v8 i * k0_pay26 v18 v28 v42 i - v9 i * k0_pay27 v23 v25 v33 v35 v36 v41 v45 v46 i := rfl
theorem pay33_apply : k0_pay33 v8 v9 v18 v23 v25 v28 v33 v35 v36 v41 v42 v45 v46 i
    = v9 i * k0_pay26 v18 v28 v42 i + v8 i * k0_pay27 v23 v25 v33 v35 v36 v41 v45 v46 i := rfl

/-- The first stored block, row by row: the two rotated components, and the negated moment. -/
theorem pay1_apply (l : Fin 80000) :
    k0_pay1 v73 v92 v95 (ix2 0 l) = v92 (ix2 0 l) ∧ k0_pay1 v73 v92 v95 (ix2 1 l) = v95 (ix2 0 l)
    ∧ k0_pay1 v73 v92 v95 (ix2 2 l) = -(v73 (ix2 0 l)) := by
  obtain ⟨h0, h1, h2⟩ := stack3_apply v92 v95 (subf (broadcast S1x80000 (Scalar.ofBits .f32 0x00000000#32)) v73)
    concatenates_S1x80000_S1x80000_S1x80000_S3x80000_d0 l
  refine ⟨h0, h1, h2.trans ?_⟩
  show Ideal.ofBits .f32 0x00000000#32 - v73 (ix2 0 l) = _
  rw [Ideal.ofBits_zero_f32, zero_sub]

/-- The second stored block, row by row. -/
theorem pay2_apply (l : Fin 80000) :
    k0_pay2 v8 v9 v75 v77 v89 (ix2 0 l) = v8 (ix2 0 l) * v75 (ix2 0 l) - v9 (ix2 0 l) * v77 (ix2 0 l)
    ∧ k0_pay2 v8 v9 v75 v77 v89 (ix2 1 l) = v9 (ix2 0 l) * v75 (ix2 0 l) + v8 (ix2 0 l) * v77 (ix2 0 l)
    ∧ k0_pay2 v8 v9 v75 v77 v89 (ix2 2 l) = -(v89 (ix2 0 l)) := by
  obtain ⟨h0, h1, h2⟩ := stack3_apply (subf (mulf v8 v75) (mulf v9 v77)) (addf (mulf v9 v75) (mulf v8 v77))
    (subf (broadcast S1x80000 (Scalar.ofBits .f32 0x00000000#32)) v89) concatenates_S1x80000_S1x80000_S1x80000_S3x80000_d0 l
  refine ⟨h0, h1, h2.trans ?_⟩
  show Ideal.ofBits .f32 0x00000000#32 - v89 (ix2 0 l) = _
  rw [Ideal.ofBits_zero_f32, zero_sub]

end Forces

section PointForces
variable (x0 x1 x2 : Vec Ideal S3x80000 .f32) (x3 : Vec Ideal S4x80000 .f32) (l : Fin 80000)

theorem f0_apply : k0_pay26 (k0_pay13 x0 x2) (k0_pay16 x1 x2) (k0_pay22 x3) (ix2 0 l) = (edgeAt x0 x1 x2 x3 l).f0 := by
  rw [pay26_apply, pay13_apply x0 x1 x2 x3 l, pay16_apply x0 x1 x2 x3 l, pay22_apply x0 x1 x2 x3 l]; rfl
theorem f1_apply : k0_pay27 (k0_pay14 x0 x2) (k0_pay15 x0) (k0_pay17 x1 x2) (k0_pay18 x1) (k0_pay19 x3) (k0_pay21 x3) (k0_pay24 x3) (k0_pay25 x3) (ix2 0 l)
    = (edgeAt x0 x1 x2 x3 l).f1 := by
  rw [pay27_apply, pay14_apply x0 x1 x2 x3 l, pay15_apply x0 x1 x2 x3 l, pay17_apply x0 x1 x2 x3 l, pay18_apply x0 x1 x2 x3 l,
    pay19_apply, pay21_apply, pay24_apply x0 x1 x2 x3 l, pay25_apply]; rfl
theorem f2_apply : k0_pay28 (k0_pay14 x0 x2) (k0_pay15 x0) (k0_pay17 x1 x2) (k0_pay18 x1) (k0_pay23 x3) (k0_pay24 x3) (ix2 0 l)
    = (edgeAt x0 x1 x2 x3 l).f2 := by
  rw [pay28_apply, pay14_apply x0 x1 x2 x3 l, pay15_apply x0 x1 x2 x3 l, pay17_apply x0 x1 x2 x3 l, pay18_apply x0 x1 x2 x3 l,
    pay23_apply x0 x1 x2 x3 l, pay24_apply x0 x1 x2 x3 l]; rfl
theorem f3_apply : k0_pay29 (k0_pay13 x0 x2) (k0_pay16 x1 x2) (k0_pay22 x3) (ix2 0 l) = (edgeAt x0 x1 x2 x3 l).f3 := by
  rw [pay29_apply, f0_apply]; rfl
theorem f4_apply : k0_pay30 (k0_pay14 x0 x2) (k0_pay15 x0) (k0_pay17 x1 x2) (k0_pay18 x1) (k0_pay19 x3) (k0_pay21 x3) (k0_pay24 x3) (k0_pay25 x3) (ix2 0 l)
    = (edgeAt x0 x1 x2 x3 l).f4 := by
  rw [pay30_apply, f1_apply]; rfl
theorem f5_apply : k0_pay31 (k0_pay14 x0 x2) (k0_pay15 x0) (k0_pay17 x1 x2) (k0_pay18 x1) (k0_pay23 x3) (k0_pay24 x3) (ix2 0 l)
    = (edgeAt x0 x1 x2 x3 l).f5 := by
  rw [pay31_apply, pay14_apply x0 x1 x2 x3 l, pay15_apply x0 x1 x2 x3 l, pay17_apply x0 x1 x2 x3 l, pay18_apply x0 x1 x2 x3 l,
    pay23_apply x0 x1 x2 x3 l, pay24_apply x0 x1 x2 x3 l]; rfl

end PointForces

/-- The force block at end A, at component `j` of column `l`: the analytic end force of the column's element data. -/
theorem edgeA_apply (x0 x1 x2 : Vec Ideal S3x80000 .f32) (x3 : Vec Ideal S4x80000 .f32) (j : Fin 3) (l : Fin 80000) :
    edgeA x0 x1 x2 x3 (ix2 j l) = Cert.Spec.eA ⟨x2 (ix2 0 l), x2 (ix2 2 l), x0 (ix2 0 l), x0 (ix2 1 l), x0 (ix2 2 l),
      x1 (ix2 0 l), x1 (ix2 1 l), x1 (ix2 2 l), x3 (ix2 0 l), x3 (ix2 1 l), x3 (ix2 2 l), x3 (ix2 3 l)⟩ j := by
  unfold edgeA
  match j with
  | ⟨0, _⟩ =>
    refine (pay1_apply _ _ _ l).1.trans ?_
    rw [pay32_apply, pay7_apply, pay8_apply, f0_apply x0 x1 x2 x3 l, f1_apply x0 x1 x2 x3 l]; rfl
  | ⟨1, _⟩ =>
    refine (pay1_apply _ _ _ l).2.1.trans ?_
    rw [pay33_apply, pay7_apply, pay8_apply, f0_apply x0 x1 x2 x3 l, f1_apply x0 x1 x2 x3 l]; rfl
  | ⟨2, _⟩ =>
    refine (pay1_apply _ _ _ l).2.2.trans ?_
    rw [f2_apply x0 x1 x2 x3 l]; rfl

/-- The force block at end B, at component `j` of column `l`. -/
theorem edgeB_apply (x0 x1 x2 : Vec Ideal S3x80000 .f32) (x3 : Vec Ideal S4x80000 .f32) (j : Fin 3) (l : Fin 80000) :
    edgeB x0 x1 x2 x3 (ix2 j l) = Cert.Spec.eB ⟨x2 (ix2 0 l), x2 (ix2 2 l), x0 (ix2 0 l), x0 (ix2 1 l), x0 (ix2 2 l),
      x1 (ix2 0 l), x1 (ix2 1 l), x1 (ix2 2 l), x3 (ix2 0 l), x3 (ix2 1 l), x3 (ix2 2 l), x3 (ix2 3 l)⟩ j := by
  unfold edgeB
  match j with
  | ⟨0, _⟩ =>
    refine (pay2_apply _ _ _ _ _ l).1.trans ?_
    rw [pay7_apply, pay8_apply, f3_apply x0 x1 x2 x3 l, f4_apply x0 x1 x2 x3 l]; rfl
  | ⟨1, _⟩ =>
    refine (pay2_apply _ _ _ _ _ l).2.1.trans ?_
    rw [pay7_apply, pay8_apply, f3_apply x0 x1 x2 x3 l, f4_apply x0 x1 x2 x3 l]; rfl
  | ⟨2, _⟩ =>
    refine (pay2_apply _ _ _ _ _ l).2.2.trans ?_
    rw [f5_apply x0 x1 x2 x3 l]; rfl

end Cert.KernelIdeal.Hand

end
-- ==== Proof.KIVal0.lean ====
/-
  Region 0's two output arrays, entry by entry, at the ideal instance.

  Region 0 runs over fifty grid points; at point t every window's block is columns 80000·t … 80000·t + 79999 (all rows) of
  its array, so entry (r, l) of a block is entry (r, 80000·t + l) of the array. The body's two stored blocks are, entry by
  entry, the end forces of the element whose data stand in that column of the four loaded blocks; hence what point t writes
  back is block t of the array whose entry (j, e) is component j of element e's end force, computed from column e of the
  arrays the region finds. The fifty blocks tile the columns (column r lies in block r / 80000) and every point writes back,
  so after the region each output array is that array.
-/
import proofs.«406654_j12146167513818_3_alg».proof.Proof.KIDefs
import proofs.«406654_j12146167513818_3_alg».proof.Proof.Spec
import proofs.«406654_j12146167513818_3_alg».proof.Proof.KIEdge
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

variable (V : (c : Dev nD) → (b : Ref sig .tc) → Buf (Elt Ideal) ((c : Thread nD τ).loc b))

/-- element e's data, read off the region-entry arrays -/
def edgeK (c : Dev nD) (e : Fin 4000000) : Cert.Spec.EdgeIn where
  c  := (V c main_v9 : S3x4000000.Idx → EReal) (ix2 0 e)
  s  := (V c main_v9 : S3x4000000.Idx → EReal) (ix2 2 e)
  a0 := (V c main_v7 : S3x4000000.Idx → EReal) (ix2 0 e)
  a1 := (V c main_v7 : S3x4000000.Idx → EReal) (ix2 1 e)
  a2 := (V c main_v7 : S3x4000000.Idx → EReal) (ix2 2 e)
  b0 := (V c main_v8 : S3x4000000.Idx → EReal) (ix2 0 e)
  b1 := (V c main_v8 : S3x4000000.Idx → EReal) (ix2 1 e)
  b2 := (V c main_v8 : S3x4000000.Idx → EReal) (ix2 2 e)
  L  := (V c main_v14 : S4x4000000.Idx → EReal) (ix2 0 e)
  E  := (V c main_v14 : S4x4000000.Idx → EReal) (ix2 1 e)
  A  := (V c main_v14 : S4x4000000.Idx → EReal) (ix2 2 e)
  I  := (V c main_v14 : S4x4000000.Idx → EReal) (ix2 3 e)

/-! ## Where a block sits in its array -/

/-- Every window of region 0 moves along the columns only: at point `t` its block index is `(0, t)`. -/
theorem idx0 : ∀ t : Fin cfg0.N,
    (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 2) = 0 ∧ win0_5.index t (1 : Fin 2) = t.val) :=
  (by decide +kernel : ∀ t : Fin grid0.N, _)

/-- Window 0's block at point `t`, read at `(r, l)`, is the end-A displacement array at `(r, 80000 t + l)`. -/
theorem iblk0_0_apply (c : Dev nD) (t : Fin cfg0.N) (r : Fin 3) (l : Fin 80000) (e : Fin 4000000)
    (he : e.val = 80000 * t.val + l.val) :
    (iblk0 V c 0 t : Vec Ideal S3x80000 .f32) (ix2 r l) = (V c main_v7 : S3x4000000.Idx → EReal) (ix2 r e) := by
  obtain ⟨⟨h0, h1⟩, -⟩ := idx0 t
  unfold iblk0
  rw [View.read_apply]
  show V c main_v7 _ = V c main_v7 _
  congr 1
  funext a
  apply Fin.ext
  match a with
  | ⟨0, _⟩ => show win0_0.index t 0 * 3 + 1 * r.val = r.val; rw [h0]; omega
  | ⟨1, _⟩ => show win0_0.index t 1 * 80000 + 1 * l.val = e.val; rw [h1, he]; omega

/-- Window 1's block at point `t`, read at `(r, l)`, is the end-B displacement array at `(r, 80000 t + l)`. -/
theorem iblk0_1_apply (c : Dev nD) (t : Fin cfg0.N) (r : Fin 3) (l : Fin 80000) (e : Fin 4000000)
    (he : e.val = 80000 * t.val + l.val) :
    (iblk0 V c 1 t : Vec Ideal S3x80000 .f32) (ix2 r l) = (V c main_v8 : S3x4000000.Idx → EReal) (ix2 r e) := by
  obtain ⟨-, ⟨h0, h1⟩, -⟩ := idx0 t
  unfold iblk0
  rw [View.read_apply]
  show V c main_v8 _ = V c main_v8 _
  congr 1
  funext a
  apply Fin.ext
  match a with
  | ⟨0, _⟩ => show win0_1.index t 0 * 3 + 1 * r.val = r.val; rw [h0]; omega
  | ⟨1, _⟩ => show win0_1.index t 1 * 80000 + 1 * l.val = e.val; rw [h1, he]; omega

/-- Window 2's block at point `t`, read at `(r, l)`, is the direction-cosine array at `(r, 80000 t + l)`. -/
theorem iblk0_2_apply (c : Dev nD) (t : Fin cfg0.N) (r : Fin 3) (l : Fin 80000) (e : Fin 4000000)
    (he : e.val = 80000 * t.val + l.val) :
    (iblk0 V c 2 t : Vec Ideal S3x80000 .f32) (ix2 r l) = (V c main_v9 : S3x4000000.Idx → EReal) (ix2 r e) := by
  obtain ⟨-, -, ⟨h0, h1⟩, -⟩ := idx0 t
  unfold iblk0
  rw [View.read_apply]
  show V c main_v9 _ = V c main_v9 _
  congr 1
  funext a
  apply Fin.ext
  match a with
  | ⟨0, _⟩ => show win0_2.index t 0 * 3 + 1 * r.val = r.val; rw [h0]; omega
  | ⟨1, _⟩ => show win0_2.index t 1 * 80000 + 1 * l.val = e.val; rw [h1, he]; omega

/-- Window 3's block at point `t`, read at `(r, l)`, is the packed-property array at `(r, 80000 t + l)`. -/
theorem iblk0_3_apply (c : Dev nD) (t : Fin cfg0.N) (r : Fin 4) (l : Fin 80000) (e : Fin 4000000)
    (he : e.val = 80000 * t.val + l.val) :
    (iblk0 V c 3 t : Vec Ideal S4x80000 .f32) (ix2 r l) = (V c main_v14 : S4x4000000.Idx → EReal) (ix2 r e) := by
  obtain ⟨-, -, -, ⟨h0, h1⟩, -⟩ := idx0 t
  unfold iblk0
  rw [View.read_apply]
  show V c main_v14 _ = V c main_v14 _
  congr 1
  funext a
  apply Fin.ext
  match a with
  | ⟨0, _⟩ => show win0_3.index t 0 * 4 + 1 * r.val = r.val; rw [h0]; omega
  | ⟨1, _⟩ => show win0_3.index t 1 * 80000 + 1 * l.val = e.val; rw [h1, he]; omega

/-! ## What point `t` computes, entry by entry -/

/-- The data the body sees in column `l` of point `t`'s blocks is element `80000 t + l`'s. -/
theorem edgeIn0_at (c : Dev nD) (t : Fin cfg0.N) (l : Fin 80000) (e : Fin 4000000) (he : e.val = 80000 * t.val + l.val) :
    (⟨(iblk0 V c 2 t : Vec Ideal S3x80000 .f32) (ix2 0 l), (iblk0 V c 2 t : Vec Ideal S3x80000 .f32) (ix2 2 l),
      (iblk0 V c 0 t : Vec Ideal S3x80000 .f32) (ix2 0 l), (iblk0 V c 0 t : Vec Ideal S3x80000 .f32) (ix2 1 l),
      (iblk0 V c 0 t : Vec Ideal S3x80000 .f32) (ix2 2 l),
      (iblk0 V c 1 t : Vec Ideal S3x80000 .f32) (ix2 0 l), (iblk0 V c 1 t : Vec Ideal S3x80000 .f32) (ix2 1 l),
      (iblk0 V c 1 t : Vec Ideal S3x80000 .f32) (ix2 2 l),
      (iblk0 V c 3 t : Vec Ideal S4x80000 .f32) (ix2 0 l), (iblk0 V c 3 t : Vec Ideal S4x80000 .f32) (ix2 1 l),
      (iblk0 V c 3 t : Vec Ideal S4x80000 .f32) (ix2 2 l), (iblk0 V c 3 t : Vec Ideal S4x80000 .f32) (ix2 3 l)⟩ : Cert.Spec.EdgeIn)
      = edgeK V c e := by
  rw [iblk0_2_apply V c t 0 l e he, iblk0_2_apply V c t 2 l e he,
    iblk0_0_apply V c t 0 l e he, iblk0_0_apply V c t 1 l e he, iblk0_0_apply V c t 2 l e he,
    iblk0_1_apply V c t 0 l e he, iblk0_1_apply V c t 1 l e he, iblk0_1_apply V c t 2 l e he,
    iblk0_3_apply V c t 0 l e he, iblk0_3_apply V c t 1 l e he, iblk0_3_apply V c t 2 l e he, iblk0_3_apply V c t 3 l e he]
  rfl

/-- The end-A force block of point `t` at `(j, l)` is component `j` of element `80000 t + l`'s end-A force. -/
theorem out0_A_at (c : Dev nD) (t : Fin cfg0.N) (j : Fin 3) (l : Fin 80000) (e : Fin 4000000) (he : e.val = 80000 * t.val + l.val) :
    edgeA (iblk0 V c 0 t) (iblk0 V c 1 t) (iblk0 V c 2 t) (iblk0 V c 3 t) (ix2 j l) = Cert.Spec.eA (edgeK V c e) j :=
  (edgeA_apply (iblk0 V c 0 t) (iblk0 V c 1 t) (iblk0 V c 2 t) (iblk0 V c 3 t) j l).trans
    (congrArg (fun x => Cert.Spec.eA x j) (edgeIn0_at V c t l e he))

/-- The end-B force block of point `t` at `(j, l)` is component `j` of element `80000 t + l`'s end-B force. -/
theorem out0_B_at (c : Dev nD) (t : Fin cfg0.N) (j : Fin 3) (l : Fin 80000) (e : Fin 4000000) (he : e.val = 80000 * t.val + l.val) :
    edgeB (iblk0 V c 0 t) (iblk0 V c 1 t) (iblk0 V c 2 t) (iblk0 V c 3 t) (ix2 j l) = Cert.Spec.eB (edgeK V c e) j :=
  (edgeB_apply (iblk0 V c 0 t) (iblk0 V c 1 t) (iblk0 V c 2 t) (iblk0 V c 3 t) j l).trans
    (congrArg (fun x => Cert.Spec.eB x j) (edgeIn0_at V c t l e he))

/-! ## From the blocks to the arrays -/

/-- A grid point of region 0 is below 50. -/
theorem t0_lt (t : Fin cfg0.N) : t.val < 50 := lt_of_lt_of_eq t.isLt N_0

/-- The end-A force array: at `(j, e)` component `j` of element `e`'s end-A force. -/
def G0_A (c : Dev nD) : S3x4000000.Idx → EReal :=
  fun i => Cert.Spec.eA (edgeK V c ⟨(i 1).val, idx2_lt1 i⟩) ⟨(i 0).val, idx2_lt0 i⟩

/-- The end-B force array: at `(j, e)` component `j` of element `e`'s end-B force. -/
def G0_B (c : Dev nD) : S3x4000000.Idx → EReal :=
  fun i => Cert.Spec.eB (edgeK V c ⟨(i 1).val, idx2_lt1 i⟩) ⟨(i 0).val, idx2_lt0 i⟩

/-- What point `t` writes back to the end-A array is block `t` of `G0_A`: a block's column `l` is the array's column
    `80000 t + l`. -/
theorem flushed0_A_eq (c : Dev nD) (t : Fin cfg0.N) :
    (dat0 (F := Ideal) V c).flushed 4 t = ((cfg0.win 4).blk t).view.read (Elt Ideal) (G0_A V c) := by
  obtain ⟨-, -, -, -, ⟨h0, h1⟩, -⟩ := idx0 t
  have ht := t0_lt t
  show (cfg0.win 4).cut (grid0.coords t) ((dat0 V c).after 4 t) = _
  rw [after0_4]
  funext y
  rw [View.read_apply]
  have y0 : (y 0).val < 3 := (y 0).isLt
  have y1 : (y 1).val < 80000 := (y 1).isLt
  have hy : (cfg0.win 4).xinj (grid0.coords t) y = ix2 (⟨(y 0).val, y0⟩ : Fin 3) (⟨(y 1).val, y1⟩ : Fin 80000) := by
    funext a; match a with | ⟨0, _⟩ => rfl | ⟨1, _⟩ => rfl
  refine (congrArg (edgeA (iblk0 V c 0 t) (iblk0 V c 1 t) (iblk0 V c 2 t) (iblk0 V c 3 t)) hy).trans ?_
  refine (out0_A_at V c t ⟨(y 0).val, y0⟩ ⟨(y 1).val, y1⟩ ⟨80000 * t.val + (y 1).val, by omega⟩ rfl).trans ?_
  show _ = G0_A V c (((cfg0.win 4).blk t).view.emb y)
  unfold G0_A
  congr 1
  · congr 1; apply Fin.ext
    show 80000 * t.val + (y 1).val = win0_4.index t 1 * 80000 + 1 * (y 1).val
    rw [h1]; omega
  · apply Fin.ext
    show (y 0).val = win0_4.index t 0 * 3 + 1 * (y 0).val
    rw [h0]; omega

/-- What point `t` writes back to the end-B array is block `t` of `G0_B`. -/
theorem flushed0_B_eq (c : Dev nD) (t : Fin cfg0.N) :
    (dat0 (F := Ideal) V c).flushed 5 t = ((cfg0.win 5).blk t).view.read (Elt Ideal) (G0_B V c) := by
  obtain ⟨-, -, -, -, -, ⟨h0, h1⟩⟩ := idx0 t
  have ht := t0_lt t
  show (cfg0.win 5).cut (grid0.coords t) ((dat0 V c).after 5 t) = _
  rw [after0_5]
  funext y
  rw [View.read_apply]
  have y0 : (y 0).val < 3 := (y 0).isLt
  have y1 : (y 1).val < 80000 := (y 1).isLt
  have hy : (cfg0.win 5).xinj (grid0.coords t) y = ix2 (⟨(y 0).val, y0⟩ : Fin 3) (⟨(y 1).val, y1⟩ : Fin 80000) := by
    funext a; match a with | ⟨0, _⟩ => rfl | ⟨1, _⟩ => rfl
  refine (congrArg (edgeB (iblk0 V c 0 t) (iblk0 V c 1 t) (iblk0 V c 2 t) (iblk0 V c 3 t)) hy).trans ?_
  refine (out0_B_at V c t ⟨(y 0).val, y0⟩ ⟨(y 1).val, y1⟩ ⟨80000 * t.val + (y 1).val, by omega⟩ rfl).trans ?_
  show _ = G0_B V c (((cfg0.win 5).blk t).view.emb y)
  unfold G0_B
  congr 1
  · congr 1; apply Fin.ext
    show 80000 * t.val + (y 1).val = win0_5.index t 1 * 80000 + 1 * (y 1).val
    rw [h1]; omega
  · apply Fin.ext
    show (y 0).val = win0_5.index t 0 * 3 + 1 * (y 0).val
    rw [h0]; omega

/-- An index of the end-A array is in point `t`'s block iff each coordinate is in the block's range on its axis. -/
theorem mem_blk0_A (t : Fin cfg0.N) (i : S3x4000000.Idx) :
    i ∈ ((cfg0.win 4).blk t).view.set ↔ ∀ a : Fin 2, win0_4.index t a * S3x80000.size a ≤ (i a).val
      ∧ (i a).val < win0_4.index t a * S3x80000.size a + S3x80000.size a := by
  show i ∈ ((View.whole main_v15_0).slice (win0_4.rect t)).set ↔ _
  rw [View.set_slice_whole, Rect.mem_set_unit]
  exact Iff.rfl

/-- The same for the end-B array. -/
theorem mem_blk0_B (t : Fin cfg0.N) (i : S3x4000000.Idx) :
    i ∈ ((cfg0.win 5).blk t).view.set ↔ ∀ a : Fin 2, win0_5.index t a * S3x80000.size a ≤ (i a).val
      ∧ (i a).val < win0_5.index t a * S3x80000.size a + S3x80000.size a := by
  show i ∈ ((View.whole main_v15_1).slice (win0_5.rect t)).set ↔ _
  rw [View.set_slice_whole, Rect.mem_set_unit]
  exact Iff.rfl

/-- The fifty blocks cover the end-A array: column `r` lies in block `r / 80000`, and every point writes back. -/
theorem cover0_A (i : S3x4000000.Idx) : ∃ t : Fin cfg0.N, (cfg0.win 4).flush t = true ∧ i ∈ ((cfg0.win 4).blk t).view.set := by
  have hi0 : (i 0).val < 3 := (i 0).isLt
  have hi1 : (i 1).val < 4000000 := (i 1).isLt
  have ht : (i 1).val / 80000 < cfg0.N := by rw [show cfg0.N = 50 from N_0]; omega
  obtain ⟨-, -, -, -, ⟨h0, h1⟩, -⟩ := idx0 ⟨(i 1).val / 80000, ht⟩
  refine ⟨⟨(i 1).val / 80000, ht⟩, flush0_4 _, (mem_blk0_A _ i).mpr fun a => ?_⟩
  match a with
  | ⟨0, _⟩ =>
    show win0_4.index ⟨(i 1).val / 80000, ht⟩ 0 * 3 ≤ (i 0).val ∧ (i 0).val < win0_4.index ⟨(i 1).val / 80000, ht⟩ 0 * 3 + 3
    rw [h0]; omega
  | ⟨1, _⟩ =>
    show win0_4.index ⟨(i 1).val / 80000, ht⟩ 1 * 80000 ≤ (i 1).val ∧ (i 1).val < win0_4.index ⟨(i 1).val / 80000, ht⟩ 1 * 80000 + 80000
    rw [h1]; show (i 1).val / 80000 * 80000 ≤ (i 1).val ∧ (i 1).val < (i 1).val / 80000 * 80000 + 80000; omega

/-- The fifty blocks cover the end-B array. -/
theorem cover0_B (i : S3x4000000.Idx) : ∃ t : Fin cfg0.N, (cfg0.win 5).flush t = true ∧ i ∈ ((cfg0.win 5).blk t).view.set := by
  have hi0 : (i 0).val < 3 := (i 0).isLt
  have hi1 : (i 1).val < 4000000 := (i 1).isLt
  have ht : (i 1).val / 80000 < cfg0.N := by rw [show cfg0.N = 50 from N_0]; omega
  obtain ⟨-, -, -, -, -, ⟨h0, h1⟩⟩ := idx0 ⟨(i 1).val / 80000, ht⟩
  refine ⟨⟨(i 1).val / 80000, ht⟩, flush0_5 _, (mem_blk0_B _ i).mpr fun a => ?_⟩
  match a with
  | ⟨0, _⟩ =>
    show win0_5.index ⟨(i 1).val / 80000, ht⟩ 0 * 3 ≤ (i 0).val ∧ (i 0).val < win0_5.index ⟨(i 1).val / 80000, ht⟩ 0 * 3 + 3
    rw [h0]; omega
  | ⟨1, _⟩ =>
    show win0_5.index ⟨(i 1).val / 80000, ht⟩ 1 * 80000 ≤ (i 1).val ∧ (i 1).val < win0_5.index ⟨(i 1).val / 80000, ht⟩ 1 * 80000 + 80000
    rw [h1]; show (i 1).val / 80000 * 80000 ≤ (i 1).val ∧ (i 1).val < (i 1).val / 80000 * 80000 + 80000; omega

/-- After region 0 the end-A force array holds, at `(j, e)`, component `j` of element `e`'s end-A force. -/
theorem arr0_A (c : Dev nD) (j : Fin 3) (e : Fin 4000000) :
    ((dat0 (F := Ideal) V c).arrAt 4 cfg0.N : S3x4000000.Idx → EReal) (ix2 j e) = Cert.Spec.eA (edgeK V c e) j :=
  congrFun ((dat0 (F := Ideal) V c).arrAt_eq_of_cover 4 (G0_A V c) (fun t _ => flushed0_A_eq V c t) cover0_A) (ix2 j e)

/-- After region 0 the end-B force array holds, at `(j, e)`, component `j` of element `e`'s end-B force. -/
theorem arr0_B (c : Dev nD) (j : Fin 3) (e : Fin 4000000) :
    ((dat0 (F := Ideal) V c).arrAt 5 cfg0.N : S3x4000000.Idx → EReal) (ix2 j e) = Cert.Spec.eB (edgeK V c e) j :=
  congrFun ((dat0 (F := Ideal) V c).arrAt_eq_of_cover 5 (G0_B V c) (fun t _ => flushed0_B_eq V c t) cover0_B) (ix2 j e)

end Cert.KernelIdeal.Hand

end
-- ==== Proof.KIHost0.lean ====
/-
  Region 0's entry arrays, read back from the program's last stretch of host operations before it.

  The stretch transposes three [4000000 x 3] arrays (the displacements gathered at the two ends of every element and the
  direction cosines) to [3 x 4000000], and packs the four per-element property arrays, each made a [1 x 4000000] row, into one
  [4 x 4000000] array by a concatenation along the rows. Read at an index: a transposed array at (j, e) is the operand at
  (e, j); row r of the packed array at e is the r-th property array at e. The operands are what the earlier stretches left
  (the two gathered arrays) or the launch memory (the arguments, which no stretch writes).
-/
import proofs.«406654_j12146167513818_3_alg».proof.Proof.KIRun
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.SL.Sem

variable (m : (ℓ : Loc nD τ sig) → Buf (Elt Ideal) ℓ) (c : Dev nD)

/-! ## The stretch from any contents -/

section Stretch
variable (V : Valuation τ sig (Elt Ideal))

/-- the three transposes -/
theorem hostOps0_3_v7 : (StableHlo.after hostOps0_3 V (Proc.devRef .tc main_v7) : S3x4000000.Idx → EReal)
    = transpose S3x4000000 [1, 0] (V (Proc.devRef .tc main_v5) : S4000000x3.Idx → EReal) transposes_S4000000x3_S3x4000000_1_0 := by
  after_results
theorem hostOps0_3_v8 : (StableHlo.after hostOps0_3 V (Proc.devRef .tc main_v8) : S3x4000000.Idx → EReal)
    = transpose S3x4000000 [1, 0] (V (Proc.devRef .tc main_v6) : S4000000x3.Idx → EReal) transposes_S4000000x3_S3x4000000_1_0 := by
  after_results
theorem hostOps0_3_v9 : (StableHlo.after hostOps0_3 V (Proc.devRef .tc main_v9) : S3x4000000.Idx → EReal)
    = transpose S3x4000000 [1, 0] (V (Proc.devRef .tc main_arg7) : S4000000x3.Idx → EReal) transposes_S4000000x3_S3x4000000_1_0 := by
  after_results

/-- a [4000000] property array made a [1 x 4000000] row -/
def propRow (x : FVec Ideal S4000000 .f32) : FVec Ideal S1x4000000 .f32 :=
  broadcastInDim S1x4000000 ![1] bcast_S4000000_S1x4000000_1 x

/-- the packed properties: the four rows concatenated -/
theorem hostOps0_3_v14 : (StableHlo.after hostOps0_3 V (Proc.devRef .tc main_v14) : S4x4000000.Idx → EReal)
    = concatenate S4x4000000 0 [⟨S1x4000000, propRow (V (Proc.devRef .tc main_arg3))⟩, ⟨S1x4000000, propRow (V (Proc.devRef .tc main_arg4))⟩,
        ⟨S1x4000000, propRow (V (Proc.devRef .tc main_arg5))⟩, ⟨S1x4000000, propRow (V (Proc.devRef .tc main_arg6))⟩]
        concatenates_S1x4000000_S1x4000000_S1x4000000_S1x4000000_S4x4000000_d0 := by
  after_results
  rfl

end Stretch

/-- no stretch before the last writes an argument: there it holds its launch contents -/
theorem W3_arg (r : Ref sig .tc) (h0 : r ∉ hostOps0_W) (h1 : r ∉ hostOps0_1_W) (h2 : r ∉ hostOps0_2_W) :
    W3 m c (Proc.devRef .tc r) = m ((c : Thread nD τ).loc r) :=
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-! ## Region 0's entry arrays at an index -/

/-- the displacements at the first ends, transposed; the second take does not write the first take's result -/
theorem W4_v7 (j : Fin 3) (e : Fin 4000000) :
    (W4 m c (Proc.devRef .tc main_v7) : S3x4000000.Idx → EReal) (ix2 j e)
      = (W2 m c (Proc.devRef .tc main_v5) : S4000000x3.Idx → EReal) (ix2 e j) := by
  refine (congrFun (hostOps0_3_v7 (W3 m c)) _).trans ?_
  refine (transpose_ix2_apply _ _ _ _).trans ?_
  exact congrFun (StableHlo.after_of_writes_sub hostOps0_2 _ hostOps0_2_writes (by decide)) _

/-- the displacements at the second ends, transposed -/
theorem W4_v8 (j : Fin 3) (e : Fin 4000000) :
    (W4 m c (Proc.devRef .tc main_v8) : S3x4000000.Idx → EReal) (ix2 j e)
      = (W3 m c (Proc.devRef .tc main_v6) : S4000000x3.Idx → EReal) (ix2 e j) := by
  refine (congrFun (hostOps0_3_v8 (W3 m c)) _).trans ?_
  exact transpose_ix2_apply _ _ _ _

/-- the direction cosines, transposed -/
theorem W4_v9 (j : Fin 3) (e : Fin 4000000) :
    (W4 m c (Proc.devRef .tc main_v9) : S3x4000000.Idx → EReal) (ix2 j e)
      = (m ((c : Thread nD τ).loc main_arg7) : S4000000x3.Idx → EReal) (ix2 e j) := by
  refine (congrFun (hostOps0_3_v9 (W3 m c)) _).trans ?_
  refine (transpose_ix2_apply _ _ _ _).trans ?_
  exact congrFun (W3_arg m c main_arg7 (by decide) (by decide) (by decide)) _

/-- a property array made a row reads, at (0, e), the array at e -/
theorem propRow_apply (x : FVec Ideal S4000000 .f32) (e : Fin 4000000) : propRow x (ix2 (0 : Fin 1) e) = x (ix1 e) :=
  broadcastInDim_apply _ _ x _ (ix1 e) fun a => match a with | ⟨0, _⟩ => rfl

/-- the packed properties: row r at e is the r-th property array at e -/
theorem W4_v14 (r : Fin 4) (e : Fin 4000000) :
    (W4 m c (Proc.devRef .tc main_v14) : S4x4000000.Idx → EReal) (ix2 r e)
      = match r with
        | ⟨0, _⟩ => (m ((c : Thread nD τ).loc main_arg3) : S4000000.Idx → EReal) (ix1 e)
        | ⟨1, _⟩ => (m ((c : Thread nD τ).loc main_arg4) : S4000000.Idx → EReal) (ix1 e)
        | ⟨2, _⟩ => (m ((c : Thread nD τ).loc main_arg5) : S4000000.Idx → EReal) (ix1 e)
        | ⟨3, _⟩ => (m ((c : Thread nD τ).loc main_arg6) : S4000000.Idx → EReal) (ix1 e) := by
  refine (congrFun (hostOps0_3_v14 (W3 m c)) _).trans ?_
  rw [W3_arg m c main_arg3 (by decide) (by decide) (by decide), W3_arg m c main_arg4 (by decide) (by decide) (by decide),
    W3_arg m c main_arg5 (by decide) (by decide) (by decide), W3_arg m c main_arg6 (by decide) (by decide) (by decide)]
  -- the four rows as a family: row r of the concatenation is piece r at (0, e)
  refine (concatenate_ofFn_unit_apply (t := S4x4000000) (s₁ := S1x4000000) 0
    (![propRow (m ((c : Thread nD τ).loc main_arg3)), propRow (m ((c : Thread nD τ).loc main_arg4)),
       propRow (m ((c : Thread nD τ).loc main_arg5)), propRow (m ((c : Thread nD τ).loc main_arg6))] : Fin 4 → S1x4000000.Idx → EReal)
    concatenates_S1x4000000_S1x4000000_S1x4000000_S1x4000000_S4x4000000_d0 rfl rfl (ix2 r e) r rfl (ix2 (0 : Fin 1) e)
    fun b hb => match b, hb with | ⟨0, _⟩, hb => absurd rfl hb | ⟨1, _⟩, _ => rfl).trans ?_
  match r with
  | ⟨0, _⟩ => exact propRow_apply _ e
  | ⟨1, _⟩ => exact propRow_apply _ e
  | ⟨2, _⟩ => exact propRow_apply _ e
  | ⟨3, _⟩ => exact propRow_apply _ e

end Cert.KernelIdeal.Hand

end
-- ==== Proof.KIHostT.lean ====
/-
  The first row take read back: what the take of the scaled displacements at column 0 of the index input leaves.

  The stretch is jnp.take in its default mode: the index column is wrapped (a negative index has 2000000 added), made a
  [4000000 x 1] column, compared against 0 and 1999999 and the two compares and-reduced along the unit axis to the in-range
  mask; the rows of the table are gathered at the wrapped column; the gathered rows are kept where the mask is 1 and a fill
  constant put elsewhere. Read in three consecutive pieces — the wrapped column, the mask, the gather and the select — each
  from any contents before it, then composed. The table (the product of the first two arguments) and the index column are
  what the first stretch wrote.
-/
import proofs.«406654_j12146167513818_3_alg».proof.Proof.KIRun
import proofs.«406654_j12146167513818_3_alg».proof.Proof.KIPre
import Idealize.ShloMosaic.Lib.ValueIdx
import Idealize.ShloMosaic.Lib.StableHlo.Run
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.SL.Sem
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)

variable (m : (ℓ : Loc nD τ sig) → Buf (Elt Ideal) ℓ) (c : Dev nD)

/-- A line of operations run as its first k, then the rest. -/
theorem after_cut {Val : EltTy → Type} (L : List (HloOp τ sig Val)) (k : Nat) (V : Valuation τ sig Val) :
    StableHlo.after L V = StableHlo.after (L.drop k) (StableHlo.after (L.take k) V) := by
  rw [← StableHlo.after_append, List.take_append_drop]

/-! ## The take at column 0, from any contents before it -/

section Take0
variable (V : Valuation τ sig (Elt Ideal))

/-- Operations 1 to 8: the wrapped index column; the table is not written. -/
theorem take0A_v5 :
    (StableHlo.after ((hostOps0_1 (F := Ideal)).take 8) V (Proc.devRef .tc main_call0_v5) : IVec S4000000x1 32)
      = wrapCol (V (Proc.devRef .tc main_v2) : IVec S4000000 32) := by
  simp only [hostOps0_1, List.take_succ_cons, List.take_zero]
  after_results
  try simp only [StableHlo.TRef.ofBuf, StableHlo.TRef.toBuf, cast_eq]
  all_goals rfl
theorem take0A_v0 :
    StableHlo.after ((hostOps0_1 (F := Ideal)).take 8) V (Proc.devRef .tc main_v0) = V (Proc.devRef .tc main_v0) := by
  simp only [hostOps0_1, List.take_succ_cons, List.take_zero]
  after_results
  all_goals rfl

/-- Operations 9 to 18: the two compares of the wrapped column and their and-reduction along the unit axis; the wrapped
    column and the table are not written. -/
theorem take0B_v12 :
    (StableHlo.after (((hostOps0_1 (F := Ideal)).drop 8).take 10) V (Proc.devRef .tc main_call0_v12) : IVec S4000000 1)
      = Host.reduce IntOp.andi
          (andi (cmpi .sge (V (Proc.devRef .tc main_call0_v5) : IVec S4000000x1 32) (broadcastInDim S4000000x1 ![] bcast_S_S4000000x1 (constantI S_ 32 0#32)))
                (cmpi .sle (V (Proc.devRef .tc main_call0_v5) : IVec S4000000x1 32)
                  (broadcastInDim S4000000x1 ![0, 1] bcast_S1x1_S4000000x1_0_1 (broadcastInDim S1x1 ![1] bcast_S1_S1x1_1 (constantI S1 32 1999999#32)))))
          (constantI S_ 1 1#1) reducesTo_S4000000x1_S4000000_d1 h_S_ := by
  simp only [hostOps0_1, List.drop_succ_cons, List.drop_zero, List.take_succ_cons, List.take_zero]
  after_results
  try simp only [StableHlo.TRef.ofBuf, StableHlo.TRef.toBuf, cast_eq]
  all_goals rfl
theorem take0B_v5 :
    StableHlo.after (((hostOps0_1 (F := Ideal)).drop 8).take 10) V (Proc.devRef .tc main_call0_v5) = V (Proc.devRef .tc main_call0_v5) := by
  simp only [hostOps0_1, List.drop_succ_cons, List.drop_zero, List.take_succ_cons, List.take_zero]
  after_results
  all_goals rfl
theorem take0B_v0 :
    StableHlo.after (((hostOps0_1 (F := Ideal)).drop 8).take 10) V (Proc.devRef .tc main_v0) = V (Proc.devRef .tc main_v0) := by
  simp only [hostOps0_1, List.drop_succ_cons, List.drop_zero, List.take_succ_cons, List.take_zero]
  after_results
  all_goals rfl

/-- Operations 19 to 23: the gather of the table's rows at the wrapped column, the mask laid along the rows, the select
    against the fill constant. -/
theorem take0C :
    (StableHlo.after (((hostOps0_1 (F := Ideal)).drop 8).drop 10) V (Proc.devRef .tc main_v5) : S4000000x3.Idx → EReal)
      = select (broadcastInDim S4000000x3 ![0] bcast_S4000000_S4000000x3_0 (V (Proc.devRef .tc main_call0_v12) : IVec S4000000 1))
          (Host.gather gather_S2000000x3_S4000000x1_S4000000x3_1_0_n_n_0_1_13 (V (Proc.devRef .tc main_v0) : FVec Ideal S2000000x3 .f32)
            (V (Proc.devRef .tc main_call0_v5) : IVec S4000000x1 32))
          (broadcastInDim S4000000x3 ![] bcast_S_S4000000x3 (constant (F := Ideal) S_ .f32 0x7FC00000#32)) := by
  simp only [hostOps0_1, List.drop_succ_cons, List.drop_zero]
  after_results
  try simp only [StableHlo.TRef.ofBuf, StableHlo.TRef.toBuf, cast_eq]
  all_goals rfl

/-- The whole stretch: the select of the gathered rows by the in-range mask of the index column. -/
theorem hostOps0_1_v5 :
    (StableHlo.after hostOps0_1 V (Proc.devRef .tc main_v5) : S4000000x3.Idx → EReal)
      = select (takeMask (V (Proc.devRef .tc main_v2) : IVec S4000000 32))
          (Host.gather gather_S2000000x3_S4000000x1_S4000000x3_1_0_n_n_0_1_13 (V (Proc.devRef .tc main_v0) : FVec Ideal S2000000x3 .f32)
            (wrapCol (V (Proc.devRef .tc main_v2) : IVec S4000000 32)))
          (broadcastInDim S4000000x3 ![] bcast_S_S4000000x3 (constant (F := Ideal) S_ .f32 0x7FC00000#32)) := by
  rw [after_cut hostOps0_1 8 V, after_cut (hostOps0_1.drop 8) 10]
  rw [take0C, take0B_v12, take0B_v5, take0B_v0, take0A_v5, take0A_v0]
  rfl

end Take0

/-! ## What the first stretch wrote -/

/-- The table: the elementwise product of the first two arguments. -/
theorem W1_v0 : (W1 m c (Proc.devRef .tc main_v0) : FVec Ideal S2000000x3 .f32)
    = (mulf (m ((c : Thread nD τ).loc main_arg0) : FVec Ideal S2000000x3 .f32) (m ((c : Thread nD τ).loc main_arg1)) : FVec Ideal S2000000x3 .f32) := by
  show StableHlo.after hostOps0 (W0 m c) (Proc.devRef .tc main_v0) = _
  after_results
  all_goals rfl

/-- The first index column: the slice and reshape of the index input. -/
theorem W1_v2 : (W1 m c (Proc.devRef .tc main_v2) : IVec S4000000 32) = conCol0 (m ((c : Thread nD τ).loc main_arg2)) := by
  show StableHlo.after hostOps0 (W0 m c) (Proc.devRef .tc main_v2) = _
  after_results
  all_goals rfl

/-! ## Region 0's first entry array before its transpose -/

theorem W2_v5 : (W2 m c (Proc.devRef .tc main_v5) : S4000000x3.Idx → EReal)
    = select (takeMask (conCol0 (m ((c : Thread nD τ).loc main_arg2))))
        (Host.gather gather_S2000000x3_S4000000x1_S4000000x3_1_0_n_n_0_1_13
          (mulf (m ((c : Thread nD τ).loc main_arg0) : FVec Ideal S2000000x3 .f32) (m ((c : Thread nD τ).loc main_arg1)))
          (wrapCol (conCol0 (m ((c : Thread nD τ).loc main_arg2)))))
        (broadcastInDim S4000000x3 ![] bcast_S_S4000000x3 (constant (F := Ideal) S_ .f32 0x7FC00000#32)) := by
  show (StableHlo.after hostOps0_1 (W1 m c) (Proc.devRef .tc main_v5) : S4000000x3.Idx → EReal) = _
  rw [hostOps0_1_v5, W1_v0, W1_v2]

end Cert.KernelIdeal.Hand

end
-- ==== Proof.KIHostT2.lean ====
/-
  The displacements gathered at the second ends of the elements, read back from the program's host operations.

  The program takes rows of the [2000000 x 3] table u = (the first argument) * (the second) at the second column of the index
  input, with numpy's default mode: a negative index is moved up by 2000000, the rows are gathered, and a gathered row is kept
  where the wrapped index lies in [0, 1999999], a fill constant elsewhere. The stretch of 23 operations is read in three
  steps (the wrapped index column; the in-range mask; the gather and the select), each from any contents, and composed; the
  table and the column it is entered with are what the first stretch computed, which the first take does not write.
-/
import proofs.«406654_j12146167513818_3_alg».proof.Proof.KIRun
import proofs.«406654_j12146167513818_3_alg».proof.Proof.KIPre
import Idealize.ShloMosaic.Lib.ValueIdx
import Idealize.ShloMosaic.Lib.Pipeline.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.SL.Sem

variable [Facts₀]
variable (m : (ℓ : Loc nD τ sig) → Buf (Elt Ideal) ℓ) (c : Dev nD)

/-- a line of operations run as its first k, then the rest -/
theorem after_split2 {Val : EltTy → Type} (L : List (HloOp τ sig Val)) (k : Nat) (V : Valuation τ sig Val) :
    StableHlo.after L V = StableHlo.after (L.drop k) (StableHlo.after (L.take k) V) := by
  rw [← StableHlo.after_append, List.take_append_drop]

/-! ## The row take at the second column, from any contents, in three steps: the wrapped index column, its in-range mask, the select -/

section Stretch
variable (V : Valuation τ sig (Elt Ideal))

/-- the first eight operations: the index wrapped (a negative one moved up by the table's height) and made a column -/
theorem t1A_v5 : (StableHlo.after ((hostOps0_2 (F := Ideal)).take 8) V (Proc.devRef .tc main_call1_v5) : IVec S4000000x1 32)
    = wrapCol (V (Proc.devRef .tc main_v4) : IVec S4000000 32) := by
  simp only [hostOps0_2, List.take_succ_cons, List.take_zero]
  after_results
  simp only [StableHlo.TRef.ofBuf, StableHlo.TRef.toBuf, cast_eq]
  rfl
theorem t1A_v0 : StableHlo.after ((hostOps0_2 (F := Ideal)).take 8) V (Proc.devRef .tc main_v0) = V (Proc.devRef .tc main_v0) := by
  simp only [hostOps0_2, List.take_succ_cons, List.take_zero]
  after_results

/-- the next ten: the and-reduction along the column of "0 ≤ wrapped index ≤ 1999999" -/
theorem t1B_v12 : (StableHlo.after (((hostOps0_2 (F := Ideal)).drop 8).take 10) V (Proc.devRef .tc main_call1_v12) : IVec S4000000 1)
    = Host.reduce IntOp.andi
        (andi (cmpi .sge (V (Proc.devRef .tc main_call1_v5) : IVec S4000000x1 32) (broadcastInDim S4000000x1 ![] bcast_S_S4000000x1 (constantI S_ 32 0#32)))
              (cmpi .sle (V (Proc.devRef .tc main_call1_v5) : IVec S4000000x1 32)
                (broadcastInDim S4000000x1 ![0, 1] bcast_S1x1_S4000000x1_0_1 (broadcastInDim S1x1 ![1] bcast_S1_S1x1_1 (constantI S1 32 1999999#32)))))
        (constantI S_ 1 1#1) reducesTo_S4000000x1_S4000000_d1 h_S_ := by
  simp only [hostOps0_2, List.drop_succ_cons, List.drop_zero, List.take_succ_cons, List.take_zero]
  after_results
  simp only [StableHlo.TRef.ofBuf, StableHlo.TRef.toBuf, cast_eq]
theorem t1B_v5 : StableHlo.after (((hostOps0_2 (F := Ideal)).drop 8).take 10) V (Proc.devRef .tc main_call1_v5) = V (Proc.devRef .tc main_call1_v5) := by
  simp only [hostOps0_2, List.drop_succ_cons, List.drop_zero, List.take_succ_cons, List.take_zero]
  after_results
theorem t1B_v0 : StableHlo.after (((hostOps0_2 (F := Ideal)).drop 8).take 10) V (Proc.devRef .tc main_v0) = V (Proc.devRef .tc main_v0) := by
  simp only [hostOps0_2, List.drop_succ_cons, List.drop_zero, List.take_succ_cons, List.take_zero]
  after_results

/-- the last five: the gather, the mask broadcast along the rows, the fill constant, the select -/
theorem t1C : (StableHlo.after (((hostOps0_2 (F := Ideal)).drop 8).drop 10) V (Proc.devRef .tc main_v6) : S4000000x3.Idx → EReal)
    = select (broadcastInDim S4000000x3 ![0] bcast_S4000000_S4000000x3_0 (V (Proc.devRef .tc main_call1_v12) : IVec S4000000 1))
        (Host.gather gather_S2000000x3_S4000000x1_S4000000x3_1_0_n_n_0_1_13 (V (Proc.devRef .tc main_v0) : FVec Ideal S2000000x3 .f32)
          (V (Proc.devRef .tc main_call1_v5) : IVec S4000000x1 32))
        (broadcastInDim S4000000x3 ![] bcast_S_S4000000x3 (constant (F := Ideal) S_ .f32 0x7FC00000#32)) := by
  simp only [hostOps0_2, List.drop_succ_cons, List.drop_zero]
  after_results
  simp only [StableHlo.TRef.ofBuf, StableHlo.TRef.toBuf, cast_eq]

/-- the three steps composed: the take's result from the table u and the index column idx the stretch is entered with -/
theorem hostOps0_2_v6 (u : FVec Ideal S2000000x3 .f32) (idx : IVec S4000000 32)
    (h0 : (V (Proc.devRef .tc main_v0) : FVec Ideal S2000000x3 .f32) = u) (h2 : (V (Proc.devRef .tc main_v4) : IVec S4000000 32) = idx) :
    (StableHlo.after hostOps0_2 V (Proc.devRef .tc main_v6) : S4000000x3.Idx → EReal)
    = select (takeMask idx) (Host.gather gather_S2000000x3_S4000000x1_S4000000x3_1_0_n_n_0_1_13 u (wrapCol idx))
        (broadcastInDim S4000000x3 ![] bcast_S_S4000000x3 (constant (F := Ideal) S_ .f32 0x7FC00000#32)) := by
  subst h0 h2
  rw [after_split2 hostOps0_2 8 V, after_split2 (hostOps0_2.drop 8) 10]
  rw [t1C, t1B_v12, t1B_v5, t1B_v0, t1A_v5, t1A_v0]
  rfl

end Stretch

/-! ## What the stretch is entered with, and the result -/

/-- the first stretch: the product of the first two arguments, and the second column of the index input -/
theorem t1_u (V : Valuation τ sig (Elt Ideal)) : (StableHlo.after hostOps0 V (Proc.devRef .tc main_v0) : S2000000x3.Idx → EReal)
    = (mulf (V (Proc.devRef .tc main_arg0) : FVec Ideal S2000000x3 .f32) (V (Proc.devRef .tc main_arg1)) : FVec Ideal S2000000x3 .f32) := by
  after_results
theorem t1_col (V : Valuation τ sig (Elt Ideal)) : (StableHlo.after hostOps0 V (Proc.devRef .tc main_v4) : IVec S4000000 32)
    = conCol1 (V (Proc.devRef .tc main_arg2) : IVec S4000000x2 32) := by
  after_results
  rfl

/-- the first take writes neither -/
theorem W2_v0' : (W2 m c (Proc.devRef .tc main_v0) : FVec Ideal S2000000x3 .f32)
    = (mulf (m ((c : Thread nD τ).loc main_arg0) : FVec Ideal S2000000x3 .f32) (m ((c : Thread nD τ).loc main_arg1)) : FVec Ideal S2000000x3 .f32) :=
  (StableHlo.after_of_writes_sub hostOps0_1 _ hostOps0_1_writes (by decide)).trans (t1_u (W0 m c))
theorem W2_v4' : (W2 m c (Proc.devRef .tc main_v4) : IVec S4000000 32) = conCol1 (m ((c : Thread nD τ).loc main_arg2) : IVec S4000000x2 32) :=
  (StableHlo.after_of_writes_sub hostOps0_1 _ hostOps0_1_writes (by decide)).trans (t1_col (W0 m c))

/-- the displacements gathered at the second ends -/
theorem W3_v6 : (W3 m c (Proc.devRef .tc main_v6) : S4000000x3.Idx → EReal)
    = select (takeMask (conCol1 (m ((c : Thread nD τ).loc main_arg2) : IVec S4000000x2 32)))
        (Host.gather gather_S2000000x3_S4000000x1_S4000000x3_1_0_n_n_0_1_13
          (mulf (m ((c : Thread nD τ).loc main_arg0) : FVec Ideal S2000000x3 .f32) (m ((c : Thread nD τ).loc main_arg1)))
          (wrapCol (conCol1 (m ((c : Thread nD τ).loc main_arg2) : IVec S4000000x2 32))))
        (broadcastInDim S4000000x3 ![] bcast_S_S4000000x3 (constant (F := Ideal) S_ .f32 0x7FC00000#32)) :=
  hostOps0_2_v6 (W2 m c) _ _ (W2_v0' m c) (W2_v4' m c)

end Cert.KernelIdeal.Hand

end
-- ==== Proof.KIHost1.lean ====
/-
  The program's later host stretches read back: what region 1 is entered with, and the result.

  After region 0 the host scatter-adds the two end-force arrays (each transposed to [4000000 x 3]) into a zero [2000000 x 3]
  array at the wrapped indices of the two columns of the index input: the internal force per node. Region 1's windows are the
  transposes of that array, of the external force and of the Jacobi scale, and the two rows of boundary flags laid one above
  the other. The index columns and the arguments are written by no later stretch and are no array of region 0, so at region
  0's exit they hold what the first stretch (or the launch) put there. After region 1 the host divides the first 1x1 sum by the
  maximum of the second with 1.
-/
import proofs.«406654_j12146167513818_3_alg».proof.Proof.KIRun
import proofs.«406654_j12146167513818_3_alg».proof.Proof.KIPre
import proofs.«406654_j12146167513818_3_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.SL.Sem
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne
  nullary_result' unary_result' binary_result' ternary_result' quaternary_result' reshape_result' nary4_result' nary_result'
  unaryIndexed_result' binaryIndexed_result' nullary_result_ne' unary_result_ne' binary_result_ne' ternary_result_ne'
  quaternary_result_ne' reshape_result_ne' nary_result_ne' unaryIndexed_result_ne' binaryIndexed_result_ne')

variable (m : (ℓ : Loc nD τ sig) → Buf (Elt Ideal) ℓ) (c : Dev nD)

/-! ## What region 0's exit holds at the references the later stretches read -/

/-- The first index column at region 0's exit: the first stretch's slice and reshape of the index input. -/
theorem W5_v2 : (W5 m c (Proc.devRef .tc main_v2) : S4000000.Idx → BitVec 32) = conCol0 (m ((c : Thread nD τ).loc main_arg2)) :=
  (W5_of_ne m c main_v2 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <| by
    show StableHlo.after hostOps0 (W0 m c) (Proc.devRef .tc main_v2) = _
    after_results
    rfl

/-- The second index column at region 0's exit. -/
theorem W5_v4 : (W5 m c (Proc.devRef .tc main_v4) : S4000000.Idx → BitVec 32) = conCol1 (m ((c : Thread nD τ).loc main_arg2)) :=
  (W5_of_ne m c main_v4 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <| by
    show StableHlo.after hostOps0 (W0 m c) (Proc.devRef .tc main_v4) = _
    after_results
    rfl

/-- An argument at region 0's exit is the launch memory's. -/
theorem W5_arg1 : W5 m c (Proc.devRef .tc main_arg1) = m ((c : Thread nD τ).loc main_arg1) :=
  (W5_of_ne m c main_arg1 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W5_arg8 : W5 m c (Proc.devRef .tc main_arg8) = m ((c : Thread nD τ).loc main_arg8) :=
  (W5_of_ne m c main_arg8 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W5_arg9 : W5 m c (Proc.devRef .tc main_arg9) = m ((c : Thread nD τ).loc main_arg9) :=
  (W5_of_ne m c main_arg9 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl
theorem W5_arg10 : W5 m c (Proc.devRef .tc main_arg10) = m ((c : Thread nD τ).loc main_arg10) :=
  (W5_of_ne m c main_arg10 (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl

/-! ## The stretch between the regions, from any contents before it -/

section Stretch1
variable (V : Valuation τ sig (Elt Ideal))

/-- The transposed internal force: the two scatter-adds into zeros at the wrapped index columns, transposed. -/
theorem hostOps1_v33 :
    (StableHlo.after hostOps1 V (Proc.devRef .tc main_v33) : S3x2000000.Idx → EReal)
      = transpose S3x2000000 [1, 0]
          (Host.scatterAdd scatter_S2000000x3_S4000000x1_S4000000x3_1_0_0_1
            (Host.scatterAdd scatter_S2000000x3_S4000000x1_S4000000x3_1_0_0_1
              (broadcastInDim S2000000x3 ![] bcast_S_S2000000x3 (constant (F := Ideal) S_ .f32 0x00000000#32))
              (wrapCol (V (Proc.devRef .tc main_v2)))
              (transpose S4000000x3 [1, 0] (V (Proc.devRef .tc main_v15_0)) transposes_S3x4000000_S4000000x3_1_0))
            (wrapCol (V (Proc.devRef .tc main_v4)))
            (transpose S4000000x3 [1, 0] (V (Proc.devRef .tc main_v15_1)) transposes_S3x4000000_S4000000x3_1_0))
          transposes_S2000000x3_S3x2000000_1_0 := by
  unfold wrapCol
  after_results_simp

theorem hostOps1_v34 :
    (StableHlo.after hostOps1 V (Proc.devRef .tc main_v34) : S3x2000000.Idx → EReal)
      = transpose S3x2000000 [1, 0] (V (Proc.devRef .tc main_arg8)) transposes_S2000000x3_S3x2000000_1_0 := by
  after_results_simp

theorem hostOps1_v35 :
    (StableHlo.after hostOps1 V (Proc.devRef .tc main_v35) : S3x2000000.Idx → EReal)
      = transpose S3x2000000 [1, 0] (V (Proc.devRef .tc main_arg1)) transposes_S2000000x3_S3x2000000_1_0 := by
  after_results_simp

theorem hostOps1_v38 :
    (StableHlo.after hostOps1 V (Proc.devRef .tc main_v38) : S2x2000000.Idx → EReal)
      = concatenate S2x2000000 0
          [⟨S1x2000000, transpose S1x2000000 [1, 0] (V (Proc.devRef .tc main_arg9)) transposes_S2000000x1_S1x2000000_1_0⟩,
           ⟨S1x2000000, transpose S1x2000000 [1, 0] (V (Proc.devRef .tc main_arg10)) transposes_S2000000x1_S1x2000000_1_0⟩]
          concatenates_S1x2000000_S1x2000000_S2x2000000_d0 := by
  after_results_simp
  -- the two rows, each read back through the stretch
  refine congrArg₂ (fun a b => concatenate S2x2000000 0 [⟨S1x2000000, a⟩, ⟨S1x2000000, b⟩]
    concatenates_S1x2000000_S1x2000000_S2x2000000_d0) ?_ ?_
  · after_results_simp
  · after_results_simp

end Stretch1

/-! ## Region 1's entry arrays -/

/-- The internal force per node component: the end forces region 0 leaves, scatter-added at the two index columns. -/
def FintK : S2000000x3.Idx → EReal :=
  Host.scatterAdd scatter_S2000000x3_S4000000x1_S4000000x3_1_0_0_1
    (Host.scatterAdd scatter_S2000000x3_S4000000x1_S4000000x3_1_0_0_1 (broadcastInDim S2000000x3 ![] bcast_S_S2000000x3 (constant (F := Ideal) S_ .f32 0x00000000#32))
      (wrapCol (conCol0 (m ((c : Thread nD τ).loc main_arg2)))) (transpose S4000000x3 [1, 0] (W5 m c (Proc.devRef .tc main_v15_0)) transposes_S3x4000000_S4000000x3_1_0))
    (wrapCol (conCol1 (m ((c : Thread nD τ).loc main_arg2)))) (transpose S4000000x3 [1, 0] (W5 m c (Proc.devRef .tc main_v15_1)) transposes_S3x4000000_S4000000x3_1_0)

/-- A [3 x 4000000] array transposed reads, at (e, j), the array at (j, e). -/
theorem transpose_E3 (X : S3x4000000.Idx → EReal) (e : Fin 4000000) (j : Fin 3) :
    (transpose S4000000x3 [1, 0] X transposes_S3x4000000_S4000000x3_1_0 : S4000000x3.Idx → EReal) (ix2 e j) = X (ix2 j e) :=
  transpose_ix2_apply X _ e j

theorem W6_v33 (j : Fin 3) (n : Fin 2000000) :
    (W6 m c (Proc.devRef .tc main_v33) : S3x2000000.Idx → EReal) (ix2 j n) = FintK m c (ix2 n j) := by
  show (StableHlo.after hostOps1 (W5 m c) (Proc.devRef .tc main_v33) : S3x2000000.Idx → EReal) (ix2 j n) = _
  rw [hostOps1_v33, W5_v2, W5_v4]
  exact transpose_ix2_apply _ _ j n

theorem W6_v34 (j : Fin 3) (n : Fin 2000000) :
    (W6 m c (Proc.devRef .tc main_v34) : S3x2000000.Idx → EReal) (ix2 j n)
      = (m ((c : Thread nD τ).loc main_arg8) : S2000000x3.Idx → EReal) (ix2 n j) := by
  show (StableHlo.after hostOps1 (W5 m c) (Proc.devRef .tc main_v34) : S3x2000000.Idx → EReal) (ix2 j n) = _
  rw [hostOps1_v34, W5_arg8]
  exact transpose_ix2_apply _ _ j n

theorem W6_v35 (j : Fin 3) (n : Fin 2000000) :
    (W6 m c (Proc.devRef .tc main_v35) : S3x2000000.Idx → EReal) (ix2 j n)
      = (m ((c : Thread nD τ).loc main_arg1) : S2000000x3.Idx → EReal) (ix2 n j) := by
  show (StableHlo.after hostOps1 (W5 m c) (Proc.devRef .tc main_v35) : S3x2000000.Idx → EReal) (ix2 j n) = _
  rw [hostOps1_v35, W5_arg1]
  exact transpose_ix2_apply _ _ j n

/-- Two [1 x n] rows laid one above the other read, in row 0, the first and, in row 1, the second. -/
theorem concat_rows_apply {n : Nat} (a b : (⟨2, ![1, n]⟩ : Shape).Idx → EReal)
    (h : Shape.Concatenates [(⟨2, ![1, n]⟩ : Shape), ⟨2, ![1, n]⟩] ⟨2, ![2, n]⟩ 0) (r : Fin 2) (q : Fin n) :
    concatenate (⟨2, ![2, n]⟩ : Shape) 0 [⟨⟨2, ![1, n]⟩, a⟩, ⟨⟨2, ![1, n]⟩, b⟩] h (ix2 r q)
      = match r with | ⟨0, _⟩ => a (ix2 0 q) | ⟨1, _⟩ => b (ix2 0 q) := by
  match r with
  | ⟨0, _⟩ =>
    exact concatenate_pair_apply_left 0 a b h _ rfl (ix2 0 q) fun d => match d with | ⟨0, _⟩ => rfl | ⟨1, _⟩ => rfl
  | ⟨1, _⟩ =>
    exact concatenate_pair_apply_right 0 a b h _ rfl rfl (ix2 0 q)
      (fun d hd => match d with | ⟨0, _⟩ => absurd rfl hd | ⟨1, _⟩ => rfl) rfl

theorem W6_v38 (r : Fin 2) (n : Fin 2000000) :
    (W6 m c (Proc.devRef .tc main_v38) : S2x2000000.Idx → EReal) (ix2 r n)
      = match r with
        | ⟨0, _⟩ => (m ((c : Thread nD τ).loc main_arg9) : S2000000x1.Idx → EReal) (ix2 n 0)
        | ⟨1, _⟩ => (m ((c : Thread nD τ).loc main_arg10) : S2000000x1.Idx → EReal) (ix2 n 0) := by
  show (StableHlo.after hostOps1 (W5 m c) (Proc.devRef .tc main_v38) : S2x2000000.Idx → EReal) (ix2 r n) = _
  rw [hostOps1_v38, W5_arg9, W5_arg10, concat_rows_apply]
  match r with
  | ⟨0, _⟩ => exact transpose_ix2_apply _ _ 0 n
  | ⟨1, _⟩ => exact transpose_ix2_apply _ _ 0 n

/-! ## The result -/

/-- A 1x1 array has one index. -/
theorem S1x1_idx (i : S1x1.Idx) : i = ix2 0 0 := by
  funext d
  match d with
  | ⟨0, _⟩ =>
    have hs : S1x1.size ⟨0, by decide⟩ = 1 := rfl
    exact Fin.ext (by have := (i ⟨0, by decide⟩).isLt; show (i ⟨0, _⟩).val = 0; omega)
  | ⟨1, _⟩ =>
    have hs : S1x1.size ⟨1, by decide⟩ = 1 := rfl
    exact Fin.ext (by have := (i ⟨1, by decide⟩).isLt; show (i ⟨1, _⟩).val = 0; omega)

/-- The last stretch, from any contents before it: the first sum over the maximum of the second with 1. -/
theorem hostOps2_v43 (V : Valuation τ sig (Elt Ideal)) :
    (StableHlo.after hostOps2 V (Proc.devRef .tc main_v43) : S_.Idx → EReal)
      = fun _ => Ideal.div ((V (Proc.devRef .tc main_v39_0) : S1x1.Idx → EReal) (ix2 0 0))
          (max ((V (Proc.devRef .tc main_v39_1) : S1x1.Idx → EReal) (ix2 0 0)) Cert.Spec.k1) := by
  after_results
  funext i
  show Ideal.div (shapeCast S_ (V (Proc.devRef .tc main_v39_0) : S1x1.Idx → EReal) shapeCasts_S1x1_S_ i)
      (max (shapeCast S_ (V (Proc.devRef .tc main_v39_1) : S1x1.Idx → EReal) shapeCasts_S1x1_S_ i) Cert.Spec.k1) = _
  unfold shapeCast
  rw [S1x1_idx (Shape.reshapeEquiv shapeCasts_S1x1_S_ i)]

theorem W8_v43 : (W8 m c (Proc.devRef .tc main_v43) : S_.Idx → EReal)
    = fun _ => Ideal.div ((W7 m c (Proc.devRef .tc main_v39_0) : S1x1.Idx → EReal) (ix2 0 0))
        (max ((W7 m c (Proc.devRef .tc main_v39_1) : S1x1.Idx → EReal) (ix2 0 0)) Cert.Spec.k1) :=
  hostOps2_v43 (W7 m c)

end Cert.KernelIdeal.Hand

end
-- ==== Proof.RefEdge.lean ====
/-
  The reference's per-element intermediates read at one element.

  Element e of the reference's arrays carries the direction cosines (c, s), the two gathered end displacements
  (a0, a1, a2) and (b0, b1, b2), and the length and the material and section properties L, E, A, I: `edgeR e` collects
  them. Each named intermediate of the reference, read at e, is the corresponding quantity of the specification at
  `edgeR e`: the local transverse displacements and rotations, the bending stiffness quotients, the local end forces.
-/
import proofs.«406654_j12146167513818_3_alg».proof.Proof.Gen.ReferenceIdeal.Run
import proofs.«406654_j12146167513818_3_alg».proof.Proof.Spec
import Idealize.ShloMosaic.Lib.ValueLayout
import Idealize.ShloMosaic.Lib.IdealHost

set_option maxRecDepth 8192

noncomputable section

namespace Cert.ReferenceIdeal.Hand

open Cert.ReferenceIdeal Cert.ReferenceIdeal.Gen Cert.ReferenceIdeal.Value Idealize.ShloMosaic Idealize.ShloMosaic.ValueIdx

variable (V0 : Valuation τ sig (Elt Ideal))

/-- Element `e`'s data as the reference reads them. -/
def edgeR (e : Fin 4000000) : Cert.Spec.EdgeIn where
  c  := (V0 (Proc.devRef .tc main_arg7) : S4000000x3.Idx → EReal) (ix2 e 0)
  s  := (V0 (Proc.devRef .tc main_arg7) : S4000000x3.Idx → EReal) (ix2 e 2)
  a0 := (res_main_v15 V0 : S4000000x3.Idx → EReal) (ix2 e 0)
  a1 := (res_main_v15 V0 : S4000000x3.Idx → EReal) (ix2 e 1)
  a2 := (res_main_v15 V0 : S4000000x3.Idx → EReal) (ix2 e 2)
  b0 := (res_main_v22 V0 : S4000000x3.Idx → EReal) (ix2 e 0)
  b1 := (res_main_v22 V0 : S4000000x3.Idx → EReal) (ix2 e 1)
  b2 := (res_main_v22 V0 : S4000000x3.Idx → EReal) (ix2 e 2)
  L  := (V0 (Proc.devRef .tc main_arg3) : S4000000.Idx → EReal) (ix1 e)
  E  := (V0 (Proc.devRef .tc main_arg4) : S4000000.Idx → EReal) (ix1 e)
  A  := (V0 (Proc.devRef .tc main_arg5) : S4000000.Idx → EReal) (ix1 e)
  I  := (V0 (Proc.devRef .tc main_arg6) : S4000000.Idx → EReal) (ix1 e)

/-- The host's negation at an index is the negation of the element. -/
theorem hostNegf_apply {s : Shape} {φ : FTy} (a : FVec Ideal s φ) (i : s.Idx) : Host.negf a i = -(a i) := rfl

/-! ## A column of an [n, m] array as a vector -/

/-- Column `o` of an [n, m] array, cut out as an [n, 1] array and reshaped to a vector, reads at `e` the array at (e, o). -/
theorem col_apply {α : Type} {n m : ℕ} (o : ℕ) (X : (⟨2, ![n, m]⟩ : Shape).Idx → α)
    (hs : (⟨2, ![n, m]⟩ : Shape).Slices ![0, o] ⟨2, ![n, 1]⟩) (hc : (⟨2, ![n, 1]⟩ : Shape).ShapeCasts ⟨1, ![n]⟩)
    (e : Fin n) (k : Fin m) (hk : k.val = o) :
    shapeCast ⟨1, ![n]⟩ (extractStridedSlice ⟨2, ![n, 1]⟩ ![0, o] X hs) hc (ix1 e) = X (ix2 e k) := by
  refine (shapeCast_apply _ hc (ix1 e) (ix2 e (0 : Fin 1)) ?_).trans (slice2_axis1_apply o X hs e 0 k (by rw [hk]; rfl))
  rw [Shape.rowMajor_val_two, Shape.rowMajor_val_one]
  show e.val * 1 + 0 = e.val
  omega

/-! ## The direction cosines and the gathered displacements -/

theorem v6_apply (e : Fin 4000000) : (res_main_v6 V0 : S4000000.Idx → EReal) (ix1 e) = (edgeR V0 e).c := by
  exact col_apply 0 (V0 (Proc.devRef .tc main_arg7)) slices_S4000000x3_S4000000x1_0_0 shapeCasts_S4000000x1_S4000000 e 0 rfl
theorem v8_apply (e : Fin 4000000) : (res_main_v8 V0 : S4000000.Idx → EReal) (ix1 e) = (edgeR V0 e).s := by
  exact col_apply 2 (V0 (Proc.devRef .tc main_arg7)) slices_S4000000x3_S4000000x1_0_2 shapeCasts_S4000000x1_S4000000 e 2 rfl

theorem a0_apply (e : Fin 4000000) :
    (shapeCast S4000000 (extractStridedSlice S4000000x1 ![0, 0] (res_main_v15 V0) slices_S4000000x3_S4000000x1_0_0) shapeCasts_S4000000x1_S4000000 : S4000000.Idx → EReal) (ix1 e)
      = (edgeR V0 e).a0 := by
  exact col_apply 0 _ _ _ e 0 rfl
theorem a1_apply (e : Fin 4000000) :
    (shapeCast S4000000 (extractStridedSlice S4000000x1 ![0, 1] (res_main_v15 V0) slices_S4000000x3_S4000000x1_0_1) shapeCasts_S4000000x1_S4000000 : S4000000.Idx → EReal) (ix1 e)
      = (edgeR V0 e).a1 := by
  exact col_apply 1 _ _ _ e 1 rfl
theorem a2_apply (e : Fin 4000000) :
    (shapeCast S4000000 (extractStridedSlice S4000000x1 ![0, 2] (res_main_v15 V0) slices_S4000000x3_S4000000x1_0_2) shapeCasts_S4000000x1_S4000000 : S4000000.Idx → EReal) (ix1 e)
      = (edgeR V0 e).a2 := by
  exact col_apply 2 _ _ _ e 2 rfl
theorem b0_apply (e : Fin 4000000) :
    (shapeCast S4000000 (extractStridedSlice S4000000x1 ![0, 0] (res_main_v22 V0) slices_S4000000x3_S4000000x1_0_0) shapeCasts_S4000000x1_S4000000 : S4000000.Idx → EReal) (ix1 e)
      = (edgeR V0 e).b0 := by
  exact col_apply 0 _ _ _ e 0 rfl
theorem b1_apply (e : Fin 4000000) :
    (shapeCast S4000000 (extractStridedSlice S4000000x1 ![0, 1] (res_main_v22 V0) slices_S4000000x3_S4000000x1_0_1) shapeCasts_S4000000x1_S4000000 : S4000000.Idx → EReal) (ix1 e)
      = (edgeR V0 e).b1 := by
  exact col_apply 1 _ _ _ e 1 rfl
theorem b2_apply (e : Fin 4000000) :
    (shapeCast S4000000 (extractStridedSlice S4000000x1 ![0, 2] (res_main_v22 V0) slices_S4000000x3_S4000000x1_0_2) shapeCasts_S4000000x1_S4000000 : S4000000.Idx → EReal) (ix1 e)
      = (edgeR V0 e).b2 := by
  exact col_apply 2 _ _ _ e 2 rfl

/-! ## The local transverse displacements and rotations -/

theorem v37_apply (e : Fin 4000000) : (res_main_v37 V0 : S4000000.Idx → EReal) (ix1 e) = (edgeR V0 e).wA := by
  unfold res_main_v37
  simp only [addf_apply, mulf_apply, hostNegf_apply, v8_apply, v6_apply]
  unfold Cert.Spec.EdgeIn.wA
  rw [← a0_apply V0 e, ← a1_apply V0 e]
  rfl
theorem v40_apply (e : Fin 4000000) : (res_main_v40 V0 : S4000000.Idx → EReal) (ix1 e) = (edgeR V0 e).tA := by
  unfold res_main_v40
  simp only [hostNegf_apply]
  unfold Cert.Spec.EdgeIn.tA
  rw [← a2_apply V0 e]
  rfl
theorem v55_apply (e : Fin 4000000) : (res_main_v55 V0 : S4000000.Idx → EReal) (ix1 e) = (edgeR V0 e).wB := by
  unfold res_main_v55
  simp only [addf_apply, mulf_apply, hostNegf_apply, v8_apply, v6_apply]
  unfold Cert.Spec.EdgeIn.wB
  rw [← b0_apply V0 e, ← b1_apply V0 e]
  rfl
theorem v58_apply (e : Fin 4000000) : (res_main_v58 V0 : S4000000.Idx → EReal) (ix1 e) = (edgeR V0 e).tB := by
  unfold res_main_v58
  simp only [hostNegf_apply]
  unfold Cert.Spec.EdgeIn.tB
  rw [← b2_apply V0 e]
  rfl

/-! ## The bending stiffness and its quotients -/

theorem v60_apply (e : Fin 4000000) : (res_main_v60 V0 : S4000000.Idx → EReal) (ix1 e) = (edgeR V0 e).E * (edgeR V0 e).I := by
  rfl
theorem v62_apply (e : Fin 4000000) : (res_main_v62 V0 : S4000000.Idx → EReal) (ix1 e) = (edgeR V0 e).eil := by
  unfold res_main_v62
  simp only [hostDivf_apply, v60_apply]
  rfl
theorem v64_apply (e : Fin 4000000) : (res_main_v64 V0 : S4000000.Idx → EReal) (ix1 e) = (edgeR V0 e).eil2 := by
  unfold res_main_v64
  simp only [hostDivf_apply, mulf_apply, v60_apply]
  rfl

/-! ## The local end forces -/

theorem v71_apply (e : Fin 4000000) : (res_main_v71 V0 : S4000000.Idx → EReal) (ix1 e) = (edgeR V0 e).f0 := by
  unfold res_main_v71
  simp only [addf_apply, subf_apply, mulf_apply, hostDivf_apply, broadcastInDim_scalar_apply, constant_apply, v8_apply, v6_apply]
  unfold Cert.Spec.EdgeIn.f0 Cert.Spec.EdgeIn.eal Cert.Spec.EdgeIn.uA Cert.Spec.EdgeIn.uB
  rw [← a0_apply V0 e, ← a1_apply V0 e, ← b0_apply V0 e, ← b1_apply V0 e]
  rfl
theorem v80_apply (e : Fin 4000000) : (res_main_v80 V0 : S4000000.Idx → EReal) (ix1 e) = (edgeR V0 e).f1 := by
  unfold res_main_v80
  simp only [addf_apply, subf_apply, mulf_apply, hostDivf_apply, broadcastInDim_scalar_apply, constant_apply, v60_apply, v37_apply, v55_apply, v64_apply, v40_apply, v58_apply]
  rfl
theorem v93_apply (e : Fin 4000000) : (res_main_v93 V0 : S4000000.Idx → EReal) (ix1 e) = (edgeR V0 e).f3 := by
  unfold res_main_v93
  simp only [hostNegf_apply, v71_apply]
  rfl
theorem v94_apply (e : Fin 4000000) : (res_main_v94 V0 : S4000000.Idx → EReal) (ix1 e) = (edgeR V0 e).f4 := by
  unfold res_main_v94
  simp only [hostNegf_apply, v80_apply]
  rfl

end Cert.ReferenceIdeal.Hand

end
-- ==== Proof.RefVal.lean ====
/-
  The reference's internal force, named.

  The reference's masked scaled residual is (internal force − external force) · mask · (scale · scale). The internal
  force is, from zero, the end-A force array added up at the elements' end-A nodes and then the end-B force array at the
  end-B nodes; each force array is three [4000000, 1] columns laid side by side. Here these pieces get names, and the
  residual is restated over them.

  First, reading lemmas at any element type: three [n, 1] columns laid side by side along axis 1 read at (e, j) give
  column j at (e, 0); a length-n array made an [n, 1] column read at (e, 0) gives the array at e.
-/
import proofs.«406654_j12146167513818_3_alg».proof.Proof.Gen.ReferenceIdeal.Run
import proofs.«406654_j12146167513818_3_alg».proof.Proof.Spec
import Idealize.ShloMosaic.Lib.ValueLayout
import Idealize.ShloMosaic.Lib.IdealHost
import Idealize.ShloMosaic.Lib.Pipeline.Value

set_option maxRecDepth 8192

noncomputable section

namespace Cert.ReferenceIdeal.Hand

open Cert.ReferenceIdeal Cert.ReferenceIdeal.Gen Cert.ReferenceIdeal.Value Idealize.ShloMosaic Idealize.ShloMosaic.ValueIdx

section general
variable {α : Type}

/-- Three [n, 1] columns laid side by side along axis 1, read at (e, 0): column 0 at (e, 0). -/
theorem cat3_col0 {n : Nat} (u0 u1 u2 : (⟨2, ![n, 1]⟩ : Shape).Idx → α)
    (h : Shape.Concatenates (([⟨⟨2, ![n, 1]⟩, u0⟩, ⟨⟨2, ![n, 1]⟩, u1⟩, ⟨⟨2, ![n, 1]⟩, u2⟩] : List ((s : Shape) × (s.Idx → α))).map (·.1)) ⟨2, ![n, 3]⟩ 1)
    (e : Fin n) :
    concatenate ⟨2, ![n, 3]⟩ 1 [⟨⟨2, ![n, 1]⟩, u0⟩, ⟨⟨2, ![n, 1]⟩, u1⟩, ⟨⟨2, ![n, 1]⟩, u2⟩] h (ix2 e (0 : Fin 3)) = u0 (ix2 e (0 : Fin 1)) := by
  refine concatenate_apply_piece (t := ⟨2, ![n, 3]⟩) (1 : Fin 2)
    [⟨⟨2, ![n, 1]⟩, u0⟩, ⟨⟨2, ![n, 1]⟩, u1⟩, ⟨⟨2, ![n, 1]⟩, u2⟩] h (ix2 e (0 : Fin 3)) 0 (show _ < 3 by omega)
    ⟨2, ![n, 1]⟩ u0 rfl rfl 0 rfl (ix2 e (0 : Fin 1)) ?_ rfl
  intro b hb
  match b, hb with
  | ⟨0, _⟩, _ => rfl
  | ⟨1, _⟩, hb => exact absurd rfl hb

/-- Three [n, 1] columns laid side by side along axis 1, read at (e, 1): column 1 at (e, 0). -/
theorem cat3_col1 {n : Nat} (u0 u1 u2 : (⟨2, ![n, 1]⟩ : Shape).Idx → α)
    (h : Shape.Concatenates (([⟨⟨2, ![n, 1]⟩, u0⟩, ⟨⟨2, ![n, 1]⟩, u1⟩, ⟨⟨2, ![n, 1]⟩, u2⟩] : List ((s : Shape) × (s.Idx → α))).map (·.1)) ⟨2, ![n, 3]⟩ 1)
    (e : Fin n) :
    concatenate ⟨2, ![n, 3]⟩ 1 [⟨⟨2, ![n, 1]⟩, u0⟩, ⟨⟨2, ![n, 1]⟩, u1⟩, ⟨⟨2, ![n, 1]⟩, u2⟩] h (ix2 e (1 : Fin 3)) = u1 (ix2 e (0 : Fin 1)) := by
  refine concatenate_apply_piece (t := ⟨2, ![n, 3]⟩) (1 : Fin 2)
    [⟨⟨2, ![n, 1]⟩, u0⟩, ⟨⟨2, ![n, 1]⟩, u1⟩, ⟨⟨2, ![n, 1]⟩, u2⟩] h (ix2 e (1 : Fin 3)) 1 (show _ < 3 by omega)
    ⟨2, ![n, 1]⟩ u1 rfl rfl 1 rfl (ix2 e (0 : Fin 1)) ?_ rfl
  intro b hb
  match b, hb with
  | ⟨0, _⟩, _ => rfl
  | ⟨1, _⟩, hb => exact absurd rfl hb

/-- Three [n, 1] columns laid side by side along axis 1, read at (e, 2): column 2 at (e, 0). -/
theorem cat3_col2 {n : Nat} (u0 u1 u2 : (⟨2, ![n, 1]⟩ : Shape).Idx → α)
    (h : Shape.Concatenates (([⟨⟨2, ![n, 1]⟩, u0⟩, ⟨⟨2, ![n, 1]⟩, u1⟩, ⟨⟨2, ![n, 1]⟩, u2⟩] : List ((s : Shape) × (s.Idx → α))).map (·.1)) ⟨2, ![n, 3]⟩ 1)
    (e : Fin n) :
    concatenate ⟨2, ![n, 3]⟩ 1 [⟨⟨2, ![n, 1]⟩, u0⟩, ⟨⟨2, ![n, 1]⟩, u1⟩, ⟨⟨2, ![n, 1]⟩, u2⟩] h (ix2 e (2 : Fin 3)) = u2 (ix2 e (0 : Fin 1)) := by
  refine concatenate_apply_piece (t := ⟨2, ![n, 3]⟩) (1 : Fin 2)
    [⟨⟨2, ![n, 1]⟩, u0⟩, ⟨⟨2, ![n, 1]⟩, u1⟩, ⟨⟨2, ![n, 1]⟩, u2⟩] h (ix2 e (2 : Fin 3)) 2 (show _ < 3 by omega)
    ⟨2, ![n, 1]⟩ u2 rfl rfl 2 rfl (ix2 e (0 : Fin 1)) ?_ rfl
  intro b hb
  match b, hb with
  | ⟨0, _⟩, _ => rfl
  | ⟨1, _⟩, hb => exact absurd rfl hb

/-- A length-n array made an [n, 1] column, read at (e, 0): the array at e. -/
theorem bcast_col_apply {n : Nat} (x : (⟨1, ![n]⟩ : Shape).Idx → α)
    (h : (⟨1, ![n]⟩ : Shape).BroadcastsInDim ⟨2, ![n, 1]⟩ (![0] : Fin 1 → Fin 2)) (e : Fin n) :
    broadcastInDim ⟨2, ![n, 1]⟩ ![0] h x (ix2 e (0 : Fin 1)) = x (ix1 e) := by
  refine broadcastInDim_apply _ h x _ (ix1 e) ?_
  intro a
  match a with
  | ⟨0, _⟩ =>
    show e.val = if n = 1 then 0 else e.val
    split
    · have := e.isLt; omega
    · rfl

end general

variable (V0 : Valuation τ sig (Elt Ideal))

/-- The end forces at end A, an array [4000000, 3]: the three-column array the first scatter-add of the reference adds up. -/
def fAR : FVec Ideal S4000000x3 .f32 :=
  concatenate S4000000x3 1 [⟨S4000000x1, (broadcastInDim S4000000x1 ![0] bcast_S4000000_S4000000x1_0 (subf (mulf (res_main_v6 V0) (res_main_v71 V0)) (mulf (res_main_v8 V0) (res_main_v80 V0))))⟩, ⟨S4000000x1, (broadcastInDim S4000000x1 ![0] bcast_S4000000_S4000000x1_0 (addf (mulf (res_main_v8 V0) (res_main_v71 V0)) (mulf (res_main_v6 V0) (res_main_v80 V0))))⟩, ⟨S4000000x1, (broadcastInDim S4000000x1 ![0] bcast_S4000000_S4000000x1_0 (Host.negf (addf (addf (mulf (mulf (broadcastInDim S4000000 ![] bcast_S_S4000000 (constant S_ .f32 0x40C00000#32)) (res_main_v64 V0)) (subf (res_main_v37 V0) (res_main_v55 V0))) (mulf (mulf (broadcastInDim S4000000 ![] bcast_S_S4000000 (constant S_ .f32 0x40800000#32)) (res_main_v62 V0)) (res_main_v40 V0))) (mulf (mulf (broadcastInDim S4000000 ![] bcast_S_S4000000 (constant S_ .f32 0x40000000#32)) (res_main_v62 V0)) (res_main_v58 V0)))))⟩] concatenates_S4000000x1_S4000000x1_S4000000x1_S4000000x3_d1

/-- The end forces at end B, an array [4000000, 3]: the three-column array the second scatter-add adds up. -/
def fBR : FVec Ideal S4000000x3 .f32 :=
  concatenate S4000000x3 1 [⟨S4000000x1, (broadcastInDim S4000000x1 ![0] bcast_S4000000_S4000000x1_0 (subf (mulf (res_main_v6 V0) (res_main_v93 V0)) (mulf (res_main_v8 V0) (res_main_v94 V0))))⟩, ⟨S4000000x1, (broadcastInDim S4000000x1 ![0] bcast_S4000000_S4000000x1_0 (addf (mulf (res_main_v8 V0) (res_main_v93 V0)) (mulf (res_main_v6 V0) (res_main_v94 V0))))⟩, ⟨S4000000x1, (broadcastInDim S4000000x1 ![0] bcast_S4000000_S4000000x1_0 (Host.negf (addf (addf (mulf (mulf (broadcastInDim S4000000 ![] bcast_S_S4000000 (constant S_ .f32 0x40C00000#32)) (res_main_v64 V0)) (subf (res_main_v37 V0) (res_main_v55 V0))) (mulf (mulf (broadcastInDim S4000000 ![] bcast_S_S4000000 (constant S_ .f32 0x40000000#32)) (res_main_v62 V0)) (res_main_v40 V0))) (mulf (mulf (broadcastInDim S4000000 ![] bcast_S_S4000000 (constant S_ .f32 0x40800000#32)) (res_main_v62 V0)) (res_main_v58 V0)))))⟩] concatenates_S4000000x1_S4000000x1_S4000000x1_S4000000x3_d1

/-- The node of end A of each element, as the [4000000, 1] column of wrapped indices the first scatter-add takes. -/
def idxAR : IVec S4000000x1 32 :=
  broadcastInDim S4000000x1 ![0] bcast_S4000000_S4000000x1_0 (select (cmpi .slt (res_main_v1 V0) (broadcastInDim S4000000 ![] bcast_S_S4000000 (constantI S_ 32 0#32))) (addi (res_main_v1 V0) (broadcastInDim S4000000 ![] bcast_S_S4000000 (constantI S_ 32 2000000#32))) (res_main_v1 V0))

/-- The node of end B of each element, as the [4000000, 1] column of wrapped indices the second scatter-add takes. -/
def idxBR : IVec S4000000x1 32 :=
  broadcastInDim S4000000x1 ![0] bcast_S4000000_S4000000x1_0 (select (cmpi .slt (res_main_v3 V0) (broadcastInDim S4000000 ![] bcast_S_S4000000 (constantI S_ 32 0#32))) (addi (res_main_v3 V0) (broadcastInDim S4000000 ![] bcast_S_S4000000 (constantI S_ 32 2000000#32))) (res_main_v3 V0))

/-- The internal force [2000000, 3]: from zero, the end-A forces added at the end-A nodes, then the end-B forces at the end-B nodes. -/
def FintR : FVec Ideal S2000000x3 .f32 :=
  Host.scatterAdd scatter_S2000000x3_S4000000x1_S4000000x3_1_0_0_1 (Host.scatterAdd scatter_S2000000x3_S4000000x1_S4000000x3_1_0_0_1 (broadcastInDim S2000000x3 ![] bcast_S_S2000000x3 (constant (F := Ideal) S_ .f32 0x00000000#32)) (idxAR V0) (fAR V0)) (idxBR V0) (fBR V0)

/-- The masked scaled residual is (internal force − external force) · mask · (scale · scale), grouped so. -/
theorem v152_eq : res_main_v152 V0 = mulf (mulf (subf (FintR V0) (V0 (Proc.devRef .tc main_arg8))) (res_main_v149 V0)) (mulf (V0 (Proc.devRef .tc main_arg1)) (V0 (Proc.devRef .tc main_arg1))) := rfl

end Cert.ReferenceIdeal.Hand

end
-- ==== Proof.RefForce.lean ====
/-
  The reference's two end-force arrays read at one element.

  Each is three [4000000, 1] columns laid side by side; column j at element e is an arithmetic expression in the
  reference's per-element intermediates at e, which are the specification's quantities of that element. So the arrays
  at (e, j) are the specification's global end forces of element e, component j.
-/
import proofs.«406654_j12146167513818_3_alg».proof.Proof.Gen.ReferenceIdeal.Run
import proofs.«406654_j12146167513818_3_alg».proof.Proof.Spec
import proofs.«406654_j12146167513818_3_alg».proof.Proof.RefVal
import proofs.«406654_j12146167513818_3_alg».proof.Proof.RefEdge
import Idealize.ShloMosaic.Lib.ValueLayout
import Idealize.ShloMosaic.Lib.IdealHost
import Idealize.ShloMosaic.Lib.Pipeline.Value

set_option maxRecDepth 8192

noncomputable section

namespace Cert.ReferenceIdeal.Hand

open Cert.ReferenceIdeal Cert.ReferenceIdeal.Gen Cert.ReferenceIdeal.Value Idealize.ShloMosaic Idealize.ShloMosaic.ValueIdx

variable (V0 : Valuation τ sig (Elt Ideal))

/-- The end-A force array at (e, j) is the specification's global end-A force of element e, component j:
    the local forces f0, f1 rotated by (c, s) for j = 0, 1, and minus the end-A moment for j = 2. -/
theorem fAR_apply (e : Fin 4000000) (j : Fin 3) : fAR V0 (ix2 e j) = Cert.Spec.eA (edgeR V0 e) j := by
  -- the host's negation at an index is the negative
  have hneg : ∀ (a : FVec Ideal S4000000 .f32) (i : S4000000.Idx), Host.negf a i = -(a i) := fun _ _ => rfl
  unfold fAR
  match j with
  | ⟨0, _⟩ =>
    refine (cat3_col0 _ _ _ _ e).trans ?_
    refine (bcast_col_apply _ _ e).trans ?_
    simp only [hneg, addf_apply, subf_apply, mulf_apply, broadcastInDim_scalar_apply, constant_apply, v6_apply, v8_apply, v71_apply, v80_apply]
    rfl
  | ⟨1, _⟩ =>
    refine (cat3_col1 _ _ _ _ e).trans ?_
    refine (bcast_col_apply _ _ e).trans ?_
    simp only [hneg, addf_apply, subf_apply, mulf_apply, broadcastInDim_scalar_apply, constant_apply, v6_apply, v8_apply, v71_apply, v80_apply]
    rfl
  | ⟨2, _⟩ =>
    refine (cat3_col2 _ _ _ _ e).trans ?_
    refine (bcast_col_apply _ _ e).trans ?_
    simp only [hneg, addf_apply, subf_apply, mulf_apply, broadcastInDim_scalar_apply, constant_apply, v37_apply, v40_apply, v55_apply, v58_apply, v62_apply, v64_apply]
    rfl

/-- The end-B force array at (e, j) is the specification's global end-B force of element e, component j:
    the local forces f3 = −f0, f4 = −f1 rotated by (c, s) for j = 0, 1, and minus the end-B moment for j = 2. -/
theorem fBR_apply (e : Fin 4000000) (j : Fin 3) : fBR V0 (ix2 e j) = Cert.Spec.eB (edgeR V0 e) j := by
  -- the host's negation at an index is the negative
  have hneg : ∀ (a : FVec Ideal S4000000 .f32) (i : S4000000.Idx), Host.negf a i = -(a i) := fun _ _ => rfl
  unfold fBR
  match j with
  | ⟨0, _⟩ =>
    refine (cat3_col0 _ _ _ _ e).trans ?_
    refine (bcast_col_apply _ _ e).trans ?_
    simp only [hneg, addf_apply, subf_apply, mulf_apply, broadcastInDim_scalar_apply, constant_apply, v6_apply, v8_apply, v93_apply, v94_apply]
    rfl
  | ⟨1, _⟩ =>
    refine (cat3_col1 _ _ _ _ e).trans ?_
    refine (bcast_col_apply _ _ e).trans ?_
    simp only [hneg, addf_apply, subf_apply, mulf_apply, broadcastInDim_scalar_apply, constant_apply, v6_apply, v8_apply, v93_apply, v94_apply]
    rfl
  | ⟨2, _⟩ =>
    refine (cat3_col2 _ _ _ _ e).trans ?_
    refine (bcast_col_apply _ _ e).trans ?_
    simp only [hneg, addf_apply, subf_apply, mulf_apply, broadcastInDim_scalar_apply, constant_apply, v37_apply, v40_apply, v55_apply, v58_apply, v62_apply, v64_apply]
    rfl

end Cert.ReferenceIdeal.Hand

end
-- ==== Proof.RefLoss.lean ====
/-
  The reference's result as the specification's loss.

  The reference ends with (the sum over all (n, j) of the squared masked scaled residual) divided by
  max(the sum over all (n, j) of the mask, 1). The residual is (internal force − external force) · mask · (scale · scale),
  the mask three columns 1 − flag laid side by side: 1 − the displacement flag twice, then 1 − the rotation flag. A total
  sum over a [2000000, 3] index set is the double sum over node and component; one term of the numerator is read for any
  four arrays and then taken at the reference's. Read index by index, the quotient is the specification's loss of the
  internal force, the external force, the scale and the two rows of flags.
-/
import proofs.«406654_j12146167513818_3_alg».proof.Proof.Gen.ReferenceIdeal.Run
import proofs.«406654_j12146167513818_3_alg».proof.Proof.Spec
import proofs.«406654_j12146167513818_3_alg».proof.Proof.RefVal
import Idealize.ShloMosaic.Lib.ValueLayout
import Idealize.ShloMosaic.Lib.IdealHost
import Idealize.ShloMosaic.Lib.Pipeline.Value

set_option maxRecDepth 8192

noncomputable section

namespace Cert.ReferenceIdeal.Hand

open Cert.ReferenceIdeal Cert.ReferenceIdeal.Gen Cert.ReferenceIdeal.Value Idealize.ShloMosaic Idealize.ShloMosaic.ValueIdx

variable (V0 : Valuation τ sig (Elt Ideal))

/-- The two rows of boundary flags: row 0 the displacement flags, row 1 the rotation flags. -/
def bcR (r : Fin 2) (n : Fin 2000000) : EReal :=
  match r with
  | ⟨0, _⟩ => (V0 (Proc.devRef .tc main_arg9) : S2000000x1.Idx → EReal) (ix2 n 0)
  | ⟨1, _⟩ => (V0 (Proc.devRef .tc main_arg10) : S2000000x1.Idx → EReal) (ix2 n 0)

/-- One minus a flag column, read at (n, 0). -/
theorem one_sub_flag_apply (x : FVec Ideal S2000000x1 .f32) (n : Fin 2000000) :
    (subf (broadcastInDim S2000000x1 ![] bcast_S_S2000000x1 (constant (F := Ideal) S_ .f32 0x3F800000#32)) x : S2000000x1.Idx → EReal) (ix2 n 0)
      = Cert.Spec.k1 - x (ix2 n 0) := by
  rw [subf_apply, broadcastInDim_scalar_apply, constant_apply]

/-- The mask at (n, j) is the specification's: 1 − the displacement flag for j = 0, 1 and 1 − the rotation flag for j = 2. -/
theorem v149_apply (n : Fin 2000000) (j : Fin 3) :
    (res_main_v149 V0 : S2000000x3.Idx → EReal) (ix2 n j) = Cert.Spec.maskT (bcR V0) j n := by
  unfold res_main_v149
  match j with
  | ⟨0, _⟩ => exact (cat3_col0 _ _ _ _ n).trans (one_sub_flag_apply _ n)
  | ⟨1, _⟩ => exact (cat3_col1 _ _ _ _ n).trans (one_sub_flag_apply _ n)
  | ⟨2, _⟩ => exact (cat3_col2 _ _ _ _ n).trans (one_sub_flag_apply _ n)

/-- The quotient of two total sums the reference ends with, read at its one index: for a residual array X and a mask array M
    of shape [2000000, 3], (0 + the sum of X·X over all indices) / max(0 + the sum of M over all indices, 1), the sums
    written as double sums over node and component. -/
theorem loss_read (X M : FVec Ideal S2000000x3 .f32) (hr : S2000000x3.ReducesTo [0, 1] S_) (hu : 0 < S_.numel) (i : S_.Idx) :
    (Host.divf (Host.reduceAdd (mulf X X) (constant (F := Ideal) S_ .f32 0x00000000#32) hr hu)
        (maximumf (Host.reduceAdd M (constant (F := Ideal) S_ .f32 0x00000000#32) hr hu) (constant (F := Ideal) S_ .f32 0x3F800000#32)) : S_.Idx → EReal) i
      = Ideal.div (∑ n : Fin 2000000, ∑ j : Fin 3, X (ix2 n j) * X (ix2 n j)) (max (∑ n : Fin 2000000, ∑ j : Fin 3, M (ix2 n j)) Cert.Spec.k1) := by
  have hsum : ∀ f : S2000000x3.Idx → EReal, ∑ k, f k = ∑ n : Fin 2000000, ∑ j : Fin 3, f (ix2 n j) := fun f => sum_idx2 f
  rw [hostDivf_apply, maximumf_apply, constant_apply, hostReduceAdd_apply, hostReduceAdd_apply,
    Ideal.hostReduceAdd_total _ (fun b => b.elim0), Ideal.hostReduceAdd_total _ (fun b => b.elim0), constant_apply,
    Ideal.ofBits_zero_f32, zero_add, zero_add, hsum, hsum]
  rfl

/-- One term of the loss's numerator, for any arrays: if the residual is (Fi − Fe) · Mk · (J · J) and the mask Mk at (n, j) is the
    specification's mask, the residual squared at (n, j) is the specification's squared masked scaled residual. -/
theorem sq_point (Fi Fe Mk J : FVec Ideal S2000000x3 .f32) (bc : Fin 2 → Fin 2000000 → EReal) (n : Fin 2000000) (j : Fin 3)
    (hM : Mk (ix2 n j) = Cert.Spec.maskT bc j n) :
    (mulf (mulf (subf Fi Fe) Mk) (mulf J J) : S2000000x3.Idx → EReal) (ix2 n j) * (mulf (mulf (subf Fi Fe) Mk) (mulf J J) : S2000000x3.Idx → EReal) (ix2 n j)
      = Cert.Spec.sqT (fun j n => Fi (ix2 n j)) (fun j n => Fe (ix2 n j)) (fun j n => J (ix2 n j)) bc j n := by
  simp only [mulf_apply, subf_apply, hM]
  rfl

/-- The reference's result is the specification's loss of the internal force, the external force, the scale and the flags. -/
theorem ref_result :
    (Host.divf (Host.reduceAdd (mulf (res_main_v152 V0) (res_main_v152 V0)) (constant (F := Ideal) S_ .f32 0x00000000#32) reducesTo_S2000000x3_S_d0_1 h_S_) (maximumf (Host.reduceAdd (res_main_v149 V0) (constant (F := Ideal) S_ .f32 0x00000000#32) reducesTo_S2000000x3_S_d0_1 h_S_) (constant (F := Ideal) S_ .f32 0x3F800000#32)) : S_.Idx → EReal)
    = fun _ => Cert.Spec.loss (fun j n => FintR V0 (ix2 n j)) (fun j n => (V0 (Proc.devRef .tc main_arg8) : S2000000x3.Idx → EReal) (ix2 n j)) (fun j n => (V0 (Proc.devRef .tc main_arg1) : S2000000x3.Idx → EReal) (ix2 n j)) (bcR V0) := by
  funext i
  refine (loss_read (res_main_v152 V0) (res_main_v149 V0) _ _ i).trans ?_
  unfold Cert.Spec.loss
  refine congrArg₂ Ideal.div ?_ (congrArg₂ max ?_ rfl)
  · refine Finset.sum_congr rfl fun n _ => Finset.sum_congr rfl fun j _ => ?_
    rw [v152_eq]
    exact sq_point (FintR V0) (V0 (Proc.devRef .tc main_arg8)) (res_main_v149 V0) (V0 (Proc.devRef .tc main_arg1)) (bcR V0) n j (v149_apply V0 n j)
  · exact Finset.sum_congr rfl fun n _ => Finset.sum_congr rfl fun j _ => v149_apply V0 n j

end Cert.ReferenceIdeal.Hand

end
-- ==== Proof.Agree.lean ====
/-
  The reference's index columns and gathered displacements are the kernel program's.

  Both programs take the two columns of the index input (a slice, then a reshape to rank 1), wrap a negative index by adding
  the table's row count, make the wrapped indices a column, and gather rows of the scaled displacement table (the elementwise
  product of the first two inputs) at it. The reference computes these from its own launch memory; where that memory agrees
  with the kernel program's on the arguments, its terms are the kernel program's terms: after the arguments are rewritten the
  two sides are the same operations at the same shapes (each program names the same shape literals and proves the same shape
  facts for itself), so they are equal by definition.
-/
import proofs.«406654_j12146167513818_3_alg».proof.Proof.KIPre
import proofs.«406654_j12146167513818_3_alg».proof.Proof.Gen.ReferenceIdeal.Run
import proofs.«406654_j12146167513818_3_alg».proof.Defs

noncomputable section

namespace Cert.Bridge

open Idealize.ShloMosaic Idealize.ShloMosaic.TcCoe Idealize.SL.Sem
open Cert.KernelIdeal Cert.KernelIdeal.Hand

variable [Cert.KernelIdeal.Facts] [Cert.ReferenceIdeal.Facts]
  (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The reference's gathered displacements at the first ends are the kernel program's gather of the scaled table at the wrapped
    first column. -/
theorem gatherA_eq
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2)) :
    @Eq (FVec Ideal S4000000x3 .f32)
      (Cert.ReferenceIdeal.Value.res_main_v15 (F := Ideal) (StableHlo.launchContents m' c))
      (Host.gather gather_S2000000x3_S4000000x1_S4000000x3_1_0_n_n_0_1_13
          (mulf (m ((c.tc : Thread nD τ).loc main_arg0) : FVec Ideal S2000000x3 .f32) (m ((c.tc : Thread nD τ).loc main_arg1) : FVec Ideal S2000000x3 .f32))
          (wrapCol (conCol0 (m ((c.tc : Thread nD τ).loc main_arg2) : IVec S4000000x2 32)))) := by
  have e0 : StableHlo.launchContents m' c (Proc.devRef .tc Cert.ReferenceIdeal.main_arg0) = m ((c.tc : Thread nD τ).loc main_arg0) := h0
  have e1 : StableHlo.launchContents m' c (Proc.devRef .tc Cert.ReferenceIdeal.main_arg1) = m ((c.tc : Thread nD τ).loc main_arg1) := h1
  have e2 : StableHlo.launchContents m' c (Proc.devRef .tc Cert.ReferenceIdeal.main_arg2) = m ((c.tc : Thread nD τ).loc main_arg2) := h2
  unfold Cert.ReferenceIdeal.Value.res_main_v15 Cert.ReferenceIdeal.Value.res_main_v4 Cert.ReferenceIdeal.Value.res_main_v1
  rw [e0, e1, e2]
  unfold wrapCol conCol0
  generalize m ((c.tc : Thread nD τ).loc main_arg0) = a0
  generalize m ((c.tc : Thread nD τ).loc main_arg1) = a1
  generalize m ((c.tc : Thread nD τ).loc main_arg2) = a2
  rfl

/-- The same at the second ends, with the second column. -/
theorem gatherB_eq
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2)) :
    @Eq (FVec Ideal S4000000x3 .f32)
      (Cert.ReferenceIdeal.Value.res_main_v22 (F := Ideal) (StableHlo.launchContents m' c))
      (Host.gather gather_S2000000x3_S4000000x1_S4000000x3_1_0_n_n_0_1_13
          (mulf (m ((c.tc : Thread nD τ).loc main_arg0) : FVec Ideal S2000000x3 .f32) (m ((c.tc : Thread nD τ).loc main_arg1) : FVec Ideal S2000000x3 .f32))
          (wrapCol (conCol1 (m ((c.tc : Thread nD τ).loc main_arg2) : IVec S4000000x2 32)))) := by
  have e0 : StableHlo.launchContents m' c (Proc.devRef .tc Cert.ReferenceIdeal.main_arg0) = m ((c.tc : Thread nD τ).loc main_arg0) := h0
  have e1 : StableHlo.launchContents m' c (Proc.devRef .tc Cert.ReferenceIdeal.main_arg1) = m ((c.tc : Thread nD τ).loc main_arg1) := h1
  have e2 : StableHlo.launchContents m' c (Proc.devRef .tc Cert.ReferenceIdeal.main_arg2) = m ((c.tc : Thread nD τ).loc main_arg2) := h2
  unfold Cert.ReferenceIdeal.Value.res_main_v22 Cert.ReferenceIdeal.Value.res_main_v4 Cert.ReferenceIdeal.Value.res_main_v3
  rw [e0, e1, e2]
  unfold wrapCol conCol1
  generalize m ((c.tc : Thread nD τ).loc main_arg0) = a0
  generalize m ((c.tc : Thread nD τ).loc main_arg1) = a1
  generalize m ((c.tc : Thread nD τ).loc main_arg2) = a2
  rfl

/-- The index column the reference's first scatter-add takes is the wrapped first column. -/
theorem idxA_eq
    (h2 : m' ((c.tc : Thread Cert.ReferenceIdeal.nD Cert.ReferenceIdeal.τ).loc Cert.ReferenceIdeal.main_arg2) = m ((c.tc : Thread nD τ).loc main_arg2)) :
    @Eq (IVec S4000000x1 32)
      (broadcastInDim Cert.ReferenceIdeal.S4000000x1 ![0] Cert.ReferenceIdeal.Gen.bcast_S4000000_S4000000x1_0
        (select (cmpi .slt (Cert.ReferenceIdeal.Value.res_main_v1 (F := Ideal) (StableHlo.launchContents m' c)) (broadcastInDim Cert.ReferenceIdeal.S4000000 ![] Cert.ReferenceIdeal.Gen.bcast_S_S4000000 (constantI Cert.ReferenceIdeal.S_ 32 0#32)))
          (addi (Cert.ReferenceIdeal.Value.res_main_v1 (F := Ideal) (StableHlo.launchContents m' c)) (broadcastInDim Cert.ReferenceIdeal.S4000000 ![] Cert.ReferenceIdeal.Gen.bcast_S_S4000000 (constantI Cert.ReferenceIdeal.S_ 32 2000000#32)))
          (Cert.ReferenceIdeal.Value.res_main_v1 (F := Ideal) (StableHlo.launchContents m' c))))
      (wrapCol (conCol0 (m ((c.tc : Thread nD τ).loc main_arg2) : IVec S4000000x2 32))) := by
  have e2 : StableHlo.launchContents m' c (Proc.devRef .tc Cert.ReferenceIdeal.main_arg2) = m ((c.tc : Thread nD τ).loc main_arg2) := h2
  unfold Cert.ReferenceIdeal.Value.res_main_v1
  rw [e2]
  unfold wrapCol conCol0
  generalize m ((c.tc : Thread nD τ).loc main_arg2) = a2
  rfl

/-- The index column its second scatter-add takes is the wrapped second column. -/
theorem idxB_eq
    (h2 : m' ((c.tc : Thread Cert.ReferenceIdeal.nD Cert.ReferenceIdeal.τ).loc Cert.ReferenceIdeal.main_arg2) = m ((c.tc : Thread nD τ).loc main_arg2)) :
    @Eq (IVec S4000000x1 32)
      (broadcastInDim Cert.ReferenceIdeal.S4000000x1 ![0] Cert.ReferenceIdeal.Gen.bcast_S4000000_S4000000x1_0
        (select (cmpi .slt (Cert.ReferenceIdeal.Value.res_main_v3 (F := Ideal) (StableHlo.launchContents m' c)) (broadcastInDim Cert.ReferenceIdeal.S4000000 ![] Cert.ReferenceIdeal.Gen.bcast_S_S4000000 (constantI Cert.ReferenceIdeal.S_ 32 0#32)))
          (addi (Cert.ReferenceIdeal.Value.res_main_v3 (F := Ideal) (StableHlo.launchContents m' c)) (broadcastInDim Cert.ReferenceIdeal.S4000000 ![] Cert.ReferenceIdeal.Gen.bcast_S_S4000000 (constantI Cert.ReferenceIdeal.S_ 32 2000000#32)))
          (Cert.ReferenceIdeal.Value.res_main_v3 (F := Ideal) (StableHlo.launchContents m' c))))
      (wrapCol (conCol1 (m ((c.tc : Thread nD τ).loc main_arg2) : IVec S4000000x2 32))) := by
  have e2 : StableHlo.launchContents m' c (Proc.devRef .tc Cert.ReferenceIdeal.main_arg2) = m ((c.tc : Thread nD τ).loc main_arg2) := h2
  unfold Cert.ReferenceIdeal.Value.res_main_v3
  rw [e2]
  unfold wrapCol conCol1
  generalize m ((c.tc : Thread nD τ).loc main_arg2) = a2
  rfl

end Cert.Bridge

end
-- ==== Proof.LibBlockSum.lean ====
/-
  A sum over an initial segment of the naturals cut into consecutive blocks of one length: with N = T · L, the sum over
  n < N of g n is the sum over the blocks t < T of the sums over the places l < L of g (t · L + l). Over any commutative
  additive monoid: every n < T · L is t · L + l for exactly one pair (t, l) (division with remainder).
-/
import Mathlib.Logic.Equiv.Fin.Basic
import Mathlib.Data.Fintype.BigOperators
import Mathlib.Algebra.BigOperators.Group.Finset.Defs

namespace Cert.Lib

/-- The sum over `Fin N`, `N = T * L`, taken block by block: block `t` holds the indices `t * L + l` for `l < L`.
    The pairs (t, l) correspond one to one to the indices below `T * L` (`finProdFinEquiv`), and a sum over pairs is the
    iterated sum. -/
theorem sum_blocks {M : Type*} [AddCommMonoid M] {T L N : ℕ} (hN : T * L = N) (g : Fin N → M)
    (hb : ∀ (t : Fin T) (l : Fin L), t.val * L + l.val < N) :
    ∑ t : Fin T, ∑ l : Fin L, g ⟨t.val * L + l.val, hb t l⟩ = ∑ n : Fin N, g n := by
  subst hN
  rw [← (finProdFinEquiv (m := T) (n := L)).sum_comp g, Fintype.sum_prod_type]
  refine Finset.sum_congr rfl fun t _ => Finset.sum_congr rfl fun l _ => congrArg g (Fin.ext ?_)
  show t.val * L + l.val = l.val + L * t.val
  rw [Nat.mul_comm, Nat.add_comm]

/-- The same with a second, inner index carried along: the sum over n of the sums over j. -/
theorem sum_blocks₂ {M : Type*} [AddCommMonoid M] {T L N K : ℕ} (hN : T * L = N) (g : Fin K → Fin N → M)
    (hb : ∀ (t : Fin T) (l : Fin L), t.val * L + l.val < N) :
    ∑ t : Fin T, ∑ l : Fin L, ∑ j : Fin K, g j ⟨t.val * L + l.val, hb t l⟩ = ∑ n : Fin N, ∑ j : Fin K, g j n :=
  sum_blocks hN (fun n => ∑ j : Fin K, g j n) hb

end Cert.Lib
-- ==== Proof.KIVal1.lean ====
/-
  Region 1 (the masked residual sums) at the ideal values: what its two 1x1 outputs end holding.

  The grid has 25 points; point t loads the columns 80000·t … 80000·t + 79999 of the internal forces, the external forces and
  the Jacobi scale (three rows each: the two translations and the rotation of a node) and of the boundary flags (row 0 the
  displacement flags, row 1 the rotation flags). The block index of the two outputs never moves, so each is written back once,
  after the last point, and that block is the whole 1x1 array: the array ends holding the running sum after point 24
  (`Val1.arr1_4_eq`, `Val1.arr1_5_eq`). The running sum after point n is, at its one index, the sum over the points 0 … n of the
  points' partial sums, from the zero stored at point 0 (`Val1.acc4_apply`, `Val1.acc5_apply`: induction on n). A point's partial
  sum is the sum over the 80000 lanes of the sum over the three rows (the reduction over the rows, then the one over the lanes,
  `Val1.total_apply`) of the block's value at (j, l): the squared residual ((Fi − Fe) · mask · J²)² for the first output, the mask
  for the second; the mask block is three rows laid one under another, 1 − (flag row 0) twice and 1 − (flag row 1)
  (`Val1.pay4_row0` … `Val1.pay4_row2`), and block t at (j, l) is the array at (j, 80000·t + l) (`Val1.iblk1_0_apply` …). Over the
  extended reals addition is commutative and associative, so the sum over the points of the sums over the lanes is the sum over
  all 2000000 nodes: every n < 25 · 80000 is 80000·t + l for exactly one (t, l) (`Cert.Lib.sum_blocks₂`).

  `arr1_sumsq`: the first output is the sum over all node components of `Cert.Spec.sqT`; `arr1_nfree`: the second is the sum
  of `Cert.Spec.maskT`, the number of free components.
-/
import proofs.«406654_j12146167513818_3_alg».proof.Proof.KIDefs
import proofs.«406654_j12146167513818_3_alg».proof.Proof.Spec
import proofs.«406654_j12146167513818_3_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 8192

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The internal force at component j of node n, as region 1 finds it (the array is stored transposed: 3 x 2000000). -/
def FiK (c : Dev nD) (j : Fin 3) (n : Fin 2000000) : EReal := (V c main_v33 : S3x2000000.Idx → EReal) (ix2 j n)
/-- The external force at component j of node n. -/
def FeK (c : Dev nD) (j : Fin 3) (n : Fin 2000000) : EReal := (V c main_v34 : S3x2000000.Idx → EReal) (ix2 j n)
/-- The Jacobi scale at component j of node n. -/
def JK  (c : Dev nD) (j : Fin 3) (n : Fin 2000000) : EReal := (V c main_v35 : S3x2000000.Idx → EReal) (ix2 j n)
/-- The boundary flags of node n: row 0 the displacement flag, row 1 the rotation flag. -/
def bcK (c : Dev nD) (r : Fin 2) (n : Fin 2000000) : EReal := (V c main_v38 : S2x2000000.Idx → EReal) (ix2 r n)

namespace Val1

/-! ## The final arrays of the two outputs: what the last point leaves -/

/-- Point 24 is a point of the grid. -/
theorem lt24 : (24 : ℕ) < cfg1.N := by rw [show cfg1.N = 25 from N_1]; decide

/-- The last grid point. -/
abbrev tLast : Fin cfg1.N := ⟨24, lt24⟩

/-- Both coordinates of an index of a 1x1 array are 0. -/
theorem idx11_val (i : S1x1.Idx) (a : Fin 2) : (i a).val = 0 := by
  match a with
  | ⟨0, _⟩ => have : (i 0).val < 1 := (i 0).isLt; show (i 0).val = 0; omega
  | ⟨1, _⟩ => have : (i 1).val < 1 := (i 1).isLt; show (i 1).val = 0; omega

/-- A 1x1 array has one index. -/
theorem idx11_eq (i i' : S1x1.Idx) : i = i' :=
  funext fun a => Fin.ext ((idx11_val i a).trans (idx11_val i' a).symm)

/-- The first output's block index never moves, so its block is written back once, after the last point, and that block is
    the whole 1x1 array: the array ends holding what the last point left. -/
theorem arr1_4_eq (c : Dev nD) :
    ((dat1 (F := Ideal) V c).arrAt 4 cfg1.N : S1x1.Idx → EReal) = acc4 (F := Ideal) V c 24 lt24 := by
  refine (dat1 (F := Ideal) V c).arrAt_eq_of_cover 4 (acc4 (F := Ideal) V c 24 lt24) ?_ ?_
  · intro t hf
    have hN : cfg1.N = 25 := N_1
    have h24 : t.val = 24 := by have := (flush1_4 t).mp hf; have := t.isLt; omega
    obtain rfl : t = tLast := Fin.ext h24
    show (cfg1.win 4).cut (grid1.coords tLast) ((dat1 (F := Ideal) V c).after 4 tLast) = _
    rw [after1_4]
    funext y
    rw [View.read_apply]
    show acc4 (F := Ideal) V c 24 lt24 _ = acc4 (F := Ideal) V c 24 lt24 _
    exact congrArg _ (idx11_eq _ _)
  · intro i
    refine ⟨tLast, (flush1_4 tLast).mpr rfl, ?_⟩
    show i ∈ ((View.whole main_v39_0).slice (win1_4.rect tLast)).set
    rw [View.set_slice_whole, Rect.mem_set_unit]
    intro a
    rw [idx11_val i a]
    match a with
    | ⟨0, _⟩ => exact ⟨Nat.le_refl 0, Nat.one_pos⟩
    | ⟨1, _⟩ => exact ⟨Nat.le_refl 0, Nat.one_pos⟩

/-- The second output likewise. -/
theorem arr1_5_eq (c : Dev nD) :
    ((dat1 (F := Ideal) V c).arrAt 5 cfg1.N : S1x1.Idx → EReal) = acc5 (F := Ideal) V c 24 lt24 := by
  refine (dat1 (F := Ideal) V c).arrAt_eq_of_cover 5 (acc5 (F := Ideal) V c 24 lt24) ?_ ?_
  · intro t hf
    have hN : cfg1.N = 25 := N_1
    have h24 : t.val = 24 := by have := (flush1_5 t).mp hf; have := t.isLt; omega
    obtain rfl : t = tLast := Fin.ext h24
    show (cfg1.win 5).cut (grid1.coords tLast) ((dat1 (F := Ideal) V c).after 5 tLast) = _
    rw [after1_5]
    funext y
    rw [View.read_apply]
    show acc5 (F := Ideal) V c 24 lt24 _ = acc5 (F := Ideal) V c 24 lt24 _
    exact congrArg _ (idx11_eq _ _)
  · intro i
    refine ⟨tLast, (flush1_5 tLast).mpr rfl, ?_⟩
    show i ∈ ((View.whole main_v39_1).slice (win1_5.rect tLast)).set
    rw [View.set_slice_whole, Rect.mem_set_unit]
    intro a
    rw [idx11_val i a]
    match a with
    | ⟨0, _⟩ => exact ⟨Nat.le_refl 0, Nat.one_pos⟩
    | ⟨1, _⟩ => exact ⟨Nat.le_refl 0, Nat.one_pos⟩

section PerPoint
variable (x0 x1 x2 : Vec Ideal S3x80000 .f32) (x3 : Vec Ideal S2x80000 .f32) (prev : Vec Ideal S1x1 .f32)

/-- Rows 0 and 1 of the mask block are 1 − (row 0 of the flags), row 2 is 1 − (row 1 of the flags). -/
theorem pay4_row0 (l : Fin 80000) : k1_pay4 (F := Ideal) x3 (ix2 (0 : Fin 3) l) = Cert.Spec.k1 - x3 (ix2 (0 : Fin 2) l) := by
  delta k1_pay4
  refine (concatenate_apply_piece (t := S3x80000) 0 _ _ (ix2 (0 : Fin 3) l) 0 (by simp) S1x80000 _ rfl rfl 0 rfl
    (ix2 (0 : Fin 1) l) (fun b hb => ?_) rfl).trans ?_
  · match b with
    | ⟨0, _⟩ => exact absurd rfl hb
    | ⟨1, _⟩ => rfl
  · show Cert.Spec.k1 - extractStridedSlice S1x80000 ![0, 0] (shapeCast S2x80000 x3 _) _ (ix2 (0 : Fin 1) l) = _
    rw [shapeCast_self, slice2_axis0_apply 0 x3 _ (0 : Fin 1) l (0 : Fin 2) rfl]

/-- Row 1 of the mask block. -/
theorem pay4_row1 (l : Fin 80000) : k1_pay4 (F := Ideal) x3 (ix2 (1 : Fin 3) l) = Cert.Spec.k1 - x3 (ix2 (0 : Fin 2) l) := by
  delta k1_pay4
  refine (concatenate_apply_piece (t := S3x80000) 0 _ _ (ix2 (1 : Fin 3) l) 1 (by simp) S1x80000 _ rfl rfl 1 rfl
    (ix2 (0 : Fin 1) l) (fun b hb => ?_) rfl).trans ?_
  · match b with
    | ⟨0, _⟩ => exact absurd rfl hb
    | ⟨1, _⟩ => rfl
  · show Cert.Spec.k1 - extractStridedSlice S1x80000 ![0, 0] (shapeCast S2x80000 x3 _) _ (ix2 (0 : Fin 1) l) = _
    rw [shapeCast_self, slice2_axis0_apply 0 x3 _ (0 : Fin 1) l (0 : Fin 2) rfl]

/-- Row 2 of the mask block. -/
theorem pay4_row2 (l : Fin 80000) : k1_pay4 (F := Ideal) x3 (ix2 (2 : Fin 3) l) = Cert.Spec.k1 - x3 (ix2 (1 : Fin 2) l) := by
  delta k1_pay4
  refine (concatenate_apply_piece (t := S3x80000) 0 _ _ (ix2 (2 : Fin 3) l) 2 (by simp) S1x80000 _ rfl rfl 2 rfl
    (ix2 (0 : Fin 1) l) (fun b hb => ?_) rfl).trans ?_
  · match b with
    | ⟨0, _⟩ => exact absurd rfl hb
    | ⟨1, _⟩ => rfl
  · show Cert.Spec.k1 - extractStridedSlice S1x80000 ![1, 0] (shapeCast S2x80000 x3 _) _ (ix2 (0 : Fin 1) l) = _
    rw [shapeCast_self, slice2_axis0_apply 1 x3 _ (0 : Fin 1) l (1 : Fin 2) rfl]

/-- The squared, masked, scaled residual of a block at (j, l). -/
def sqB (j : Fin 3) (l : Fin 80000) : EReal :=
  (((x0 (ix2 j l) - x1 (ix2 j l)) * k1_pay4 (F := Ideal) x3 (ix2 j l)) * (x2 (ix2 j l) * x2 (ix2 j l)))
    * (((x0 (ix2 j l) - x1 (ix2 j l)) * k1_pay4 (F := Ideal) x3 (ix2 j l)) * (x2 (ix2 j l) * x2 (ix2 j l)))

/-- The two one-axis sums of a 3 x 80000 block, read at the one index of the 1x1 result: the sum over the lanes of the
    sums over the three rows. -/
theorem total_apply (v : FVec Ideal S3x80000 .f32) :
    shapeCast S1x1 (multiReduction .add [1] S1 (shapeCast S1x80000
        (multiReduction .add [0] S80000 v 0x00000000#32 Facts₀.reduces_S3x80000_S80000 (.inl rfl) rfl)
        Facts₀.shapeCasts_S80000_S1x80000) 0x00000000#32 Facts₀.reduces_S1x80000_S1 (.inl rfl) rfl) Facts₀.shapeCasts_S1_S1x1
      (ix2 (0 : Fin 1) (0 : Fin 1))
      = ∑ l : Fin 80000, ∑ j : Fin 3, v (ix2 j l) := by
  refine (shapeCast_a_1a_apply _ _ 0 0).trans ?_
  refine (Ideal.multiReduction_add_single _ _ _ _ _ (ix1 (0 : Fin 1))).trans ?_
  refine Finset.sum_congr rfl fun l _ => ?_
  have e : Facts₀.reduces_S1x80000_S1.lift (ix1 (0 : Fin 1)) l = ix2 (0 : Fin 1) l := by
    funext a
    match a with
    | ⟨0, _⟩ => rfl
    | ⟨1, _⟩ => rfl
  refine (congrArg _ e).trans ?_
  refine (shapeCast_a_1a_apply _ _ 0 l).trans ?_
  refine (Ideal.multiReduction_add_single _ _ _ _ _ (ix1 l)).trans ?_
  refine Finset.sum_congr rfl fun j _ => ?_
  have e2 : Facts₀.reduces_S3x80000_S80000.lift (ix1 l) j = ix2 j l := by
    funext a
    match a with
    | ⟨0, _⟩ => rfl
    | ⟨1, _⟩ => rfl
  exact congrArg v e2

/-- The first output's step at its one index: what it held plus the block's sum of squared residuals. -/
theorem pay6_apply :
    k1_pay6 (F := Ideal) x0 x1 x2 x3 prev (ix2 (0 : Fin 1) (0 : Fin 1))
      = prev (ix2 (0 : Fin 1) (0 : Fin 1)) + ∑ l : Fin 80000, ∑ j : Fin 3, sqB x0 x1 x2 x3 j l := by
  delta k1_pay6
  dsimp only
  rw [shapeCast_self, shapeCast_self, shapeCast_self, shapeCast_self]
  refine (addf_apply _ _ _).trans ?_
  exact congrArg _ (total_apply _)

/-- The block's sum of the mask. -/
theorem pay5_apply :
    k1_pay5 (F := Ideal) x3 (ix2 (0 : Fin 1) (0 : Fin 1)) = ∑ l : Fin 80000, ∑ j : Fin 3, k1_pay4 (F := Ideal) x3 (ix2 j l) := by
  delta k1_pay5
  dsimp only
  exact total_apply _

/-- The second output's step at its one index: what it held plus the partial sum. -/
theorem pay1_apply (p : FVec Ideal S1x1 .f32) :
    k1_pay1 (F := Ideal) p prev (ix2 (0 : Fin 1) (0 : Fin 1)) = prev (ix2 (0 : Fin 1) (0 : Fin 1)) + p (ix2 (0 : Fin 1) (0 : Fin 1)) := by
  delta k1_pay1
  rw [shapeCast_self]
  rfl

/-- The two zero blocks stored at point 0. -/
theorem pay2_apply (i : S1x1.Idx) : (k1_pay2 (F := Ideal)) i = 0 := Ideal.ofBits_zero_f32
theorem pay3_apply (i : S1x1.Idx) : (k1_pay3 (F := Ideal)) i = 0 := Ideal.ofBits_zero_f32

end PerPoint

/-- Region 1's grid has one axis, so a point's one coordinate is the point's number. -/
theorem coords1_val (t : Fin cfg1.N) : (grid1.coords t 0).val = t.val := by
  have hN : cfg1.N = 25 := N_1
  have ht : t.val < 25 := hN ▸ t.isLt
  show t.val / grid1.stride 0 % 25 = t.val
  rw [show grid1.stride 0 = 1 from by decide, Nat.div_one, Nat.mod_eq_of_lt ht]

/-- The block index of the four input windows at point t is (0, t). -/
theorem index1_in (t : Fin cfg1.N) :
    (win1_0.index t 0 = 0 ∧ win1_0.index t 1 = t.val) ∧ (win1_1.index t 0 = 0 ∧ win1_1.index t 1 = t.val)
    ∧ (win1_2.index t 0 = 0 ∧ win1_2.index t 1 = t.val) ∧ (win1_3.index t 0 = 0 ∧ win1_3.index t 1 = t.val) := by
  have hN : cfg1.N = 25 := N_1
  have ht : t.val < 25 := hN ▸ t.isLt
  have e : (BitVec.ofNat 32 (grid1.coords t 0).val).toNat = t.val := by
    rw [BitVec.toNat_ofNat, coords1_val, Nat.mod_eq_of_lt]; omega
  exact ⟨⟨rfl, e⟩, ⟨rfl, e⟩, ⟨rfl, e⟩, ⟨rfl, e⟩⟩

section Blocks
variable (c : Dev nD) (t : Fin cfg1.N) (l : Fin 80000) (n : Fin 2000000) (hn : n.val = t.val * 80000 + l.val)
include hn

/-- Block t of the internal forces at (j, l) is the array at (j, 80000·t + l); likewise the other three inputs. -/
theorem iblk1_0_apply (j : Fin 3) : (iblk1 (F := Ideal) V c 0 t : S3x80000.Idx → EReal) (ix2 j l) = FiK V c j n := by
  delta iblk1
  unfold FiK
  rw [View.read_apply]
  show V c main_v33 _ = V c main_v33 _
  congr 1
  funext a
  apply Fin.ext
  match a with
  | ⟨0, _⟩ => show win1_0.index t 0 * 3 + 1 * j.val = j.val; rw [(index1_in t).1.1]; omega
  | ⟨1, _⟩ => show win1_0.index t 1 * 80000 + 1 * l.val = n.val; rw [(index1_in t).1.2, hn]; omega

/-- The external forces. -/
theorem iblk1_1_apply (j : Fin 3) : (iblk1 (F := Ideal) V c 1 t : S3x80000.Idx → EReal) (ix2 j l) = FeK V c j n := by
  delta iblk1
  unfold FeK
  rw [View.read_apply]
  show V c main_v34 _ = V c main_v34 _
  congr 1
  funext a
  apply Fin.ext
  match a with
  | ⟨0, _⟩ => show win1_1.index t 0 * 3 + 1 * j.val = j.val; rw [(index1_in t).2.1.1]; omega
  | ⟨1, _⟩ => show win1_1.index t 1 * 80000 + 1 * l.val = n.val; rw [(index1_in t).2.1.2, hn]; omega

/-- The Jacobi scale. -/
theorem iblk1_2_apply (j : Fin 3) : (iblk1 (F := Ideal) V c 2 t : S3x80000.Idx → EReal) (ix2 j l) = JK V c j n := by
  delta iblk1
  unfold JK
  rw [View.read_apply]
  show V c main_v35 _ = V c main_v35 _
  congr 1
  funext a
  apply Fin.ext
  match a with
  | ⟨0, _⟩ => show win1_2.index t 0 * 3 + 1 * j.val = j.val; rw [(index1_in t).2.2.1.1]; omega
  | ⟨1, _⟩ => show win1_2.index t 1 * 80000 + 1 * l.val = n.val; rw [(index1_in t).2.2.1.2, hn]; omega

/-- The boundary flags (two rows). -/
theorem iblk1_3_apply (r : Fin 2) : (iblk1 (F := Ideal) V c 3 t : S2x80000.Idx → EReal) (ix2 r l) = bcK V c r n := by
  delta iblk1
  unfold bcK
  rw [View.read_apply]
  show V c main_v38 _ = V c main_v38 _
  congr 1
  funext a
  apply Fin.ext
  match a with
  | ⟨0, _⟩ => show win1_3.index t 0 * 2 + 1 * r.val = r.val; rw [(index1_in t).2.2.2.1]; omega
  | ⟨1, _⟩ => show win1_3.index t 1 * 80000 + 1 * l.val = n.val; rw [(index1_in t).2.2.2.2, hn]; omega

end Blocks

/-! ## The two running sums at their one index, and the whole sums -/

/-- The free-component mask of block t at (j, l) is the mask at (j, 80000·t + l). -/
theorem mask_apply (c : Dev nD) (t : Fin cfg1.N) (l : Fin 80000) (n : Fin 2000000) (hn : n.val = t.val * 80000 + l.val)
    (j : Fin 3) : k1_pay4 (F := Ideal) (iblk1 (F := Ideal) V c 3 t) (ix2 j l) = Cert.Spec.maskT (bcK V c) j n := by
  match j with
  | ⟨0, _⟩ => exact (pay4_row0 _ l).trans (congrArg (fun z => Cert.Spec.k1 - z) (iblk1_3_apply V c t l n hn 0))
  | ⟨1, _⟩ => exact (pay4_row1 _ l).trans (congrArg (fun z => Cert.Spec.k1 - z) (iblk1_3_apply V c t l n hn 0))
  | ⟨2, _⟩ => exact (pay4_row2 _ l).trans (congrArg (fun z => Cert.Spec.k1 - z) (iblk1_3_apply V c t l n hn 1))

/-- The squared residual of block t at (j, l) is the squared residual at (j, 80000·t + l). -/
theorem sq_apply (c : Dev nD) (t : Fin cfg1.N) (l : Fin 80000) (n : Fin 2000000) (hn : n.val = t.val * 80000 + l.val)
    (j : Fin 3) :
    sqB (iblk1 (F := Ideal) V c 0 t) (iblk1 (F := Ideal) V c 1 t) (iblk1 (F := Ideal) V c 2 t) (iblk1 (F := Ideal) V c 3 t) j l
      = Cert.Spec.sqT (FiK V c) (FeK V c) (JK V c) (bcK V c) j n := by
  delta Cert.Spec.sqT
  unfold sqB
  rw [mask_apply V c t l n hn j, iblk1_0_apply V c t l n hn j, iblk1_1_apply V c t l n hn j, iblk1_2_apply V c t l n hn j]

/-- Column l of block t is a column of the array. -/
theorem blk_lt (t : Fin cfg1.N) (l : Fin 80000) : t.val * 80000 + l.val < 2000000 := by
  have hN : cfg1.N = 25 := N_1
  have := t.isLt; have := l.isLt; omega

/-- Point t's partial sum of the squared residuals, over the node components of its block. -/
theorem part4_eq (c : Dev nD) (t : Fin cfg1.N) :
    (∑ l : Fin 80000, ∑ j : Fin 3,
        sqB (iblk1 (F := Ideal) V c 0 t) (iblk1 (F := Ideal) V c 1 t) (iblk1 (F := Ideal) V c 2 t) (iblk1 (F := Ideal) V c 3 t) j l)
      = ∑ l : Fin 80000, ∑ j : Fin 3,
          Cert.Spec.sqT (FiK V c) (FeK V c) (JK V c) (bcK V c) j ⟨t.val * 80000 + l.val, blk_lt t l⟩ :=
  Finset.sum_congr rfl fun l _ => Finset.sum_congr rfl fun j _ => sq_apply V c t l _ rfl j

/-- Point t's partial count of the free components. -/
theorem part5_eq (c : Dev nD) (t : Fin cfg1.N) :
    (∑ l : Fin 80000, ∑ j : Fin 3, k1_pay4 (F := Ideal) (iblk1 (F := Ideal) V c 3 t) (ix2 j l))
      = ∑ l : Fin 80000, ∑ j : Fin 3, Cert.Spec.maskT (bcK V c) j ⟨t.val * 80000 + l.val, blk_lt t l⟩ :=
  Finset.sum_congr rfl fun l _ => Finset.sum_congr rfl fun j _ => mask_apply V c t l _ rfl j

/-- After point n the first output holds the partial sums of the points 0 … n added up (from the zero stored at point 0). -/
theorem acc4_apply (c : Dev nD) : ∀ (n : ℕ) (hn : n < cfg1.N),
    acc4 (F := Ideal) V c n hn (ix2 (0 : Fin 1) (0 : Fin 1))
      = ∑ t : Fin (n + 1), ∑ l : Fin 80000, ∑ j : Fin 3,
          Cert.Spec.sqT (FiK V c) (FeK V c) (JK V c) (bcK V c) j
            ⟨t.val * 80000 + l.val, blk_lt ⟨t.val, Nat.lt_of_lt_of_le t.isLt hn⟩ l⟩
  | 0, hn => by
    rw [Fin.sum_univ_one]
    have e : acc4 (F := Ideal) V c 0 hn = k1_pay6 (F := Ideal) (iblk1 (F := Ideal) V c 0 ⟨0, hn⟩) (iblk1 (F := Ideal) V c 1 ⟨0, hn⟩)
        (iblk1 (F := Ideal) V c 2 ⟨0, hn⟩) (iblk1 (F := Ideal) V c 3 ⟨0, hn⟩) (k1_pay2 (F := Ideal)) := rfl
    rw [e, pay6_apply, pay2_apply, zero_add, part4_eq]
    rfl
  | n + 1, hn => by
    rw [Fin.sum_univ_castSucc]
    have e : acc4 (F := Ideal) V c (n + 1) hn = k1_pay6 (F := Ideal) (iblk1 (F := Ideal) V c 0 ⟨n + 1, hn⟩)
        (iblk1 (F := Ideal) V c 1 ⟨n + 1, hn⟩) (iblk1 (F := Ideal) V c 2 ⟨n + 1, hn⟩) (iblk1 (F := Ideal) V c 3 ⟨n + 1, hn⟩)
        (acc4 (F := Ideal) V c n (Nat.lt_of_succ_lt hn)) := rfl
    rw [e, pay6_apply, acc4_apply c n, part4_eq]
    rfl

/-- After point n the second output holds the partial counts of the points 0 … n added up. -/
theorem acc5_apply (c : Dev nD) : ∀ (n : ℕ) (hn : n < cfg1.N),
    acc5 (F := Ideal) V c n hn (ix2 (0 : Fin 1) (0 : Fin 1))
      = ∑ t : Fin (n + 1), ∑ l : Fin 80000, ∑ j : Fin 3,
          Cert.Spec.maskT (bcK V c) j ⟨t.val * 80000 + l.val, blk_lt ⟨t.val, Nat.lt_of_lt_of_le t.isLt hn⟩ l⟩
  | 0, hn => by
    rw [Fin.sum_univ_one]
    have e : acc5 (F := Ideal) V c 0 hn = k1_pay1 (F := Ideal) (k1_pay5 (F := Ideal) (iblk1 (F := Ideal) V c 3 ⟨0, hn⟩)) (k1_pay3 (F := Ideal)) := rfl
    rw [e, pay1_apply, pay3_apply, zero_add, pay5_apply, part5_eq]
    rfl
  | n + 1, hn => by
    rw [Fin.sum_univ_castSucc]
    have e : acc5 (F := Ideal) V c (n + 1) hn = k1_pay1 (F := Ideal) (k1_pay5 (F := Ideal) (iblk1 (F := Ideal) V c 3 ⟨n + 1, hn⟩))
        (acc5 (F := Ideal) V c n (Nat.lt_of_succ_lt hn)) := rfl
    rw [e, pay1_apply, acc5_apply c n, pay5_apply, part5_eq]
    rfl

/-- The 25 blocks of 80000 columns tile the 2000000 columns. -/
theorem blocks_eq : 25 * 80000 = 2000000 := by decide

end Val1

/-! ## The two results -/

/-- The first 1x1 output of region 1 ends holding the sum, over all node components, of the squared masked scaled residuals. -/
theorem arr1_sumsq (c : Dev nD) :
    ((dat1 (F := Ideal) V c).arrAt 4 cfg1.N : S1x1.Idx → EReal) (ix2 (0 : Fin 1) (0 : Fin 1))
      = ∑ n : Fin 2000000, ∑ j : Fin 3, Cert.Spec.sqT (FiK V c) (FeK V c) (JK V c) (bcK V c) j n :=
  (congrFun (Val1.arr1_4_eq V c) _).trans ((Val1.acc4_apply V c 24 Val1.lt24).trans
    (Cert.Lib.sum_blocks₂ (T := 25) (L := 80000) Val1.blocks_eq
      (fun j n => Cert.Spec.sqT (FiK V c) (FeK V c) (JK V c) (bcK V c) j n) _))

/-- The second ends holding the number of free node components: the sum of the mask. -/
theorem arr1_nfree (c : Dev nD) :
    ((dat1 (F := Ideal) V c).arrAt 5 cfg1.N : S1x1.Idx → EReal) (ix2 (0 : Fin 1) (0 : Fin 1))
      = ∑ n : Fin 2000000, ∑ j : Fin 3, Cert.Spec.maskT (bcK V c) j n :=
  (congrFun (Val1.arr1_5_eq V c) _).trans ((Val1.acc5_apply V c 24 Val1.lt24).trans
    (Cert.Lib.sum_blocks₂ (T := 25) (L := 80000) Val1.blocks_eq (fun j n => Cert.Spec.maskT (bcK V c) j n) _))

end Cert.KernelIdeal.Hand

end
-- ==== Proof.Bridge1.lean ====
/-
  The kernel's program computes the specification's loss.

  The result is (sum of squares) / max(free count, 1), the two sums being region 1's two outputs; region 1 is entered with the
  transposed internal forces, external forces, scales and flags, so its outputs are the specification's two sums over all node
  components of those arrays; and the internal forces it is entered with are the two scatter-adds of the element end forces.
-/
import proofs.«406654_j12146167513818_3_alg».proof.Proof.KIRun
import proofs.«406654_j12146167513818_3_alg».proof.Proof.KIVal1
import proofs.«406654_j12146167513818_3_alg».proof.Proof.KIHost1
import proofs.«406654_j12146167513818_3_alg».proof.Proof.Spec

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The flags as the specification takes them: row 0 the displacement flags, row 1 the rotation flags. -/
def bcM (r : Fin 2) (n : Fin 2000000) : EReal := match r with
  | ⟨0, _⟩ => (m ((c : Thread nD τ).loc main_arg9) : S2000000x1.Idx → EReal) (ix2 n 0)
  | ⟨1, _⟩ => (m ((c : Thread nD τ).loc main_arg10) : S2000000x1.Idx → EReal) (ix2 n 0)

/-- Region 1 is entered with the internal forces transposed; -/
theorem FiK_eq : FiK (V6 m) c = fun j n => FintK m c (ix2 n j) := by
  funext j n; exact W6_v33 m c j n
/-- with the external forces transposed; -/
theorem FeK_eq : FeK (V6 m) c = fun j n => (m ((c : Thread nD τ).loc main_arg8) : S2000000x3.Idx → EReal) (ix2 n j) := by
  funext j n; exact W6_v34 m c j n
/-- with the scales transposed; -/
theorem JK_eq : JK (V6 m) c = fun j n => (m ((c : Thread nD τ).loc main_arg1) : S2000000x3.Idx → EReal) (ix2 n j) := by
  funext j n; exact W6_v35 m c j n
/-- and with the two rows of flags. -/
theorem bcK_eq : bcK (V6 m) c = bcM m c := by
  funext r n
  refine (W6_v38 m c r n).trans ?_
  match r with
  | ⟨0, _⟩ => rfl
  | ⟨1, _⟩ => rfl

/-- Region 1's two outputs at the program's end are its pipeline's final arrays. -/
theorem W7_v39_0 : W7 m c (Proc.devRef .tc main_v39_0) = (dat1 (F := Ideal) (V6 m) c).arrAt 4 cfg1.N := W7_arr m c 4
theorem W7_v39_1 : W7 m c (Proc.devRef .tc main_v39_1) = (dat1 (F := Ideal) (V6 m) c).arrAt 5 cfg1.N := W7_arr m c 5

/-- The kernel program's result is the specification's loss of its internal forces and the inputs. -/
theorem kernel_loss :
    (W8 m c (Proc.devRef .tc main_v43) : S_.Idx → EReal)
      = fun _ => Cert.Spec.loss (fun j n => FintK m c (ix2 n j))
          (fun j n => (m ((c : Thread nD τ).loc main_arg8) : S2000000x3.Idx → EReal) (ix2 n j))
          (fun j n => (m ((c : Thread nD τ).loc main_arg1) : S2000000x3.Idx → EReal) (ix2 n j)) (bcM m c) := by
  refine (W8_v43 m c).trans ?_
  funext _
  rw [W7_v39_0, W7_v39_1, arr1_sumsq, arr1_nfree, FiK_eq, FeK_eq, JK_eq, bcK_eq]
  rfl

end Cert.Bridge

end
-- ==== Proof.Bridge2.lean ====
/-
  The two idealized programs compute one loss: the last link.

  Where the reference's launch memory agrees with the kernel program's on the arguments, and every entry of the index input
  lies in [−2000000, 2000000): element by element the two programs read the same data (the direction cosines and the properties
  are the same arguments re-laid; the end displacements are the same gathers, the kernel program's row take keeping every
  gathered row under the index range); so region 0's two end-force arrays, transposed, are the reference's end forces, entry
  by entry the specification's forces of the same data; so the two internal-force tables are the same scatter-adds of the same
  forces at the same wrapped indices into the same zero table; and both results are the specification's loss of the same
  internal forces, external forces, scales and flags.
-/
import proofs.«406654_j12146167513818_3_alg».proof.Proof.KIRun
import proofs.«406654_j12146167513818_3_alg».proof.Proof.KIPre
import proofs.«406654_j12146167513818_3_alg».proof.Proof.KIVal0
import proofs.«406654_j12146167513818_3_alg».proof.Proof.KIHost0
import proofs.«406654_j12146167513818_3_alg».proof.Proof.KIHostT
import proofs.«406654_j12146167513818_3_alg».proof.Proof.KIHostT2
import proofs.«406654_j12146167513818_3_alg».proof.Proof.KIHost1
import proofs.«406654_j12146167513818_3_alg».proof.Proof.RefEdge
import proofs.«406654_j12146167513818_3_alg».proof.Proof.RefVal
import proofs.«406654_j12146167513818_3_alg».proof.Proof.RefForce
import proofs.«406654_j12146167513818_3_alg».proof.Proof.RefLoss
import proofs.«406654_j12146167513818_3_alg».proof.Proof.Agree
import proofs.«406654_j12146167513818_3_alg».proof.Proof.Bridge1
import proofs.«406654_j12146167513818_3_alg».proof.Proof.Spec
import proofs.«406654_j12146167513818_3_alg».proof.Defs

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem

variable [Cert.KernelIdeal.Facts] [Cert.ReferenceIdeal.Facts] [Cert.Pre_finite_inputs.Facts]
  (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)
  (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10))
  (hr : ∀ i, -(2000000 : Int) ≤ ((m ((c.tc : Thread nD τ).loc main_arg2) : IVec S4000000x2 32) i).toInt
      ∧ ((m ((c.tc : Thread nD τ).loc main_arg2) : IVec S4000000x2 32) i).toInt < 2000000)

/-- the reference's launch contents on core c -/
local notation "V0" => StableHlo.launchContents m' c

/-! ## Two elements' data are equal when their twelve entries are -/

theorem edgeIn_ext {x y : Cert.Spec.EdgeIn} (hc : x.c = y.c) (hs : x.s = y.s) (ha0 : x.a0 = y.a0) (ha1 : x.a1 = y.a1)
    (ha2 : x.a2 = y.a2) (hb0 : x.b0 = y.b0) (hb1 : x.b1 = y.b1) (hb2 : x.b2 = y.b2) (hL : x.L = y.L) (hE : x.E = y.E)
    (hA : x.A = y.A) (hI : x.I = y.I) : x = y := by
  cases x; cases y
  simp only [Cert.Spec.EdgeIn.mk.injEq]
  exact ⟨hc, hs, ha0, ha1, ha2, hb0, hb1, hb2, hL, hE, hA, hI⟩

/-! ## The gathered displacements -/

include hagree hr in
/-- Under the index range the row take keeps every gathered row, so the kernel program's gathered displacements at the first
    ends are the reference's. -/
theorem take0_eq :
    @Eq (S4000000x3.Idx → EReal) (W2 m c (Proc.devRef .tc main_v5)) (Cert.ReferenceIdeal.Value.res_main_v15 (F := Ideal) V0) := by
  obtain ⟨h0, h1, h2, -⟩ := hagree c
  refine (W2_v5 m c).trans ?_
  rw [take_select (conCol0 (m ((c.tc : Thread nD τ).loc main_arg2))) (conCol0_range _ hr)]
  exact (gatherA_eq m m' c h0 h1 h2).symm

include hagree hr in
/-- The same at the second ends. -/
theorem take1_eq :
    @Eq (S4000000x3.Idx → EReal) (W3 m c (Proc.devRef .tc main_v6)) (Cert.ReferenceIdeal.Value.res_main_v22 (F := Ideal) V0) := by
  obtain ⟨h0, h1, h2, -⟩ := hagree c
  refine (W3_v6 m c).trans ?_
  rw [take_select (conCol1 (m ((c.tc : Thread nD τ).loc main_arg2))) (conCol1_range _ hr)]
  exact (gatherB_eq m m' c h0 h1 h2).symm

/-! ## Element by element the two programs read the same data -/

include hagree hr in
/-- Element e's data as region 0 finds them are the reference's: the direction cosines and the properties are the same
    arguments re-laid, the end displacements the same gathers. -/
theorem edge_eq (e : Fin 4000000) : edgeK (V4 m) c e = Cert.ReferenceIdeal.Hand.edgeR V0 e := by
  obtain ⟨h0, h1, h2, h3, h4, h5, h6, h7, -⟩ := hagree c
  have t0 := take0_eq m m' c hagree hr
  have t1 := take1_eq m m' c hagree hr
  unfold edgeK Cert.ReferenceIdeal.Hand.edgeR
  rw [Cert.Spec.EdgeIn.mk.injEq]
  refine ⟨?_, ?_, ?_, ?_, ?_, ?_, ?_, ?_, ?_, ?_, ?_, ?_⟩
  · exact (W4_v9 m c 0 e).trans (congrFun h7 (ix2 e 0)).symm
  · exact (W4_v9 m c 2 e).trans (congrFun h7 (ix2 e 2)).symm
  · exact (W4_v7 m c 0 e).trans (congrFun t0 (ix2 e 0))
  · exact (W4_v7 m c 1 e).trans (congrFun t0 (ix2 e 1))
  · exact (W4_v7 m c 2 e).trans (congrFun t0 (ix2 e 2))
  · exact (W4_v8 m c 0 e).trans (congrFun t1 (ix2 e 0))
  · exact (W4_v8 m c 1 e).trans (congrFun t1 (ix2 e 1))
  · exact (W4_v8 m c 2 e).trans (congrFun t1 (ix2 e 2))
  · exact (W4_v14 m c 0 e).trans (congrFun h3 (ix1 e)).symm
  · exact (W4_v14 m c 1 e).trans (congrFun h4 (ix1 e)).symm
  · exact (W4_v14 m c 2 e).trans (congrFun h5 (ix1 e)).symm
  · exact (W4_v14 m c 3 e).trans (congrFun h6 (ix1 e)).symm

/-! ## The end forces -/

include hagree hr in
/-- Region 0's end-A force array, transposed, is the reference's end-A forces. -/
theorem fA_eq :
    @Eq (S4000000x3.Idx → EReal)
      (transpose S4000000x3 [1, 0] (W5 m c (Proc.devRef .tc main_v15_0)) transposes_S3x4000000_S4000000x3_1_0)
      (Cert.ReferenceIdeal.Hand.fAR V0) := by
  funext i
  obtain ⟨e, j, rfl⟩ : ∃ (e : Fin 4000000) (j : Fin 3), i = ix2 e j := ⟨i 0, i 1, eq_ix2 i⟩
  refine (transpose_E3 _ e j).trans ?_
  refine (congrFun (W5_arr m c 4) (ix2 j e)).trans ?_
  refine (arr0_A (V4 m) c j e).trans ?_
  rw [edge_eq m m' c hagree hr e]
  exact (Cert.ReferenceIdeal.Hand.fAR_apply V0 e j).symm

include hagree hr in
/-- Region 0's end-B force array, transposed, is the reference's end-B forces. -/
theorem fB_eq :
    @Eq (S4000000x3.Idx → EReal)
      (transpose S4000000x3 [1, 0] (W5 m c (Proc.devRef .tc main_v15_1)) transposes_S3x4000000_S4000000x3_1_0)
      (Cert.ReferenceIdeal.Hand.fBR V0) := by
  funext i
  obtain ⟨e, j, rfl⟩ : ∃ (e : Fin 4000000) (j : Fin 3), i = ix2 e j := ⟨i 0, i 1, eq_ix2 i⟩
  refine (transpose_E3 _ e j).trans ?_
  refine (congrFun (W5_arr m c 5) (ix2 j e)).trans ?_
  refine (arr0_B (V4 m) c j e).trans ?_
  rw [edge_eq m m' c hagree hr e]
  exact (Cert.ReferenceIdeal.Hand.fBR_apply V0 e j).symm

/-! ## The internal forces -/

include hagree hr in
/-- The two programs scatter-add the same end forces at the same wrapped indices into the same zero table. -/
theorem Fint_eq : @Eq (S2000000x3.Idx → EReal) (FintK m c) (Cert.ReferenceIdeal.Hand.FintR V0) := by
  obtain ⟨-, -, h2, -⟩ := hagree c
  unfold FintK Cert.ReferenceIdeal.Hand.FintR Cert.ReferenceIdeal.Hand.idxAR Cert.ReferenceIdeal.Hand.idxBR
  rw [fA_eq m m' c hagree hr, fB_eq m m' c hagree hr, idxA_eq m m' c h2, idxB_eq m m' c h2]
  rfl

/-! ## The result -/

include hagree in
/-- The boundary flags are the same arguments. -/
theorem bc_eq : Cert.ReferenceIdeal.Hand.bcR V0 = bcM m c := by
  obtain ⟨-, -, -, -, -, -, -, -, -, h9, h10⟩ := hagree c
  funext r n
  match r with
  | ⟨0, _⟩ => exact congrFun h9 (ix2 n 0)
  | ⟨1, _⟩ => exact congrFun h10 (ix2 n 0)

include hagree hr in
/-- The reference's result is the kernel program's: both are the specification's loss of the same internal forces, external
    forces, scales and flags. -/
theorem result_eq :
    @Eq (S_.Idx → EReal)
      (Host.divf (Host.reduceAdd (mulf (Cert.ReferenceIdeal.Value.res_main_v152 (F := Ideal) V0) (Cert.ReferenceIdeal.Value.res_main_v152 (F := Ideal) V0)) (constant (F := Ideal) Cert.ReferenceIdeal.S_ .f32 0x00000000#32) Cert.ReferenceIdeal.Gen.reducesTo_S2000000x3_S_d0_1 Cert.ReferenceIdeal.Gen.h_S_)
        (maximumf (Host.reduceAdd (Cert.ReferenceIdeal.Value.res_main_v149 (F := Ideal) V0) (constant (F := Ideal) Cert.ReferenceIdeal.S_ .f32 0x00000000#32) Cert.ReferenceIdeal.Gen.reducesTo_S2000000x3_S_d0_1 Cert.ReferenceIdeal.Gen.h_S_) (constant (F := Ideal) Cert.ReferenceIdeal.S_ .f32 0x3F800000#32)))
      (W8 m c (Proc.devRef .tc main_v43)) := by
  obtain ⟨-, h1, -, -, -, -, -, -, h8, -⟩ := hagree c
  refine (Cert.ReferenceIdeal.Hand.ref_result V0).trans ?_
  refine Eq.trans ?_ (kernel_loss m c).symm
  have e1 : (V0 (Proc.devRef .tc Cert.ReferenceIdeal.main_arg1) : S2000000x3.Idx → EReal) = m ((c.tc : Thread nD τ).loc main_arg1) := h1
  have e8 : (V0 (Proc.devRef .tc Cert.ReferenceIdeal.main_arg8) : S2000000x3.Idx → EReal) = m ((c.tc : Thread nD τ).loc main_arg8) := h8
  rw [← Fint_eq m m' c hagree hr, bc_eq m m' c hagree, e1, e8]
  rfl

end Cert.Bridge

end
-- ==== Proof.lean ====
/-
  The certificate's claim: the three frames, the (empty) idealization ledger, and the equivalence of the two idealized programs
  over the extended reals.

  The kernel's program is two pipelined regions among stretches of host operations. Its frame (at the word level and at the ideal
  instance alike) is the run of its segments: each host stretch advances the buffers' contents by its operations, each region
  by what its pipeline writes back, and no item writes an argument. The reference is host operations only: its frame is its
  generated run with the result dropped.
  The equivalence holds where every entry of the index input lies in [−2000000, 2000000), which the precondition states: there
  the row take's in-range mask is all ones, both programs gather the same displacement rows, compute the same end forces element
  by element, scatter-add them at the same wrapped indices, and sum the same squared masked scaled residuals; the kernel's
  block-by-block running sums and the reference's single sums over all node components are the same sum on the extended reals,
  whose addition is commutative and associative. Both results are the specification's loss of the same data.
-/
import proofs.«406654_j12146167513818_3_alg».proof.Defs
import proofs.«406654_j12146167513818_3_alg».proof.Proof.Gen.Kernel
import proofs.«406654_j12146167513818_3_alg».proof.Proof.Gen.KernelIdeal
import proofs.«406654_j12146167513818_3_alg».proof.Proof.Gen.ReferenceIdeal
import proofs.«406654_j12146167513818_3_alg».proof.Proof.Gen.ReferenceIdeal.Run
import proofs.«406654_j12146167513818_3_alg».proof.Proof.Gen.Pre_finite_inputs
import proofs.«406654_j12146167513818_3_alg».proof.Proof.KRun
import proofs.«406654_j12146167513818_3_alg».proof.Proof.KIRun
import proofs.«406654_j12146167513818_3_alg».proof.Proof.KIPre
import proofs.«406654_j12146167513818_3_alg».proof.Proof.Bridge2

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

open Cert.KernelIdeal Cert.KernelIdeal.Hand in
/-- Both idealized programs run to the end, leave their arguments unchanged, and end with the same result: the kernel's program
    at what its last host stretch leaves in the result buffer, the reference at its run's term, equal by the bridge. -/
theorem algebraic : Cert.algebraic_KernelIdeal_ReferenceIdeal := by
  intro m ρ m' ρ' hpre hagree
  have hr : ∀ c : Dev nD, ∀ i, -(2000000 : Int) ≤ ((m ((c.tc : Thread nD τ).loc main_arg2) : IVec S4000000x2 32) i).toInt
      ∧ ((m ((c.tc : Thread nD τ).loc main_arg2) : IVec S4000000x2 32) i).toInt < 2000000 :=
    fun c i => Cert.PreFacts.conn_range _ _ _ _ _ _ _ _ _ _ _ (hpre c) i
  refine ⟨fun c => W8 m c (Proc.devRef .tc main_v43), ?_, ?_⟩
  · exact run_post m ρ fun s h c =>
      ⟨h c _ (mem_uc main_v43 (by decide)),
       (h c _ (mem_uc main_arg0 (by decide))).trans (W8_main_arg0 m c),
       (h c _ (mem_uc main_arg1 (by decide))).trans (W8_main_arg1 m c),
       (h c _ (mem_uc main_arg2 (by decide))).trans (W8_main_arg2 m c),
       (h c _ (mem_uc main_arg3 (by decide))).trans (W8_main_arg3 m c),
       (h c _ (mem_uc main_arg4 (by decide))).trans (W8_main_arg4 m c),
       (h c _ (mem_uc main_arg5 (by decide))).trans (W8_main_arg5 m c),
       (h c _ (mem_uc main_arg6 (by decide))).trans (W8_main_arg6 m c),
       (h c _ (mem_uc main_arg7 (by decide))).trans (W8_main_arg7 m c),
       (h c _ (mem_uc main_arg8 (by decide))).trans (W8_main_arg8 m c),
       (h c _ (mem_uc main_arg9 (by decide))).trans (W8_main_arg9 m c),
       (h c _ (mem_uc main_arg10 (by decide))).trans (W8_main_arg10 m c)⟩
  · refine (θ_run Cert.ReferenceIdeal.defs _ _).mono (fun _ h c => ⟨(h c).1.trans ?_, (h c).2⟩)
      (Cert.ReferenceIdeal.Value.run (F := Ideal) m' ρ')
    exact Cert.Bridge.result_eq m m' c hagree (hr c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
